-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x512 : Shape := ⟨2, ![8, 512]⟩
abbrev S64x512 : Shape := ⟨2, ![64, 512]⟩
abbrev S64 : Shape := ⟨1, ![64]⟩
abbrev S512x64 : Shape := ⟨2, ![512, 64]⟩
abbrev S512 : Shape := ⟨1, ![512]⟩
abbrev S512x512 : Shape := ⟨2, ![512, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_arg14 : FVec F S512 .f32) (main_arg15 : FVec F S512x512 .f32) (main_arg16 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  main_v83

def fn_part3 {F : FTy → Type} [FloatOps F] (main_arg11 : FVec F S512x64 .f32) (main_arg12 : FVec F S512 .f32) (main_arg13 : FVec F S512 .f32) (main_arg14 : FVec F S512 .f32) (main_arg15 : FVec F S512x512 .f32) (main_arg16 : FVec F S512 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S512x64 .f32 := Host.absf main_arg11
  let main_cst_20 : FVec F S_ .f32 := constant S_ .f32 0x7F800000#32
  let main_v55 : FVec F S512x64 .f32 := broadcastInDim S512x64 ![] bcast_S_S512x64 main_cst_20
  let main_v56 : IVec S512x64 1 := cmpf .olt main_v54 main_v55
  let main_c_21 : IVec S_ 1 := constantI S_ 1 1#1
  let main_v57 : IVec S_ 1 := (fun x v => Host.reduce IntOp.andi x v reducesTo_S512x64_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_v63 main_v67

def fn_part2 {F : FTy → Type} [FloatOps F] (main_arg7 : FVec F S512x64 .f32) (main_arg8 : FVec F S512 .f32) (main_arg9 : FVec F S64x512 .f32) (main_arg10 : FVec F S64 .f32) (main_arg11 : FVec F S512x64 .f32) (main_arg12 : FVec F S512 .f32) (main_arg13 : FVec F S512 .f32) (main_arg14 : FVec F S512 .f32) (main_arg15 : FVec F S512x512 .f32) (main_arg16 : FVec F S512 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S64x512 .f32 := Host.absf main_arg9
  let main_cst_16 : FVec F S_ .f32 := constant S_ .f32 0x7F800000#32
  let main_v45 : FVec F S64x512 .f32 := broadcastInDim S64x512 ![] bcast_S_S64x512 main_cst_16
  let main_v46 : IVec S64x512 1 := cmpf .olt main_v44 main_v45
  let main_c_17 : IVec S_ 1 := constantI S_ 1 1#1
  let main_v47 : IVec S_ 1 := (fun x v => Host.reduce IntOp.andi x v reducesTo_S64x512_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S64 .f32) (main_arg5 : FVec F S64x512 .f32) (main_arg6 : FVec F S64 .f32) (main_arg7 : FVec F S512x64 .f32) (main_arg8 : FVec F S512 .f32) (main_arg9 : FVec F S64x512 .f32) (main_arg10 : FVec F S64 .f32) (main_arg11 : FVec F S512x64 .f32) (main_arg12 : FVec F S512 .f32) (main_arg13 : FVec F S512 .f32) (main_arg14 : FVec F S512 .f32) (main_arg15 : FVec F S512x512 .f32) (main_arg16 : FVec F S512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x4096x512 .f32) (main_arg1 : FVec F S8x4096x512 .f32) (main_arg2 : FVec F S8x512 .f32) (main_arg3 : FVec F S64x512 .f32) (main_arg4 : FVec F S64 .f32) (main_arg5 : FVec F S64x512 .f32) (main_arg6 : FVec F S64 .f32) (main_arg7 : FVec F S512x64 .f32) (main_arg8 : FVec F S512 .f32) (main_arg9 : FVec F S64x512 .f32) (main_arg10 : FVec F S64 .f32) (main_arg11 : FVec F S512x64 .f32) (main_arg12 : FVec F S512 .f32) (main_arg13 : FVec F S512 .f32) (main_arg14 : FVec F S512 .f32) (main_arg15 : FVec F S512x512 .f32) (main_arg16 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x4096x512 : Shape := ⟨3, ![8, 4096, 512]⟩
abbrev S8x512 : Shape := ⟨2, ![8, 512]⟩
abbrev S64x512 : Shape := ⟨2, ![64, 512]⟩
abbrev S64 : Shape := ⟨1, ![64]⟩
abbrev S512x64 : Shape := ⟨2, ![512, 64]⟩
abbrev S512 : Shape := ⟨1, ![512]⟩
abbrev S512x512 : Shape := ⟨2, ![512, 512]⟩
abbrev S1x1x64 : Shape := ⟨3, ![1, 1, 64]⟩
abbrev S2x8x64 : Shape := ⟨3, ![2, 8, 64]⟩
abbrev S8x256x512 : Shape := ⟨3, ![8, 256, 512]⟩
abbrev S1x8x64 : Shape := ⟨3, ![1, 8, 64]⟩
abbrev S2048x512 : Shape := ⟨2, ![2048, 512]⟩
abbrev S2048x64 : Shape := ⟨2, ![2048, 64]⟩
abbrev S8x256x64 : Shape := ⟨3, ![8, 256, 64]⟩
abbrev S8x64 : Shape := ⟨2, ![8, 64]⟩
abbrev S_ : Shape := ⟨0, ![]⟩
abbrev S1x512 : Shape := ⟨2, ![1, 512]⟩
abbrev S1x64 : Shape := ⟨2, ![1, 64]⟩
abbrev S8 : Shape := ⟨1, ![8]⟩
abbrev S8x1 : Shape := ⟨2, ![8, 1]⟩

abbrev nBuf : Space → Nat
  | .hbm => 91
  | .vmem => 11
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x512, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S512x64, .f32⟩
  | .hbm, ⟨8, _⟩ => ⟨S512, .f32⟩
  | .hbm, ⟨9, _⟩ => ⟨S64x512, .f32⟩
  | .hbm, ⟨10, _⟩ => ⟨S64, .f32⟩
  | .hbm, ⟨11, _⟩ => ⟨S512x64, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x64, .f32⟩
  | .hbm, ⟨18, _⟩ => ⟨S512x64, .f32⟩
  | .hbm, ⟨19, _⟩ => ⟨S1x1x64, .f32⟩
  | .hbm, ⟨20, _⟩ => ⟨S1x1x64, .f32⟩
  | .hbm, ⟨21, _⟩ => ⟨S2x8x64, .f32⟩
  | .hbm, ⟨22, _⟩ => ⟨S_, .f32⟩
  | .hbm, ⟨23, _⟩ => ⟨S8x64, .f32⟩
  | .hbm, ⟨24, _⟩ => ⟨S64x512, .f32⟩
  | .hbm, ⟨25, _⟩ => ⟨S8x512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S8x512, .f32⟩
  | .hbm, ⟨31, _⟩ => ⟨S8x512, .f32⟩
  | .hbm, ⟨32, _⟩ => ⟨S512x64, .f32⟩
  | .hbm, ⟨33, _⟩ => ⟨S8x64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S1x64, .f32⟩
  | .hbm, ⟨38, _⟩ => ⟨S8x64, .f32⟩
  | .hbm, ⟨39, _⟩ => ⟨S8x64, .f32⟩
  | .hbm, ⟨40, _⟩ => ⟨S512x64, .f32⟩
  | .hbm, ⟨41, _⟩ => ⟨S8x64, .f32⟩
  | .hbm, ⟨42, _⟩ => ⟨S1x64, .f32⟩
  | .hbm, ⟨43, _⟩ => ⟨S8x64, .f32⟩
  | .hbm, ⟨44, _⟩ => ⟨S8x64, .f32⟩
  | .hbm, ⟨45, _⟩ => ⟨S8x64, .f32⟩
  | .hbm, ⟨46, _⟩ => ⟨S64x512, .f32⟩
  | .hbm, ⟨47, _⟩ => ⟨S8x512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S1x512, .f32⟩
  | .hbm, ⟨52, _⟩ => ⟨S8x512, .f32⟩
  | .hbm, ⟨53, _⟩ => ⟨S8x512, .f32⟩
  | .hbm, ⟨54, _⟩ => ⟨S_, .f32⟩
  | .hbm, ⟨55, _⟩ => ⟨S8x512, .f32⟩
  | .hbm, ⟨56, _⟩ => ⟨S8x512, .f32⟩
  | .hbm, ⟨57, _⟩ => ⟨S_, .f32⟩
  | .hbm, ⟨58, _⟩ => ⟨S8, .f32⟩
  | .hbm, ⟨59, _⟩ => ⟨S8x1, .f32⟩
  | .hbm, ⟨60, _⟩ => ⟨S_, .f32⟩
  | .hbm, ⟨61, _⟩ => ⟨S8x1, .f32⟩
  | .hbm, ⟨62, _⟩ => ⟨S8x1, .f32⟩
  | .hbm, ⟨63, _⟩ => ⟨S8x512, .f32⟩
  | .hbm, ⟨64, _⟩ => ⟨S8x512, .f32⟩
  | .hbm, ⟨65, _⟩ => ⟨S8x512, .f32⟩
  | .hbm, ⟨66, _⟩ => ⟨S_, .f32⟩
  | .hbm, ⟨67, _⟩ => ⟨S8, .f32⟩
  | .hbm, ⟨68, _⟩ => ⟨S8x1, .f32⟩
  | .hbm, ⟨69, _⟩ => ⟨S_, .f32⟩
  | .hbm, ⟨70, _⟩ => ⟨S8x1, .f32⟩
  | .hbm, ⟨71, _⟩ => ⟨S8x1, .f32⟩
  | .hbm, ⟨72, _⟩ => ⟨S8x512, .f32⟩
  | .hbm, ⟨73, _⟩ => ⟨S8x512, .f32⟩
  | .hbm, ⟨74, _⟩ => ⟨S_, .f32⟩
  | .hbm, ⟨75, _⟩ => ⟨S8x1, .f32⟩
  | .hbm, ⟨76, _⟩ => ⟨S8x1, .f32⟩
  | .hbm, ⟨77, _⟩ => ⟨S8x1, .f32⟩
  | .hbm, ⟨78, _⟩ => ⟨S8x512, .f32⟩
  | .hbm, ⟨79, _⟩ => ⟨S8x512, .f32⟩
  | .hbm, ⟨80, _⟩ => ⟨S1x512, .f32⟩
  | .hbm, ⟨81, _⟩ => ⟨S8x512, .f32⟩
  | .hbm, ⟨82, _⟩ => ⟨S8x512, .f32⟩
  | .hbm, ⟨83, _⟩ => ⟨S1x512, .f32⟩
  | .hbm, ⟨84, _⟩ => ⟨S8x512, .f32⟩
  | .hbm, ⟨85, _⟩ => ⟨S8x512, .f32⟩
  | .hbm, ⟨86, _⟩ => ⟨S512x512, .f32⟩
  | .hbm, ⟨87, _⟩ => ⟨S8x512, .f32⟩
  | .hbm, ⟨88, _⟩ => ⟨S1x512, .f32⟩
  | .hbm, ⟨89, _⟩ => ⟨S8x512, .f32⟩
  | .hbm, ⟨90, _⟩ => ⟨S8x512, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S512x64, .f32⟩
  | .local _ .vmem, ⟨5, _⟩ => ⟨S512x64, .f32⟩
  | .local _ .vmem, ⟨6, _⟩ => ⟨S1x1x64, .f32⟩
  | .local _ .vmem, ⟨7, _⟩ => ⟨S1x1x64, .f32⟩
  | .local _ .vmem, ⟨8, _⟩ => ⟨S1x8x64, .f32⟩
  | .local _ .vmem, ⟨9, _⟩ => ⟨S1x8x64, .f32⟩
  | .local _ .vmem, ⟨10, _⟩ => ⟨S1x8x64, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S64x512_S512x64_1_0 : S64x512.Transposes [1, 0] S512x64
  shapeCasts_S64_S1x1x64 : S64.ShapeCasts S1x1x64
  inb_S1x8x64_S1x8x64_0_0_0 : ∀ a, (![0, 0, 0] : Fin 3 → Nat) a + S1x8x64.size a ≤ S1x8x64.size a
  h_S1x8x64 : 0 < S1x8x64.numel
  shapeCasts_S1x8x64_S1x8x64 : S1x8x64.ShapeCasts S1x8x64
  inb_S8x256x512_S8x256x512_0_0_0 : ∀ a, (![0, 0, 0] : Fin 3 → Nat) a + S8x256x512.size a ≤ S8x256x512.size a
  h_S8x256x512 : 0 < S8x256x512.numel
  bitsLt_bf16_f32 : FTy.bits .bf16 < FTy.bits .f32
  shapeCasts_S8x256x512_S2048x512 : S8x256x512.ShapeCasts S2048x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S2048x64_S8x256x64 : S2048x64.ShapeCasts S8x256x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S8x256x64 : S1x1x64.Broadcasts S8x256x64
  reduces_S8x256x64_S8x64 : S8x256x64.Reduces [1] S8x64
  shapeCasts_S8x64_S1x8x64 : S8x64.ShapeCasts S1x8x64
  reducesTo_S2x8x64_S8x64_d0 : S2x8x64.ReducesTo [0] S8x64
  h_S_ : 0 < S_.numel
  transposes_S512x64_S64x512_1_0 : S512x64.Transposes [1, 0] S64x512
  bcast_S_S512 : S_.BroadcastsInDim S512 (![] : Fin 0 → Fin S512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S64 : S_.BroadcastsInDim S64 (![] : Fin 0 → Fin S64.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x512 : S_.BroadcastsInDim S8x512 (![] : Fin 0 → Fin S8x512.rank)
  reducesTo_S8x512_S8_d1 : S8x512.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x512_0_1 : S8x1.BroadcastsInDim S8x512 (![0, 1] : Fin 2 → Fin S8x512.rank)
  transposes_S512x512_S512x512_1_0 : S512x512.Transposes [1, 0] S512x512
  dot_S2048x512_S512x64_S2048x64_1_0_0_1_n_n_wf : DotDims.WF S2048x512 S512x64 S2048x64 [1] [0] [0] [1] [] []
  dot_S8x64_S64x512_S8x512_1_0_0_1_n_n_wf : DotDims.WF S8x64 S64x512 S8x512 [1] [0] [0] [1] [] []
  dot_S8x512_S512x64_S8x64_1_0_0_1_n_n_wf : DotDims.WF S8x512 S512x64 S8x64 [1] [0] [0] [1] [] []
  dot_S8x512_S512x512_S8x512_1_0_0_1_n_n_wf : DotDims.WF S8x512 S512x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x4096x512.size a
  hwx0_0 : ∀ i : grid0.Coords, EltTy.bits .f32 = 32 ∨ (Rect.block (s := S8x4096x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x4096x512.size a
  hwx0_1 : ∀ i : grid0.Coords, EltTy.bits .f32 = 32 ∨ (Rect.block (s := S8x4096x512) S8x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S1x1x64.size a
  hwx0_4 : ∀ i : grid0.Coords, EltTy.bits .f32 = 32 ∨ (Rect.block (s := S1x1x64) S1x1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S1x1x64.size a
  hwx0_5 : ∀ i : grid0.Coords, EltTy.bits .f32 = 32 ∨ (Rect.block (s := S1x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x64.size a ≤ S2x8x64.size a
  hwx0_6 : ∀ i : grid0.Coords, EltTy.bits .f32 = 32 ∨ (Rect.block (s := S2x8x64) S1x8x64.size (cc0_transform_6 i) (hinb0_6 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S8x64_S64x512_S8x512_1_0_0_1_n_n : DotDims S8x64 S64x512 S8x512 where
  lhsContracting := [1]
  rhsContracting := [0]
  lhsNonContracting := [0]
  rhsNonContracting := [1]
  lhsBatch := []
  rhsBatch := []
  wf := dot_S8x64_S64x512_S8x512_1_0_0_1_n_n_wf
def dot_S8x512_S512x64_S8x64_1_0_0_1_n_n : DotDims S8x512 S512x64 S8x64 where
  lhsContracting := [1]
  rhsContracting := [0]
  lhsNonContracting := [0]
  rhsNonContracting := [1]
  lhsBatch := []
  rhsBatch := []
  wf := dot_S8x512_S512x64_S8x64_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x8x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x512 : Shape := ⟨2, ![8, 512]⟩
abbrev S64x512 : Shape := ⟨2, ![64, 512]⟩
abbrev S64 : Shape := ⟨1, ![64]⟩
abbrev S512x64 : Shape := ⟨2, ![512, 64]⟩
abbrev S512 : Shape := ⟨1, ![512]⟩
abbrev S512x512 : Shape := ⟨2, ![512, 512]⟩
abbrev S8x4096x64 : Shape := ⟨3, ![8, 4096, 64]⟩
abbrev S1x1x64 : Shape := ⟨3, ![1, 1, 64]⟩
abbrev S1x1x512 : Shape := ⟨3, ![1, 1, 512]⟩
abbrev S8x64 : Shape := ⟨2, ![8, 64]⟩
abbrev S1x64 : Shape := ⟨2, ![1, 64]⟩
abbrev S8x1x64 : Shape := ⟨3, ![8, 1, 64]⟩
abbrev S_ : Shape := ⟨0, ![]⟩
abbrev S1x512 : Shape := ⟨2, ![1, 512]⟩
abbrev S8 : Shape := ⟨1, ![8]⟩
abbrev S8x1 : Shape := ⟨2, ![8, 1]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x512, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S512x64, .f32⟩
  | .hbm, ⟨8, _⟩ => ⟨S512, .f32⟩
  | .hbm, ⟨9, _⟩ => ⟨S64x512, .f32⟩
  | .hbm, ⟨10, _⟩ => ⟨S64, .f32⟩
  | .hbm, ⟨11, _⟩ => ⟨S512x64, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S8x4096x64, .f32⟩
  | .hbm, ⟨18, _⟩ => ⟨S1x1x64, .f32⟩
  | .hbm, ⟨19, _⟩ => ⟨S8x4096x64, .f32⟩
  | .hbm, ⟨20, _⟩ => ⟨S8x4096x64, .f32⟩
  | .hbm, ⟨21, _⟩ => ⟨S8x4096x64, .f32⟩
  | .hbm, ⟨22, _⟩ => ⟨S1x1x64, .f32⟩
  | .hbm, ⟨23, _⟩ => ⟨S8x4096x64, .f32⟩
  | .hbm, ⟨24, _⟩ => ⟨S8x4096x64, .f32⟩
  | .hbm, ⟨25, _⟩ => ⟨S8x4096x64, .f32⟩
  | .hbm, ⟨26, _⟩ => ⟨S8x4096x512, .f32⟩
  | .hbm, ⟨27, _⟩ => ⟨S1x1x512, .f32⟩
  | .hbm, ⟨28, _⟩ => ⟨S8x4096x512, .f32⟩
  | .hbm, ⟨29, _⟩ => ⟨S8x4096x512, .f32⟩
  | .hbm, ⟨30, _⟩ => ⟨S512x64, .f32⟩
  | .hbm, ⟨31, _⟩ => ⟨S8x64, .f32⟩
  | .hbm, ⟨32, _⟩ => ⟨S1x64, .f32⟩
  | .hbm, ⟨33, _⟩ => ⟨S8x64, .f32⟩
  | .hbm, ⟨34, _⟩ => ⟨S8x64, .f32⟩
  | .hbm, ⟨35, _⟩ => ⟨S8x4096x64, .f32⟩
  | .hbm, ⟨36, _⟩ => ⟨S1x1x64, .f32⟩
  | .hbm, ⟨37, _⟩ => ⟨S8x4096x64, .f32⟩
  | .hbm, ⟨38, _⟩ => ⟨S8x4096x64, .f32⟩
  | .hbm, ⟨39, _⟩ => ⟨S8x1x64, .f32⟩
  | .hbm, ⟨40, _⟩ => ⟨S8x4096x64, .f32⟩
  | .hbm, ⟨41, _⟩ => ⟨S8x4096x64, .f32⟩
  | .hbm, ⟨42, _⟩ => ⟨S_, .f32⟩
  | .hbm, ⟨43, _⟩ => ⟨S8x64, .f32⟩
  | .hbm, ⟨44, _⟩ => ⟨S8x512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S8x512, .f32⟩
  | .hbm, ⟨50, _⟩ => ⟨S8x512, .f32⟩
  | .hbm, ⟨51, _⟩ => ⟨S_, .f32⟩
  | .hbm, ⟨52, _⟩ => ⟨S8x512, .f32⟩
  | .hbm, ⟨53, _⟩ => ⟨S8x512, .f32⟩
  | .hbm, ⟨54, _⟩ => ⟨S_, .f32⟩
  | .hbm, ⟨55, _⟩ => ⟨S8, .f32⟩
  | .hbm, ⟨56, _⟩ => ⟨S8x1, .f32⟩
  | .hbm, ⟨57, _⟩ => ⟨S_, .f32⟩
  | .hbm, ⟨58, _⟩ => ⟨S8x1, .f32⟩
  | .hbm, ⟨59, _⟩ => ⟨S8x1, .f32⟩
  | .hbm, ⟨60, _⟩ => ⟨S8x512, .f32⟩
  | .hbm, ⟨61, _⟩ => ⟨S8x512, .f32⟩
  | .hbm, ⟨62, _⟩ => ⟨S8x512, .f32⟩
  | .hbm, ⟨63, _⟩ => ⟨S_, .f32⟩
  | .hbm, ⟨64, _⟩ => ⟨S8, .f32⟩
  | .hbm, ⟨65, _⟩ => ⟨S8x1, .f32⟩
  | .hbm, ⟨66, _⟩ => ⟨S_, .f32⟩
  | .hbm, ⟨67, _⟩ => ⟨S8x1, .f32⟩
  | .hbm, ⟨68, _⟩ => ⟨S8x1, .f32⟩
  | .hbm, ⟨69, _⟩ => ⟨S8x512, .f32⟩
  | .hbm, ⟨70, _⟩ => ⟨S8x512, .f32⟩
  | .hbm, ⟨71, _⟩ => ⟨S_, .f32⟩
  | .hbm, ⟨72, _⟩ => ⟨S8x1, .f32⟩
  | .hbm, ⟨73, _⟩ => ⟨S8x1, .f32⟩
  | .hbm, ⟨74, _⟩ => ⟨S8x1, .f32⟩
  | .hbm, ⟨75, _⟩ => ⟨S8x512, .f32⟩
  | .hbm, ⟨76, _⟩ => ⟨S8x512, .f32⟩
  | .hbm, ⟨77, _⟩ => ⟨S1x512, .f32⟩
  | .hbm, ⟨78, _⟩ => ⟨S8x512, .f32⟩
  | .hbm, ⟨79, _⟩ => ⟨S8x512, .f32⟩
  | .hbm, ⟨80, _⟩ => ⟨S1x512, .f32⟩
  | .hbm, ⟨81, _⟩ => ⟨S8x512, .f32⟩
  | .hbm, ⟨82, _⟩ => ⟨S8x512, .f32⟩
  | .hbm, ⟨83, _⟩ => ⟨S512x512, .f32⟩
  | .hbm, ⟨84, _⟩ => ⟨S8x512, .f32⟩
  | .hbm, ⟨85, _⟩ => ⟨S1x512, .f32⟩
  | .hbm, ⟨86, _⟩ => ⟨S8x512, .f32⟩
  | .hbm, ⟨87, _⟩ => ⟨S8x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  transposes_S64x512_S512x64_1_0 : S64x512.Transposes [1, 0] S512x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S8x64_S8x1x64_0_2 : S8x64.BroadcastsInDim S8x1x64 (![0, 2] : Fin 2 → Fin S8x1x64.rank)
  bcast_S8x1x64_S8x4096x64_0_1_2 : S8x1x64.BroadcastsInDim S8x4096x64 (![0, 1, 2] : Fin 3 → Fin S8x4096x64.rank)
  reducesTo_S8x4096x64_S8x64_d1 : S8x4096x64.ReducesTo [1] S8x64
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  reducesTo_S8x512_S8_d1 : S8x512.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x512_0_1 : S8x1.BroadcastsInDim S8x512 (![0, 1] : Fin 2 → Fin S8x512.rank)
  transposes_S512x512_S512x512_1_0 : S512x512.Transposes [1, 0] S512x512
  dot_S8x4096x512_S64x512_S8x4096x64_2_1_01_0_n_n_wf : DotDims.WF S8x4096x512 S64x512 S8x4096x64 [2] [1] [0, 1] [0] [] []
  dot_S8x4096x64_S512x64_S8x4096x512_2_1_01_0_n_n_wf : DotDims.WF S8x4096x64 S512x64 S8x4096x512 [2] [1] [0, 1] [0] [] []
  dot_S8x512_S512x64_S8x64_1_0_0_1_n_n_wf : DotDims.WF S8x512 S512x64 S8x64 [1] [0] [0] [1] [] []
  dot_S8x64_S512x64_S8x512_1_1_0_0_n_n_wf : DotDims.WF S8x64 S512x64 S8x512 [1] [1] [0] [0] [] []
  dot_S8x512_S512x512_S8x512_1_0_0_1_n_n_wf : DotDims.WF S8x512 S512x512 S8x512 [1] [0] [0] [1] [] []

variable [Facts₀]

def dot_S8x4096x512_S64x512_S8x4096x64_2_1_01_0_n_n : DotDims S8x4096x512 S64x512 S8x4096x64 where
  lhsContracting := [2]
  rhsContracting := [1]
  lhsNonContracting := [0, 1]
  rhsNonContracting := [0]
  lhsBatch := []
  rhsBatch := []
  wf := dot_S8x4096x512_S64x512_S8x4096x64_2_1_01_0_n_n_wf
def dot_S8x4096x64_S512x64_S8x4096x512_2_1_01_0_n_n : DotDims S8x4096x64 S512x64 S8x4096x512 where
  lhsContracting := [2]
  rhsContracting := [1]
  lhsNonContracting := [0, 1]
  rhsNonContracting := [0]
  lhsBatch := []
  rhsBatch := []
  wf := dot_S8x4096x64_S512x64_S8x4096x512_2_1_01_0_n_n_wf
def dot_S8x512_S512x64_S8x64_1_0_0_1_n_n : DotDims S8x512 S512x64 S8x64 where
  lhsContracting := [1]
  rhsContracting := [0]
  lhsNonContracting := [0]
  rhsNonContracting := [1]
  lhsBatch := []
  rhsBatch := []
  wf := dot_S8x512_S512x64_S8x64_1_0_0_1_n_n_wf
def dot_S8x64_S512x64_S8x512_1_1_0_0_n_n : DotDims S8x64 S512x64 S8x512 where
  lhsContracting := [1]
  rhsContracting := [1]
  lhsNonContracting := [0]
  rhsNonContracting := [0]
  lhsBatch := []
  rhsBatch := []
  wf := dot_S8x64_S512x64_S8x512_1_1_0_0_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf

class Facts : Prop extends Facts₀ where

variable [Facts]
-- ==== Proof.Kernel.Around.lean ====
import proofs.«111147_j59974923321458_1_alg».proof.Proof.Gen.Kernel.Launch
import proofs.«111147_j59974923321458_1_alg».proof.Proof.Gen.Kernel.Skeleton
import proofs.«111147_j59974923321458_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# @main around the one region

@main is four host operations (two transposes of the projection weights, two reshapes of the biases), the
region, and sixty-nine host operations on the region's result. This module reduces @main to the region
continued by the later operations, says that those later operations touch only unscoped buffers, allocate
nothing and write no array the region's windows stage, and that neither stretch writes an argument. It also
names each window's block at a grid point and decides where the body's one branch is taken: at the points
whose second coordinate is zero, the points divisible by eight.
-/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffers when the region is entered: the launch contents after the four earlier operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

set_option maxHeartbeats 40000000 in
/-- @main reduces to the region continued by the sixty-nine later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- No later operation writes reference `b`, when `b` is none of their sixty-nine result buffers. -/
theorem tail_keeps_ref (b : Ref sig .tc)
    (h : (hostOps1 : List (HloOp τ sig (Elt F))).Forall fun op => Proc.devRef .tc b ∉ op.writes) :
    ∀ op ∈ (hostOps1 : List (HloOp τ sig (Elt F))), Proc.devRef .tc b ∉ op.writes :=
  List.forall_iff_forall_mem.mp h

set_option maxHeartbeats 40000000 in
/-- Each later operation writes its own result buffer only, which is no array of a window. -/
theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  refine tail_keeps_ref (F := F) (Pipeline.arrRef spec0 w) ?_
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The arguments are written by neither stretch -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The branch, decided over the grid -/

/-- The condition of the body's one `scf.if`: the second grid coordinate is zero. -/
abbrev cond0 (i : grid0.Coords) : Prop := (Scalar.cmpi .ne (Scalar.extui (Scalar.cmpi .eq (BitVec.ofNat 32 (i 1).val) 0#32)) 0#32) = 1#1
/-- It holds at the points divisible by eight. -/
theorem hcond0 : ∀ t : Fin cfg0.N, cond0 (grid0.coords t) ↔ t.val % 8 = 0 :=
  (by decide +kernel : ∀ t : Fin grid0.N, cond0 (grid0.coords t) ↔ t.val % 8 = 0)

/-- No window is idle anywhere: the body stores the whole output block at every point. -/
theorem live (w : Fin cfg0.W) (t : Fin cfg0.N) : cfg0.idle w (grid0.coords t) = false := rfl

/-! ## The memrefs the body is called with -/
abbrev ms0 (t : Fin cfg0.N) : Memref sig .tc .vmem S8x256x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x64 .f32 := win0_6.stage (cfg0.slots t 6)
abbrev hs6 (t : Fin cfg0.N) : (ms6 t).IsWhole := hstage0_6 ((cfg0.slots t 6).cast nbuf0_6)
/-- The accumulator scratch: a whole scoped buffer of the kernel's own. -/
abbrev scM : Memref sig .tc .vmem S1x8x64 .f32 := Memref.whole cc0_scratch0
/-- The scratch as a view: what it holds is stated through it. -/
abbrev VS : View sig .tc .vmem S1x8x64 .f32 := scM.view
/-- One staging buffer of the output window, through which its contents are stated. -/
abbrev VO : View sig .tc .vmem S1x8x64 .f32 := (Memref.whole cc0_stg6_0 : Memref sig .tc .vmem S1x8x64 .f32).view

/-- The region's invariant before the first point: the scratch at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Region

end
-- ==== Proof.Kernel.RunReset.lean ====
import proofs.«111147_j59974923321458_1_alg».proof.Proof.Kernel.Around

/-!
# The body at a point where the accumulator is reset

At a point whose second coordinate is zero the body first stores zeros over the whole scratch, then loads
the two data blocks, the two weight blocks and the two bias rows, adds the tile's row sums to the scratch
and copies the scratch into the output block. What the scratch held before does not matter. The stores it
leaves in the output block and in the scratch are found by running the body.
-/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`.1`) and in the scratch (`.2.1`) at a point
    where the branch is taken, with the proof that from whole memrefs, the inputs at their contents, the
    output block and the scratch at anything, the body runs to a continuation that holds the inputs as
    they were and the two written buffers with those pieces written. -/
noncomputable def runReset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) :
    Σ' (L6 : List (View.Piece (Elt F) S1x8x64 .f32)), { LS : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__kv_sum_kernel i arg2 harg2 arg3 harg3 arg4 harg4 arg5 harg5 arg6 harg6 arg7 harg7 arg8 harg8 arg9 harg9) K } := by
  refine ⟨?_, ?_, fun E K => ?run⟩
  case run =>
    simp only [cc0__kv_sum_kernel_eq_skeleton]; unfold cc0__kv_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Region

end
-- ==== Proof.Kernel.RunAccum.lean ====
import proofs.«111147_j59974923321458_1_alg».proof.Proof.Kernel.RunReset

/-!
# The body at a point where the accumulator is kept

At a point whose second coordinate is not zero the body skips the reset: it loads the blocks, adds the
tile's row sums to what the scratch holds, which is what the point before left there, and copies the
scratch into the output block.
-/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the scratch at a point where the branch
    is not taken, the scratch handed in at contents `xs`. -/
noncomputable def runAccum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) :
    Σ' (L6 : List (View.Piece (Elt F) S1x8x64 .f32)), { LS : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__kv_sum_kernel i arg2 harg2 arg3 harg3 arg4 harg4 arg5 harg5 arg6 harg6 arg7 harg7 arg8 harg8 arg9 harg9) K } := by
  refine ⟨?_, ?_, fun E K => ?run⟩
  case run =>
    simp only [cc0__kv_sum_kernel_eq_skeleton]; unfold cc0__kv_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Region

end
-- ==== Proof.Kernel.TailArgs.lean ====
import proofs.«111147_j59974923321458_1_alg».proof.Proof.Kernel.Around

/-!
# The later operations leave the arguments alone

Each of the sixty-nine operations after the region writes one fresh buffer of its own. So an argument that
no window stages ends @main at the contents the region found it at, which are the launch contents.
-/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A reference that is no window's array and that no later operation writes ends at what the region found. -/
theorem tail_ref (dats : (p : Fin 1) → (c : Dev nD) → Dat τ (Elt F) Unit ℕ (UR sig nD τ) ℕ (cfgs p) c) (c : Dev nD) (b : Ref sig .tc)
    (hb : (hostOps1 : List (HloOp τ sig (Elt F))).Forall fun op => Proc.devRef .tc b ∉ op.writes)
    (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
      simp only [List.flatten_cons, List.flatten_nil, List.append_nil]
      exact List.forall_iff_forall_mem.mp hb),
    Pipeline.withArrays_of_ne _ c (V0 m c) _ b hw]

set_option maxHeartbeats 40000000 in
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_ref m dats c main_arg2 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg2 m c)

set_option maxHeartbeats 40000000 in
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_ref m dats c main_arg3 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg3 m c)

set_option maxHeartbeats 40000000 in
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_ref m dats c main_arg4 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg4 m c)

set_option maxHeartbeats 40000000 in
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_ref m dats c main_arg5 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg5 m c)

set_option maxHeartbeats 40000000 in
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_ref m dats c main_arg6 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg6 m c)

set_option maxHeartbeats 40000000 in
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_ref m dats c main_arg7 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg7 m c)

set_option maxHeartbeats 40000000 in
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_ref m dats c main_arg8 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg8 m c)

set_option maxHeartbeats 40000000 in
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_ref m dats c main_arg9 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg9 m c)

set_option maxHeartbeats 40000000 in
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_ref m dats c main_arg10 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg10 m c)

set_option maxHeartbeats 40000000 in
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (tail_ref m dats c main_arg11 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg11 m c)

set_option maxHeartbeats 40000000 in
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (tail_ref m dats c main_arg12 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg12 m c)

set_option maxHeartbeats 40000000 in
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (tail_ref m dats c main_arg13 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg13 m c)

set_option maxHeartbeats 40000000 in
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (tail_ref m dats c main_arg14 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg14 m c)

set_option maxHeartbeats 40000000 in
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) :=
  (tail_ref m dats c main_arg15 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg15 m c)

set_option maxHeartbeats 40000000 in
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) :=
  (tail_ref m dats c main_arg16 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg16 m c)

end Cert.Kernel.Region

end
-- ==== Proof.Kernel.Region.lean ====
import proofs.«111147_j59974923321458_1_alg».proof.Proof.Kernel.RunAccum
import proofs.«111147_j59974923321458_1_alg».proof.Proof.Kernel.TailArgs

/-!
# The region: what the accumulator holds point by point, and the run of @main

The grid has sixteen points, two runs of eight. At the first point of a run the body resets the scratch and
adds the first tile's row sums; at each later point it adds that tile's row sums to what the point before
left. After every point the output block is a copy of the scratch, and the block is written back after the
eighth point of its run. This module states what the output block and the scratch hold after each point by
recursion on the point, gives the pipeline its proof data with the scratch carried in the invariant,
proves the body's obligation by cases on the point modulo eight, and runs @main: the region, then the
sixty-nine later operations. The arguments end as launched.
-/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces the reset case leaves in the output block tile it. -/
theorem cover_reset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (y : S1x8x64.Idx) :
    ∃ pc ∈ (runReset c i arg2 harg2 arg3 harg3 arg4 harg4 arg5 harg5 arg6 harg6 arg7 harg7 arg8 harg8 arg9 harg9 hc x0 x1 x2 x3 x4 x5).1, y ∈ pc.1.set :=
  View.cover_of_tiledL (runReset c i arg2 harg2 arg3 harg3 arg4 harg4 arg5 harg5 arg6 harg6 arg7 harg7 arg8 harg8 arg9 harg9 hc x0 x1 x2 x3 x4 x5).1 S1x8x64.size (by sl_kernel_rfl) y

/-- What the reset case leaves in the output block: its pieces read back. -/
def out_reset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) : Vec F S1x8x64 .f32 :=
  VO.read (Elt F) (VO.writes (Elt F) VO.junk (runReset c i arg2 harg2 arg3 harg3 arg4 harg4 arg5 harg5 arg6 harg6 arg7 harg7 arg8 harg8 arg9 harg9 hc x0 x1 x2 x3 x4 x5).1)

/-- The pieces the reset case leaves in the scratch tile it. -/
theorem scover_reset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (y : S1x8x64.Idx) :
    ∃ pc ∈ (runReset c i arg2 harg2 arg3 harg3 arg4 harg4 arg5 harg5 arg6 harg6 arg7 harg7 arg8 harg8 arg9 harg9 hc x0 x1 x2 x3 x4 x5).2.1, y ∈ pc.1.set :=
  View.cover_of_tiledL (runReset c i arg2 harg2 arg3 harg3 arg4 harg4 arg5 harg5 arg6 harg6 arg7 harg7 arg8 harg8 arg9 harg9 hc x0 x1 x2 x3 x4 x5).2.1 S1x8x64.size (by sl_kernel_rfl) y

/-- What the reset case leaves in the scratch: its pieces read back. -/
def sout_reset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) : Vec F S1x8x64 .f32 :=
  VS.read (Elt F) (VS.writes (Elt F) VS.junk (runReset c i arg2 harg2 arg3 harg3 arg4 harg4 arg5 harg5 arg6 harg6 arg7 harg7 arg8 harg8 arg9 harg9 hc x0 x1 x2 x3 x4 x5).2.1)

/-- The pieces the accum case leaves in the output block tile it. -/
theorem cover_accum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) (y : S1x8x64.Idx) :
    ∃ pc ∈ (runAccum c i arg2 harg2 arg3 harg3 arg4 harg4 arg5 harg5 arg6 harg6 arg7 harg7 arg8 harg8 arg9 harg9 hc x0 x1 x2 x3 x4 x5 xs).1, y ∈ pc.1.set :=
  View.cover_of_tiledL (runAccum c i arg2 harg2 arg3 harg3 arg4 harg4 arg5 harg5 arg6 harg6 arg7 harg7 arg8 harg8 arg9 harg9 hc x0 x1 x2 x3 x4 x5 xs).1 S1x8x64.size (by sl_kernel_rfl) y

/-- What the accum case leaves in the output block: its pieces read back. -/
def out_accum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) : Vec F S1x8x64 .f32 :=
  VO.read (Elt F) (VO.writes (Elt F) VO.junk (runAccum c i arg2 harg2 arg3 harg3 arg4 harg4 arg5 harg5 arg6 harg6 arg7 harg7 arg8 harg8 arg9 harg9 hc x0 x1 x2 x3 x4 x5 xs).1)

/-- The pieces the accum case leaves in the scratch tile it. -/
theorem scover_accum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) (y : S1x8x64.Idx) :
    ∃ pc ∈ (runAccum c i arg2 harg2 arg3 harg3 arg4 harg4 arg5 harg5 arg6 harg6 arg7 harg7 arg8 harg8 arg9 harg9 hc x0 x1 x2 x3 x4 x5 xs).2.1, y ∈ pc.1.set :=
  View.cover_of_tiledL (runAccum c i arg2 harg2 arg3 harg3 arg4 harg4 arg5 harg5 arg6 harg6 arg7 harg7 arg8 harg8 arg9 harg9 hc x0 x1 x2 x3 x4 x5 xs).2.1 S1x8x64.size (by sl_kernel_rfl) y

/-- What the accum case leaves in the scratch: its pieces read back. -/
def sout_accum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) : Vec F S1x8x64 .f32 :=
  VS.read (Elt F) (VS.writes (Elt F) VS.junk (runAccum c i arg2 harg2 arg3 harg3 arg4 harg4 arg5 harg5 arg6 harg6 arg7 harg7 arg8 harg8 arg9 harg9 hc x0 x1 x2 x3 x4 x5 xs).2.1)

/-! ## What the output block and the scratch hold after each point -/

/-- After point `n`: the output block first, the scratch second. A point divisible by eight is a reset;
    any other adds to what the point before left in the scratch. -/
def outsAt (c : Dev nD) : (n : ℕ) → n < cfg0.N → Vec F S1x8x64 .f32 × Vec F S1x8x64 .f32
  | 0, hn => (out_reset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout_reset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      (out_reset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout_reset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out_accum c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_accum c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2)

/-- At a point divisible by eight: the reset case's contents. -/
theorem outsAt_reset (c : Dev nD) (t : Fin cfg0.N) (h0 : t.val % 8 = 0) :
    outsAt m c t.val t.isLt = (out_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t), sout_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- At any other point: the accumulate case's contents over what the point before left. -/
theorem outsAt_accum (c : Dev nD) (t : Fin cfg0.N) (h0 : ¬t.val % 8 = 0) :
    outsAt m c t.val t.isLt = (out_accum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2, sout_accum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant: the scratch carried between points -/

/-- Before the first point the scratch holds anything; before any later point it holds what the point
    before left. The generator register is at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the output's at
    the accumulation; the invariant carrying the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body's obligation at a point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point. The inputs' buffers hold their blocks. The point modulo eight says which case
    runs. The invariant hands the body the scratch at what the point before left (at anything at the first
    point) and takes it back at this point's contents, the pieces covering it; the output block likewise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live 0 t], after0]
  rw [show (dats m 0 c).leavesExact 1 t = owns (c : Thread nD τ) (ms1 t) fullShare ((dats m 0 c).after 1 t) from by
    unfold Dat.leavesExact; rw [live 1 t], after1]
  rw [show (dats m 0 c).leavesExact 2 t = owns (c : Thread nD τ) (ms2 t) fullShare ((dats m 0 c).after 2 t) from by
    unfold Dat.leavesExact; rw [live 2 t], after2]
  rw [show (dats m 0 c).leavesExact 3 t = owns (c : Thread nD τ) (ms3 t) fullShare ((dats m 0 c).after 3 t) from by
    unfold Dat.leavesExact; rw [live 3 t], after3]
  rw [show (dats m 0 c).leavesExact 4 t = owns (c : Thread nD τ) (ms4 t) fullShare ((dats m 0 c).after 4 t) from by
    unfold Dat.leavesExact; rw [live 4 t], after4]
  rw [show (dats m 0 c).leavesExact 5 t = owns (c : Thread nD τ) (ms5 t) fullShare ((dats m 0 c).after 5 t) from by
    unfold Dat.leavesExact; rw [live 5 t], after5]
  rw [show (dats m 0 c).leavesExact 6 t = owns (c : Thread nD τ) (ms6 t) fullShare ((dats m 0 c).after 6 t) from by
    unfold Dat.leavesExact; rw [live 6 t], after6]
  by_cases h0 : t.val % 8 = 0
  · rw [outsAt_reset m c t h0]
    unfold out_reset sout_reset; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scover_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scover_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
  · rw [outsAt_accum m c t h0]
    unfold out_accum sout_accum; (try dsimp only)
    by_cases hz : t.val = 0
    · exfalso; omega
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runAccum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scover_accum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_accum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back the scratch at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

/-! ## The run of @main -/

set_option maxHeartbeats 40000000 in
set_option backward.isDefEq.respectTransparency.types false in
/-- Every weakly fair execution of @main terminates; each array of a window ends at what the proof data
    compute for it, every other unscoped buffer as the sixty-nine later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- The arguments end as launched: the two staged ones because an input window's array is never written,
    the fifteen others because neither host stretch writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c)⟩) (run_main m ρ)

end Cert.Kernel.Region

end
-- ==== Proof.KernelIdeal.Around.lean ====
import proofs.«111147_j59974923321458_1_alg».proof.Proof.Gen.KernelIdeal.Launch
import proofs.«111147_j59974923321458_1_alg».proof.Proof.Gen.KernelIdeal.Skeleton
import proofs.«111147_j59974923321458_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# @main around the one region

@main is four host operations (two transposes of the projection weights, two reshapes of the biases), the
region, and sixty-nine host operations on the region's result. This module reduces @main to the region
continued by the later operations, says that those later operations touch only unscoped buffers, allocate
nothing and write no array the region's windows stage, and that neither stretch writes an argument. It also
names each window's block at a grid point and decides where the body's one branch is taken: at the points
whose second coordinate is zero, the points divisible by eight.
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffers when the region is entered: the launch contents after the four earlier operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

set_option maxHeartbeats 40000000 in
/-- @main reduces to the region continued by the sixty-nine later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- No later operation writes reference `b`, when `b` is none of their sixty-nine result buffers. -/
theorem tail_keeps_ref (b : Ref sig .tc)
    (h : (hostOps1 : List (HloOp τ sig (Elt F))).Forall fun op => Proc.devRef .tc b ∉ op.writes) :
    ∀ op ∈ (hostOps1 : List (HloOp τ sig (Elt F))), Proc.devRef .tc b ∉ op.writes :=
  List.forall_iff_forall_mem.mp h

set_option maxHeartbeats 40000000 in
/-- Each later operation writes its own result buffer only, which is no array of a window. -/
theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  refine tail_keeps_ref (F := F) (Pipeline.arrRef spec0 w) ?_
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The arguments are written by neither stretch -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The branch, decided over the grid -/

/-- The condition of the body's one `scf.if`: the second grid coordinate is zero. -/
abbrev cond0 (i : grid0.Coords) : Prop := (Scalar.cmpi .ne (Scalar.extui (Scalar.cmpi .eq (BitVec.ofNat 32 (i 1).val) 0#32)) 0#32) = 1#1
/-- It holds at the points divisible by eight. -/
theorem hcond0 : ∀ t : Fin cfg0.N, cond0 (grid0.coords t) ↔ t.val % 8 = 0 :=
  (by decide +kernel : ∀ t : Fin grid0.N, cond0 (grid0.coords t) ↔ t.val % 8 = 0)

/-- No window is idle anywhere: the body stores the whole output block at every point. -/
theorem live (w : Fin cfg0.W) (t : Fin cfg0.N) : cfg0.idle w (grid0.coords t) = false := rfl

/-! ## The memrefs the body is called with -/
abbrev ms0 (t : Fin cfg0.N) : Memref sig .tc .vmem S8x256x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x64 .f32 := win0_6.stage (cfg0.slots t 6)
abbrev hs6 (t : Fin cfg0.N) : (ms6 t).IsWhole := hstage0_6 ((cfg0.slots t 6).cast nbuf0_6)
/-- The accumulator scratch: a whole scoped buffer of the kernel's own. -/
abbrev scM : Memref sig .tc .vmem S1x8x64 .f32 := Memref.whole cc0_scratch0
/-- The scratch as a view: what it holds is stated through it. -/
abbrev VS : View sig .tc .vmem S1x8x64 .f32 := scM.view
/-- One staging buffer of the output window, through which its contents are stated. -/
abbrev VO : View sig .tc .vmem S1x8x64 .f32 := (Memref.whole cc0_stg6_0 : Memref sig .tc .vmem S1x8x64 .f32).view

/-- The region's invariant before the first point: the scratch at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Region

end
-- ==== Proof.KernelIdeal.RunReset.lean ====
import proofs.«111147_j59974923321458_1_alg».proof.Proof.KernelIdeal.Around

/-!
# The body at a point where the accumulator is reset

At a point whose second coordinate is zero the body first stores zeros over the whole scratch, then loads
the two data blocks, the two weight blocks and the two bias rows, adds the tile's row sums to the scratch
and copies the scratch into the output block. What the scratch held before does not matter. The stores it
leaves in the output block and in the scratch are found by running the body.
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block (`.1`) and in the scratch (`.2.1`) at a point
    where the branch is taken, with the proof that from whole memrefs, the inputs at their contents, the
    output block and the scratch at anything, the body runs to a continuation that holds the inputs as
    they were and the two written buffers with those pieces written. -/
noncomputable def runReset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) :
    Σ' (L6 : List (View.Piece (Elt F) S1x8x64 .f32)), { LS : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__kv_sum_kernel i arg2 harg2 arg3 harg3 arg4 harg4 arg5 harg5 arg6 harg6 arg7 harg7 arg8 harg8 arg9 harg9) K } := by
  refine ⟨?_, ?_, fun E K => ?run⟩
  case run =>
    simp only [cc0__kv_sum_kernel_eq_skeleton]; unfold cc0__kv_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Region

end
-- ==== Proof.KernelIdeal.RunAccum.lean ====
import proofs.«111147_j59974923321458_1_alg».proof.Proof.KernelIdeal.RunReset

/-!
# The body at a point where the accumulator is kept

At a point whose second coordinate is not zero the body skips the reset: it loads the blocks, adds the
tile's row sums to what the scratch holds, which is what the point before left there, and copies the
scratch into the output block.
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the scratch at a point where the branch
    is not taken, the scratch handed in at contents `xs`. -/
noncomputable def runAccum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) :
    Σ' (L6 : List (View.Piece (Elt F) S1x8x64 .f32)), { LS : List (View.Piece (Elt F) S1x8x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__kv_sum_kernel i arg2 harg2 arg3 harg3 arg4 harg4 arg5 harg5 arg6 harg6 arg7 harg7 arg8 harg8 arg9 harg9) K } := by
  refine ⟨?_, ?_, fun E K => ?run⟩
  case run =>
    simp only [cc0__kv_sum_kernel_eq_skeleton]; unfold cc0__kv_sum_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Region

end
-- ==== Proof.KernelIdeal.TailArgs.lean ====
import proofs.«111147_j59974923321458_1_alg».proof.Proof.KernelIdeal.Around

/-!
# The later operations leave the arguments alone

Each of the sixty-nine operations after the region writes one fresh buffer of its own. So an argument that
no window stages ends @main at the contents the region found it at, which are the launch contents.
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A reference that is no window's array and that no later operation writes ends at what the region found. -/
theorem tail_ref (dats : (p : Fin 1) → (c : Dev nD) → Dat τ (Elt F) Unit ℕ (UR sig nD τ) ℕ (cfgs p) c) (c : Dev nD) (b : Ref sig .tc)
    (hb : (hostOps1 : List (HloOp τ sig (Elt F))).Forall fun op => Proc.devRef .tc b ∉ op.writes)
    (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
      simp only [List.flatten_cons, List.flatten_nil, List.append_nil]
      exact List.forall_iff_forall_mem.mp hb),
    Pipeline.withArrays_of_ne _ c (V0 m c) _ b hw]

set_option maxHeartbeats 40000000 in
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_ref m dats c main_arg2 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg2 m c)

set_option maxHeartbeats 40000000 in
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_ref m dats c main_arg3 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg3 m c)

set_option maxHeartbeats 40000000 in
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_ref m dats c main_arg4 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg4 m c)

set_option maxHeartbeats 40000000 in
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_ref m dats c main_arg5 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg5 m c)

set_option maxHeartbeats 40000000 in
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_ref m dats c main_arg6 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg6 m c)

set_option maxHeartbeats 40000000 in
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_ref m dats c main_arg7 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg7 m c)

set_option maxHeartbeats 40000000 in
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_ref m dats c main_arg8 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg8 m c)

set_option maxHeartbeats 40000000 in
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_ref m dats c main_arg9 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg9 m c)

set_option maxHeartbeats 40000000 in
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_ref m dats c main_arg10 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg10 m c)

set_option maxHeartbeats 40000000 in
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (tail_ref m dats c main_arg11 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg11 m c)

set_option maxHeartbeats 40000000 in
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (tail_ref m dats c main_arg12 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg12 m c)

set_option maxHeartbeats 40000000 in
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (tail_ref m dats c main_arg13 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg13 m c)

set_option maxHeartbeats 40000000 in
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (tail_ref m dats c main_arg14 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg14 m c)

set_option maxHeartbeats 40000000 in
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) :=
  (tail_ref m dats c main_arg15 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg15 m c)

set_option maxHeartbeats 40000000 in
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) :=
  (tail_ref m dats c main_arg16 (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) (by decide)).trans (V_main_arg16 m c)

end Cert.KernelIdeal.Region

end
-- ==== Proof.KernelIdeal.Region.lean ====
import proofs.«111147_j59974923321458_1_alg».proof.Proof.KernelIdeal.RunAccum
import proofs.«111147_j59974923321458_1_alg».proof.Proof.KernelIdeal.TailArgs

/-!
# The region: what the accumulator holds point by point, and the run of @main

The grid has sixteen points, two runs of eight. At the first point of a run the body resets the scratch and
adds the first tile's row sums; at each later point it adds that tile's row sums to what the point before
left. After every point the output block is a copy of the scratch, and the block is written back after the
eighth point of its run. This module states what the output block and the scratch hold after each point by
recursion on the point, gives the pipeline its proof data with the scratch carried in the invariant,
proves the body's obligation by cases on the point modulo eight, and runs @main: the region, then the
sixty-nine later operations. The arguments end as launched.
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces the reset case leaves in the output block tile it. -/
theorem cover_reset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (y : S1x8x64.Idx) :
    ∃ pc ∈ (runReset c i arg2 harg2 arg3 harg3 arg4 harg4 arg5 harg5 arg6 harg6 arg7 harg7 arg8 harg8 arg9 harg9 hc x0 x1 x2 x3 x4 x5).1, y ∈ pc.1.set :=
  View.cover_of_tiledL (runReset c i arg2 harg2 arg3 harg3 arg4 harg4 arg5 harg5 arg6 harg6 arg7 harg7 arg8 harg8 arg9 harg9 hc x0 x1 x2 x3 x4 x5).1 S1x8x64.size (by sl_kernel_rfl) y

/-- What the reset case leaves in the output block: its pieces read back. -/
def out_reset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) : Vec F S1x8x64 .f32 :=
  VO.read (Elt F) (VO.writes (Elt F) VO.junk (runReset c i arg2 harg2 arg3 harg3 arg4 harg4 arg5 harg5 arg6 harg6 arg7 harg7 arg8 harg8 arg9 harg9 hc x0 x1 x2 x3 x4 x5).1)

/-- The pieces the reset case leaves in the scratch tile it. -/
theorem scover_reset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (y : S1x8x64.Idx) :
    ∃ pc ∈ (runReset c i arg2 harg2 arg3 harg3 arg4 harg4 arg5 harg5 arg6 harg6 arg7 harg7 arg8 harg8 arg9 harg9 hc x0 x1 x2 x3 x4 x5).2.1, y ∈ pc.1.set :=
  View.cover_of_tiledL (runReset c i arg2 harg2 arg3 harg3 arg4 harg4 arg5 harg5 arg6 harg6 arg7 harg7 arg8 harg8 arg9 harg9 hc x0 x1 x2 x3 x4 x5).2.1 S1x8x64.size (by sl_kernel_rfl) y

/-- What the reset case leaves in the scratch: its pieces read back. -/
def sout_reset (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) : Vec F S1x8x64 .f32 :=
  VS.read (Elt F) (VS.writes (Elt F) VS.junk (runReset c i arg2 harg2 arg3 harg3 arg4 harg4 arg5 harg5 arg6 harg6 arg7 harg7 arg8 harg8 arg9 harg9 hc x0 x1 x2 x3 x4 x5).2.1)

/-- The pieces the accum case leaves in the output block tile it. -/
theorem cover_accum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) (y : S1x8x64.Idx) :
    ∃ pc ∈ (runAccum c i arg2 harg2 arg3 harg3 arg4 harg4 arg5 harg5 arg6 harg6 arg7 harg7 arg8 harg8 arg9 harg9 hc x0 x1 x2 x3 x4 x5 xs).1, y ∈ pc.1.set :=
  View.cover_of_tiledL (runAccum c i arg2 harg2 arg3 harg3 arg4 harg4 arg5 harg5 arg6 harg6 arg7 harg7 arg8 harg8 arg9 harg9 hc x0 x1 x2 x3 x4 x5 xs).1 S1x8x64.size (by sl_kernel_rfl) y

/-- What the accum case leaves in the output block: its pieces read back. -/
def out_accum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) : Vec F S1x8x64 .f32 :=
  VO.read (Elt F) (VO.writes (Elt F) VO.junk (runAccum c i arg2 harg2 arg3 harg3 arg4 harg4 arg5 harg5 arg6 harg6 arg7 harg7 arg8 harg8 arg9 harg9 hc x0 x1 x2 x3 x4 x5 xs).1)

/-- The pieces the accum case leaves in the scratch tile it. -/
theorem scover_accum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) (y : S1x8x64.Idx) :
    ∃ pc ∈ (runAccum c i arg2 harg2 arg3 harg3 arg4 harg4 arg5 harg5 arg6 harg6 arg7 harg7 arg8 harg8 arg9 harg9 hc x0 x1 x2 x3 x4 x5 xs).2.1, y ∈ pc.1.set :=
  View.cover_of_tiledL (runAccum c i arg2 harg2 arg3 harg3 arg4 harg4 arg5 harg5 arg6 harg6 arg7 harg7 arg8 harg8 arg9 harg9 hc x0 x1 x2 x3 x4 x5 xs).2.1 S1x8x64.size (by sl_kernel_rfl) y

/-- What the accum case leaves in the scratch: its pieces read back. -/
def sout_accum (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) : Vec F S1x8x64 .f32 :=
  VS.read (Elt F) (VS.writes (Elt F) VS.junk (runAccum c i arg2 harg2 arg3 harg3 arg4 harg4 arg5 harg5 arg6 harg6 arg7 harg7 arg8 harg8 arg9 harg9 hc x0 x1 x2 x3 x4 x5 xs).2.1)

/-! ## What the output block and the scratch hold after each point -/

/-- After point `n`: the output block first, the scratch second. A point divisible by eight is a reset;
    any other adds to what the point before left in the scratch. -/
def outsAt (c : Dev nD) : (n : ℕ) → n < cfg0.N → Vec F S1x8x64 .f32 × Vec F S1x8x64 .f32
  | 0, hn => (out_reset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout_reset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      (out_reset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout_reset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out_accum c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2, sout_accum c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2)

/-- At a point divisible by eight: the reset case's contents. -/
theorem outsAt_reset (c : Dev nD) (t : Fin cfg0.N) (h0 : t.val % 8 = 0) :
    outsAt m c t.val t.isLt = (out_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t), sout_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- At any other point: the accumulate case's contents over what the point before left. -/
theorem outsAt_accum (c : Dev nD) (t : Fin cfg0.N) (h0 : ¬t.val % 8 = 0) :
    outsAt m c t.val t.isLt = (out_accum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2, sout_accum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant: the scratch carried between points -/

/-- Before the first point the scratch holds anything; before any later point it holds what the point
    before left. The generator register is at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the output's at
    the accumulation; the invariant carrying the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body's obligation at a point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point. The inputs' buffers hold their blocks. The point modulo eight says which case
    runs. The invariant hands the body the scratch at what the point before left (at anything at the first
    point) and takes it back at this point's contents, the pieces covering it; the output block likewise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live 0 t], after0]
  rw [show (dats m 0 c).leavesExact 1 t = owns (c : Thread nD τ) (ms1 t) fullShare ((dats m 0 c).after 1 t) from by
    unfold Dat.leavesExact; rw [live 1 t], after1]
  rw [show (dats m 0 c).leavesExact 2 t = owns (c : Thread nD τ) (ms2 t) fullShare ((dats m 0 c).after 2 t) from by
    unfold Dat.leavesExact; rw [live 2 t], after2]
  rw [show (dats m 0 c).leavesExact 3 t = owns (c : Thread nD τ) (ms3 t) fullShare ((dats m 0 c).after 3 t) from by
    unfold Dat.leavesExact; rw [live 3 t], after3]
  rw [show (dats m 0 c).leavesExact 4 t = owns (c : Thread nD τ) (ms4 t) fullShare ((dats m 0 c).after 4 t) from by
    unfold Dat.leavesExact; rw [live 4 t], after4]
  rw [show (dats m 0 c).leavesExact 5 t = owns (c : Thread nD τ) (ms5 t) fullShare ((dats m 0 c).after 5 t) from by
    unfold Dat.leavesExact; rw [live 5 t], after5]
  rw [show (dats m 0 c).leavesExact 6 t = owns (c : Thread nD τ) (ms6 t) fullShare ((dats m 0 c).after 6 t) from by
    unfold Dat.leavesExact; rw [live 6 t], after6]
  by_cases h0 : t.val % 8 = 0
  · rw [outsAt_reset m c t h0]
    unfold out_reset sout_reset; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scover_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runReset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scover_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_reset c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (iblk m c 0 t) (iblk m c 1 t) (iblk m c 2 t) (iblk m c 3 t) (iblk m c 4 t) (iblk m c 5 t))
  · rw [outsAt_accum m c t h0]
    unfold out_accum sout_accum; (try dsimp only)
    by_cases hz : t.val = 0
    · exfalso; omega
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runAccum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (scover_accum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_accum c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back the scratch at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

/-! ## The run of @main -/

set_option maxHeartbeats 40000000 in
set_option backward.isDefEq.respectTransparency.types false in
/-- Every weakly fair execution of @main terminates; each array of a window ends at what the proof data
    compute for it, every other unscoped buffer as the sixty-nine later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

/-- The arguments end as launched: the two staged ones because an input window's array is never written,
    the fifteen others because neither host stretch writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c)⟩) (run_main m ρ)

end Cert.KernelIdeal.Region

end
-- ==== Proof.KernelIdeal.Pieces.lean ====
import proofs.«111147_j59974923321458_1_alg».proof.Proof.KernelIdeal.Region
import Idealize.ShloMosaic.Lib.Pipeline.Value

/-!
# What the found stores read back as

Running the body found, per case, the list of stores it leaves in the output block and in the scratch. Read
back, every such list is the body's last payload: the update `acc + row sums of this tile`, where `acc` is what
the scratch held when the body loaded it: what the point before left, or, after the reset, the block of zeros.
The output block is a copy of the scratch.
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- Where the accumulator is kept, the scratch ends at the update over what it held. -/
theorem sout_accum_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) :
    sout_accum c i arg2 harg2 arg3 harg3 arg4 harg4 arg5 harg5 arg6 harg6 arg7 harg7 arg8 harg8 arg9 harg9 hc x0 x1 x2 x3 x4 x5 xs = k0_pay1 (k0_pay3 x0 x1 x2 x3 x4 x5 xs) := by
  unfold sout_accum
  rw [View.read_writes_eq_canon _ _ _ (scover_accum c i arg2 harg2 arg3 harg3 arg4 harg4 arg5 harg5 arg6 harg6 arg7 harg7 arg8 harg8 arg9 harg9 hc x0 x1 x2 x3 x4 x5 xs)]
  unfold runAccum
  dsimp only
  sl_unfold_words
  rw [View.canon_unit_zero (S := S1x8x64) hz3]
  simp only [View.readAt_eq_ld, harg2.read_unread, harg3.read_unread, harg4.read_unread, harg5.read_unread, harg6.read_unread, harg7.read_unread, harg9.read_unread,
    View.ld_unit_zero (S := S8x256x512) hz3, View.ld_unit_zero (S := S512x64) hz2, View.ld_unit_zero (S := S1x1x64) hz3, View.ld_unit_zero (S := S1x8x64) hz3]

/-- And the output block is a copy of it. -/
theorem out_accum_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : ¬cond0 i)
    (x0 : Vec F S8x256x512 .f32) (x1 : Vec F S8x256x512 .f32) (x2 : Vec F S512x64 .f32) (x3 : Vec F S512x64 .f32) (x4 : Vec F S1x1x64 .f32) (x5 : Vec F S1x1x64 .f32) (xs : Vec F S1x8x64 .f32) :
    out_accum c i arg2 harg2 arg3 harg3 arg4 harg4 arg5 harg5 arg6 harg6 arg7 harg7 arg8 harg8 arg9 harg9 hc x0 x1 x2 x3 x4 x5 xs = k0_pay1 (k0_pay3 x0 x1 x2 x3 x4 x5 xs) := by
  unfold out_accum
  rw [View.read_writes_eq_canon _ _ _ (cover_accum c i arg2 harg2 arg3 harg3 arg4 harg4 arg5 harg5 arg6 harg6 arg7 harg7 arg8 harg8 arg9 harg9 hc x0 x1 x2 x3 x4 x5 xs)]
  unfold runAccum
  dsimp only
  sl_unfold_words
  rw [View.canon_unit_zero (S := S1x8x64) hz3, View.readCov_unit_zero (S := S1x8x64) _ hz3]
  simp only [View.readAt_eq_ld, harg2.read_unread, harg3.read_unread, harg4.read_unread, harg5.read_unread, harg6.read_unread, harg7.read_unread, harg9.read_unread,
    View.ld_unit_zero (S := S8x256x512) hz3, View.ld_unit_zero (S := S512x64) hz2, View.ld_unit_zero (S := S1x1x64) hz3, View.ld_unit_zero (S := S1x8x64) hz3]

/-- Where the accumulator is reset, the scratch ends at the update over the block of zeros. -/
theorem sout_reset_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) :
    sout_reset c i arg2 harg2 arg3 harg3 arg4 harg4 arg5 harg5 arg6 harg6 arg7 harg7 arg8 harg8 arg9 harg9 hc x0 x1 x2 x3 x4 x5 = k0_pay1 (k0_pay3 x0 x1 x2 x3 x4 x5 (k0_pay2 (F := F))) := by
  unfold sout_reset
  rw [View.read_writes_eq_canon _ _ _ (scover_reset c i arg2 harg2 arg3 harg3 arg4 harg4 arg5 harg5 arg6 harg6 arg7 harg7 arg8 harg8 arg9 harg9 hc x0 x1 x2 x3 x4 x5)]
  unfold runReset
  dsimp only
  sl_unfold_words
  rw [View.canon_cons_unit_zero (S := S1x8x64) hz3, View.readCov_unit_zero (S := S1x8x64) _ hz3]
  simp only [View.readAt_eq_ld, harg2.read_unread, harg3.read_unread, harg4.read_unread, harg5.read_unread, harg6.read_unread, harg7.read_unread,
    View.ld_unit_zero (S := S8x256x512) hz3, View.ld_unit_zero (S := S512x64) hz2, View.ld_unit_zero (S := S1x1x64) hz3, View.ld_unit_zero (S := S1x8x64) hz3]

/-- And the output block is a copy of it. -/
theorem out_reset_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S1x1x64 .f32) (harg6 : arg6.IsWhole) (arg7 : Memref sig .tc .vmem S1x1x64 .f32) (harg7 : arg7.IsWhole) (arg8 : Memref sig .tc .vmem S1x8x64 .f32) (harg8 : arg8.IsWhole) (arg9 : Memref sig .tc .vmem S1x8x64 .f32) (harg9 : arg9.IsWhole) (hc : cond0 i)
    (x0 : Vec F S8x256x512 .f32) (x1 : Vec F S8x256x512 .f32) (x2 : Vec F S512x64 .f32) (x3 : Vec F S512x64 .f32) (x4 : Vec F S1x1x64 .f32) (x5 : Vec F S1x1x64 .f32) :
    out_reset c i arg2 harg2 arg3 harg3 arg4 harg4 arg5 harg5 arg6 harg6 arg7 harg7 arg8 harg8 arg9 harg9 hc x0 x1 x2 x3 x4 x5 = k0_pay1 (k0_pay3 x0 x1 x2 x3 x4 x5 (k0_pay2 (F := F))) := by
  unfold out_reset
  rw [View.read_writes_eq_canon _ _ _ (cover_reset c i arg2 harg2 arg3 harg3 arg4 harg4 arg5 harg5 arg6 harg6 arg7 harg7 arg8 harg8 arg9 harg9 hc x0 x1 x2 x3 x4 x5)]
  unfold runReset
  dsimp only
  sl_unfold_words
  rw [View.canon_unit_zero (S := S1x8x64) hz3]
  rw [View.readCov_eq_canon_ld _ _ _ (fun y => ⟨_, List.mem_cons_self, View.mem_set_unit_zero hz3 Facts₀.inb_S1x8x64_S1x8x64_0_0_0 y⟩)]
  rw [View.canon_cons_unit_zero (S := S1x8x64) hz3, View.ld_unit_zero (S := S1x8x64) hz3, View.readCov_unit_zero (S := S1x8x64) _ hz3]
  simp only [View.readAt_eq_ld, harg2.read_unread, harg3.read_unread, harg4.read_unread, harg5.read_unread, harg6.read_unread, harg7.read_unread,
    View.ld_unit_zero (S := S8x256x512) hz3, View.ld_unit_zero (S := S512x64) hz2, View.ld_unit_zero (S := S1x1x64) hz3, View.ld_unit_zero (S := S1x8x64) hz3]

/-- After every point the output block holds what the scratch holds. -/
theorem outsAt_fst (m : (ℓ : Loc nD τ sig) → Buf (Elt F) ℓ) (c : Dev nD) (n : ℕ) (hn : n < cfg0.N) :
    (outsAt m c n hn).1 = (outsAt m c n hn).2 := by
  by_cases h0 : n % 8 = 0
  · rw [outsAt_reset m c ⟨n, hn⟩ h0]; dsimp only; rw [out_reset_eq, sout_reset_eq]
  · rw [outsAt_accum m c ⟨n, hn⟩ h0]; dsimp only; rw [out_accum_eq, sout_accum_eq]

end Cert.KernelIdeal.Region

end
-- ==== Proof.KernelIdeal.Payload.lean ====
/-
  The arithmetic of the kernel's body, read at one entry, at the ideal values.

  One grid step holds two [8, 256, 512] data blocks X, Y, two [512, 64] weight blocks W, V, two bias rows p, q of 64
  entries and the running [1, 8, 64] total T. The step flattens each data block to 2048 rows of 512 entries (row
  b·256 + r of the flat block is row r of batch b), multiplies by the weights, folds the 2048 rows back to [8, 256, 64],
  adds the bias row to every row, multiplies the two results entry by entry and sums the 256 rows of each batch. At
  (b, j) the step therefore adds to T

      Σ_r (Σ_d X(b, r, d)·W(d, j) + p(j)) · (Σ_d Y(b, r, d)·V(d, j) + q(j)).

  At the ideal values a narrowing of the number format changes nothing, and a product into the zero accumulator is the
  bare sum over the contracted coordinate. The lemmas below read each operation that is not entrywise at explicit
  coordinates; the last theorem chains them.
-/
import proofs.«111147_j59974923321458_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The product of the 2048×512 block with the 512×64 weights -/

/-- The left operand's kept axis reads the result's row. -/
theorem mm_lhs_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide),
    dif_pos (show (0 : Fin S2048x512.rank) ∈ dot_S2048x512_S512x64_S2048x64_1_0_0_1_n_n.lhsNonContracting by decide)]
  rfl

/-- The left operand's contracted axis reads the contraction's one coordinate. -/
theorem mm_lhs_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q

/-- The right operand's contracted axis reads the contraction's one coordinate. -/
theorem mm_rhs_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q

/-- The right operand's kept axis reads the result's column. -/
theorem mm_rhs_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide),
    dif_pos (show (1 : Fin S512x64.rank) ∈ dot_S2048x512_S512x64_S2048x64_1_0_0_1_n_n.rhsNonContracting by decide)]
  rfl

/-- The product into the zero accumulator, at row ρ and column j: Σ_d A(ρ, d)·B(d, j). -/
theorem mm_apply (A : FVec Ideal S2048x512 .bf16) (B : FVec Ideal S512x64 .bf16) (ρ : Fin 2048) (j : Fin 64) :
    matmul dot_S2048x512_S512x64_S2048x64_1_0_0_1_n_n none A B (constant (F := Ideal) S2048x64 .f32 0x00000000#32) (ix2 ρ j)
      = ∑ d : Fin 512, A (ix2 ρ d) * B (ix2 d j) := by
  show FloatOps.matmul dot_S2048x512_S512x64_S2048x64_1_0_0_1_n_n none A B (constant (F := Ideal) S2048x64 .f32 0x00000000#32) (ix2 ρ j) = _
  rw [Ideal.matmul_constant_zero_apply,
    ← Equiv.sum_comp (contrEquiv1 dot_S2048x512_S512x64_S2048x64_1_0_0_1_n_n 512 rfl rfl).symm]
  refine Finset.sum_congr rfl fun d _ => ?_
  have hd := contrEquiv1_symm_val dot_S2048x512_S512x64_S2048x64_1_0_0_1_n_n 512 rfl rfl d
  have el : dot_S2048x512_S512x64_S2048x64_1_0_0_1_n_n.lhsIdx (ix2 ρ j)
      ((contrEquiv1 dot_S2048x512_S512x64_S2048x64_1_0_0_1_n_n 512 rfl rfl).symm d) = ix2 ρ d :=
    funext fun a => Fin.ext (by
      match a with
      | ⟨0, _⟩ => exact mm_lhs_0 _ _
      | ⟨1, _⟩ => exact (mm_lhs_1 _ _).trans hd)
  have er : dot_S2048x512_S512x64_S2048x64_1_0_0_1_n_n.rhsIdx (ix2 ρ j)
      ((contrEquiv1 dot_S2048x512_S512x64_S2048x64_1_0_0_1_n_n 512 rfl rfl).symm d) = ix2 d j :=
    funext fun a => Fin.ext (by
      match a with
      | ⟨0, _⟩ => exact (mm_rhs_0 _ _).trans hd
      | ⟨1, _⟩ => exact mm_rhs_1 _ _)
  rw [el, er]

/-! ## The reshapes -/

/-- Row b·256 + r of the flat block. -/
abbrev row (b : Fin 8) (r : Fin 256) : Fin 2048 := ⟨b.val * 256 + r.val, by have := b.isLt; have := r.isLt; omega⟩

/-- The [8, 256, 512] block flattened to [2048, 512]: row b·256 + r is row r of batch b. -/
theorem flat_apply {α : Type} (x : S8x256x512.Idx → α) (b : Fin 8) (r : Fin 256) (d : Fin 512) :
    shapeCast S2048x512 x shapeCasts_S8x256x512_S2048x512 (ix2 (row b r) d) = x (ix3 b r d) :=
  shapeCast_apply x _ _ _ (by
    rw [Shape.rowMajor_val_three, Shape.rowMajor_val_two]
    rfl)

/-- The [2048, 64] product folded back to [8, 256, 64]: (b, r) is row b·256 + r. -/
theorem fold_apply {α : Type} (y : S2048x64.Idx → α) (b : Fin 8) (r : Fin 256) (j : Fin 64) :
    shapeCast S8x256x64 y shapeCasts_S2048x64_S8x256x64 (ix3 b r j) = y (ix2 (row b r) j) :=
  shapeCast_apply y _ _ _ (by
    rw [Shape.rowMajor_val_three, Shape.rowMajor_val_two]
    rfl)

/-- A reshape to the same shape changes nothing. -/
theorem cast_self {α : Type} {s : Shape} (x : s.Idx → α) (h : s.ShapeCasts s) : shapeCast s x h = x :=
  funext fun j => shapeCast_apply x h j j rfl

/-- The bias row [1, 1, 64] repeated over [8, 256, 64] reads its entry j everywhere. -/
theorem bias_apply {α : Type} (v : S1x1x64.Idx → α) (b : Fin 8) (r : Fin 256) (j : Fin 64) :
    broadcastTo S8x256x64 v broadcasts_S1x1x64_S8x256x64 (ix3 b r j) = v (ix3 (0 : Fin 1) (0 : Fin 1) j) := by
  refine broadcastTo_apply v _ (ix3 b r j) (ix3 (0 : Fin 1) (0 : Fin 1) j) fun ax => ?_
  match ax with
  | ⟨0, _⟩ => rfl
  | ⟨1, _⟩ => rfl
  | ⟨2, _⟩ => rfl

/-- The sum over the 256 rows of each batch, at (b, j). -/
theorem rowsum_apply (v : FVec Ideal S8x256x64 .f32) (b : Fin 8) (j : Fin 64) :
    multiReduction (F := Ideal) .add [1] S8x64 v 0x00000000#32 reduces_S8x256x64_S8x64 (.inl rfl) rfl (ix2 b j)
      = ∑ r : Fin 256, v (ix3 b r j) := by
  refine (Ideal.multiReduction_add_single v _ reduces_S8x256x64_S8x64 _ _ (ix2 b j)).trans ?_
  refine Finset.sum_congr rfl fun r _ => congrArg v (funext fun ax => Fin.ext ?_)
  match ax with
  | ⟨0, _⟩ => rfl
  | ⟨1, _⟩ => rfl
  | ⟨2, _⟩ => rfl

/-! ## The three payloads -/

/-- The identity reshape the kernel stores back. -/
theorem pay1_eq (v : FVec Ideal S1x8x64 .f32) : k0_pay1 (F := Ideal) v = v := by
  unfold k0_pay1
  exact cast_self v _

/-- The reset value: the zero word in every entry. -/
theorem pay2_apply (b : Fin 8) (j : Fin 64) :
    k0_pay2 (F := Ideal) (ix3 (0 : Fin 1) b j) = Ideal.ofBits .f32 0x00000000#32 := by
  unfold k0_pay2
  rw [cast_self]
  rfl

/-- One factor at (b, r, j): the flattened block times the weights, folded back, plus the bias row. -/
theorem factor_apply (x : Vec Ideal S8x256x512 .f32) (w : Vec Ideal S512x64 .f32) (p : Vec Ideal S1x1x64 .f32)
    (b : Fin 8) (r : Fin 256) (j : Fin 64) :
    addf (F := Ideal)
        (shapeCast S8x256x64
          (matmul dot_S2048x512_S512x64_S2048x64_1_0_0_1_n_n none
            (shapeCast S2048x512 (truncf (F := Ideal) .bf16 x bitsLt_bf16_f32) shapeCasts_S8x256x512_S2048x512)
            (truncf (F := Ideal) .bf16 (shapeCast S512x64 w shapeCasts_S512x64_S512x64) bitsLt_bf16_f32)
            (constant (F := Ideal) S2048x64 .f32 0x00000000#32))
          shapeCasts_S2048x64_S8x256x64)
        (broadcastTo S8x256x64 (shapeCast S1x1x64 p shapeCasts_S1x1x64_S1x1x64) broadcasts_S1x1x64_S8x256x64)
        (ix3 b r j)
      = (∑ d : Fin 512, x (ix3 b r d) * w (ix2 d j)) + p (ix3 (0 : Fin 1) (0 : Fin 1) j) := by
  rw [addf_apply, fold_apply, bias_apply, mm_apply, cast_self, cast_self]
  refine congrArg (· + p (ix3 (0 : Fin 1) (0 : Fin 1) j)) (Finset.sum_congr rfl fun d _ => ?_)
  rw [flat_apply]
  rfl

/-- The accumulating step at (b, j): the running total plus the sum over the 256 rows of the product of the two
    factors. The zero word the row sum starts from is the extended real 0. -/
theorem pay3_apply (x0 x1 : Vec Ideal S8x256x512 .f32) (x2 x3 : Vec Ideal S512x64 .f32) (x4 x5 : Vec Ideal S1x1x64 .f32)
    (xs : Vec Ideal S1x8x64 .f32) (b : Fin 8) (j : Fin 64) :
    k0_pay3 (F := Ideal) x0 x1 x2 x3 x4 x5 xs (ix3 (0 : Fin 1) b j)
      = xs (ix3 (0 : Fin 1) b j) + (Ideal.ofBits .f32 0x00000000#32 + ∑ r : Fin 256,
          ((∑ d : Fin 512, x0 (ix3 b r d) * x2 (ix2 d j)) + x4 (ix3 (0 : Fin 1) (0 : Fin 1) j))
        * ((∑ d : Fin 512, x1 (ix3 b r d) * x3 (ix2 d j)) + x5 (ix3 (0 : Fin 1) (0 : Fin 1) j))) := by
  unfold k0_pay3
  rw [Ideal.ofBits_zero_f32, zero_add]
  refine (addf_apply _ _ _).trans (congrArg (xs (ix3 (0 : Fin 1) b j) + ·) ?_)
  refine (shapeCast_ab_1ab_apply _ _ _ _ _).trans ?_
  refine (rowsum_apply _ b j).trans (Finset.sum_congr rfl fun r _ => ?_)
  refine (mulf_apply _ _ _).trans ?_
  rw [factor_apply x0 x2 x4 b r j, factor_apply x1 x3 x5 b r j]

end Cert.KernelIdeal.Payload

end
-- ==== Proof.Spec.lean ====
import Mathlib.Data.EReal.Basic
import Mathlib.Algebra.BigOperators.Group.Finset.Basic
import Mathlib.Data.Fintype.BigOperators

/-!
# The two formulas for the extracted sum

Both programs compute, per batch row `b` and output feature `d`, an "extracted sum" and then apply the same
division, layer normalisation and output projection to it. This module writes the two extracted sums as
functions of the inputs read at coordinates, over the extended reals, with the two literals that occur (the
zero that starts every sum and the count 4096 that multiplies a bias) as parameters.

The reference projects keys and values to 64 features per position, multiplies them, maps the product to 512
features with a bias, maps that to 64 features with a bias, multiplies by the projected query, sums over the
4096 positions, and maps the sum to 512 features with 4096 times a bias.

The kernel sums the key-value products over the positions first, in two runs of eight tiles of 256 positions
each added to an accumulator that starts from zero, adds the two runs, and applies each affine map once to the
sum, with 4096 times its bias.

The two agree when every input is a real number, the zero literal is 0 and the count literal is 4096: an
affine map commutes with a sum over 4096 positions when its bias is counted 4096 times.
-/

noncomputable section

namespace Cert.Spec

open Finset

/-- The inputs, read at coordinates. -/
structure Inputs where
  K : Fin 8 → Fin 4096 → Fin 512 → EReal
  V : Fin 8 → Fin 4096 → Fin 512 → EReal
  Qy : Fin 8 → Fin 512 → EReal
  Wbk : Fin 64 → Fin 512 → EReal
  bbk : Fin 64 → EReal
  Wbv : Fin 64 → Fin 512 → EReal
  bbv : Fin 64 → EReal
  Wbc : Fin 512 → Fin 64 → EReal
  bbc : Fin 512 → EReal
  Wuq : Fin 64 → Fin 512 → EReal
  buq : Fin 64 → EReal
  Wue : Fin 512 → Fin 64 → EReal
  bue : Fin 512 → EReal

variable (I : Inputs) (z c : EReal)

/-- The projected key at batch row `b`, position `n`, feature `j`. -/
def kp (b : Fin 8) (n : Fin 4096) (j : Fin 64) : EReal := (∑ d : Fin 512, I.K b n d * I.Wbk j d) + I.bbk j
/-- The projected value. -/
def vp (b : Fin 8) (n : Fin 4096) (j : Fin 64) : EReal := (∑ d : Fin 512, I.V b n d * I.Wbv j d) + I.bbv j
/-- The projected query. -/
def qp (b : Fin 8) (j : Fin 64) : EReal := (∑ d : Fin 512, I.Qy b d * I.Wuq j d) + I.buq j

/-! ## The reference -/

def bindR (b : Fin 8) (n : Fin 4096) (d : Fin 512) : EReal := (∑ j : Fin 64, (kp I b n j * vp I b n j) * I.Wbc d j) + I.bbc d
def bpR (b : Fin 8) (n : Fin 4096) (j : Fin 64) : EReal := (∑ d : Fin 512, bindR I b n d * I.Wuq j d) + I.buq j
def matchR (b : Fin 8) (n : Fin 4096) (j : Fin 64) : EReal := bpR I b n j * qp I b j
def msumR (b : Fin 8) (j : Fin 64) : EReal := z + ∑ n : Fin 4096, matchR I b n j
/-- The reference's extracted sum. -/
def extR (b : Fin 8) (d : Fin 512) : EReal := (∑ j : Fin 64, msumR I z b j * I.Wue d j) + c * I.bue d

/-! ## The kernel -/

/-- Position `r` of tile `t` (of sixteen tiles of 256 positions). -/
def pos (t : Fin 16) (r : Fin 256) : Fin 4096 := ⟨t.val * 256 + r.val, by have := t.isLt; have := r.isLt; omega⟩

/-- The row sums of one tile: the products of projected key and value, summed over the tile's 256 positions
    from the zero literal. -/
def tileSum (t : Fin 16) (b : Fin 8) (j : Fin 64) : EReal := z + ∑ r : Fin 256, kp I b (pos t r) j * vp I b (pos t r) j

/-- The accumulator after tile `s` of run `p`: the zero literal plus the first tile's row sums, then each
    later tile's added. -/
def acc (p : Fin 2) : (s : ℕ) → s < 8 → Fin 8 → Fin 64 → EReal
  | 0, _ => fun b j => z + tileSum I z ⟨p.val * 8, by have := p.isLt; omega⟩ b j
  | s + 1, hs => fun b j => acc p s (Nat.lt_of_succ_lt hs) b j + tileSum I z ⟨p.val * 8 + (s + 1), by have := p.isLt; omega⟩ b j

/-- The region's result: run `p`'s accumulator after its eighth tile. -/
def regionOut (p : Fin 2) (b : Fin 8) (j : Fin 64) : EReal := acc I z p 7 (by decide) b j
def kvSum (b : Fin 8) (j : Fin 64) : EReal := z + ∑ p : Fin 2, regionOut I z p b j
def sK (b : Fin 8) (d : Fin 512) : EReal := (∑ k : Fin 64, kvSum I z b k * I.Wbc d k) + c * I.bbc d
def bpsK (b : Fin 8) (j : Fin 64) : EReal := (∑ d : Fin 512, sK I z c b d * I.Wuq j d) + c * I.buq j
def msK (b : Fin 8) (j : Fin 64) : EReal := qp I b j * bpsK I z c b j
/-- The kernel's extracted sum. -/
def extK (b : Fin 8) (d : Fin 512) : EReal := (∑ j : Fin 64, msK I z c b j * I.Wue d j) + c * I.bue d

/-- Every input is a real number. -/
structure Inputs.Real (I : Inputs) : Prop where
  K : ∀ b n d, ∃ x : ℝ, I.K b n d = x
  V : ∀ b n d, ∃ x : ℝ, I.V b n d = x
  Qy : ∀ b d, ∃ x : ℝ, I.Qy b d = x
  Wbk : ∀ j d, ∃ x : ℝ, I.Wbk j d = x
  bbk : ∀ j, ∃ x : ℝ, I.bbk j = x
  Wbv : ∀ j d, ∃ x : ℝ, I.Wbv j d = x
  bbv : ∀ j, ∃ x : ℝ, I.bbv j = x
  Wbc : ∀ d j, ∃ x : ℝ, I.Wbc d j = x
  bbc : ∀ d, ∃ x : ℝ, I.bbc d = x
  Wuq : ∀ j d, ∃ x : ℝ, I.Wuq j d = x
  buq : ∀ j, ∃ x : ℝ, I.buq j = x
  Wue : ∀ d j, ∃ x : ℝ, I.Wue d j = x
  bue : ∀ d, ∃ x : ℝ, I.bue d = x

end Cert.Spec

end
-- ==== Proof.SpecArrays.lean ====
import proofs.«111147_j59974923321458_1_alg».proof.Proof.Spec
import Idealize.ShloMosaic.Lib.ValueIdx
import Idealize.ShloMosaic.PureOps.Ideal

/-!
# The arrays read at coordinates

The specification's inputs, taken from the seventeen argument arrays of either program read at coordinates.
Only the first thirteen arrays enter the extracted sum; the last four (the normalisation's gain and shift,
the output projection's weight and bias) enter only the common tail.
-/

noncomputable section

namespace Cert.Spec

open Idealize.ShloMosaic Idealize.ShloMosaic.ValueIdx

abbrev A8x4096x512 : Shape := ⟨3, ![8, 4096, 512]⟩
abbrev A8x512 : Shape := ⟨2, ![8, 512]⟩
abbrev A64x512 : Shape := ⟨2, ![64, 512]⟩
abbrev A64 : Shape := ⟨1, ![64]⟩
abbrev A512x64 : Shape := ⟨2, ![512, 64]⟩
abbrev A512 : Shape := ⟨1, ![512]⟩

/-- The inputs of the specification, from the first thirteen argument arrays. -/
def inputsOf (x0 x1 : A8x4096x512.Idx → EReal) (x2 : A8x512.Idx → EReal) (x3 : A64x512.Idx → EReal) (x4 : A64.Idx → EReal)
    (x5 : A64x512.Idx → EReal) (x6 : A64.Idx → EReal) (x7 : A512x64.Idx → EReal) (x8 : A512.Idx → EReal)
    (x9 : A64x512.Idx → EReal) (x10 : A64.Idx → EReal) (x11 : A512x64.Idx → EReal) (x12 : A512.Idx → EReal) : Inputs where
  K b n d := x0 (ix3 b n d)
  V b n d := x1 (ix3 b n d)
  Qy b d := x2 (ix2 b d)
  Wbk j d := x3 (ix2 j d)
  bbk j := x4 (ix1 j)
  Wbv j d := x5 (ix2 j d)
  bbv j := x6 (ix1 j)
  Wbc d j := x7 (ix2 d j)
  bbc d := x8 (ix1 d)
  Wuq j d := x9 (ix2 j d)
  buq j := x10 (ix1 j)
  Wue d j := x11 (ix2 d j)
  bue d := x12 (ix1 d)

/-- The zero literal and the count literal, as the programs spell them. -/
abbrev zlit : EReal := Ideal.ofBits .f32 0x00000000#32
abbrev clit : EReal := Ideal.ofBits .f32 0x45800000#32

end Cert.Spec

end
-- ==== Proof.KernelIdeal.Blocks.lean ====
import proofs.«111147_j59974923321458_1_alg».proof.Proof.KernelIdeal.Region
import proofs.«111147_j59974923321458_1_alg».proof.Proof.SpecArrays
import Idealize.ShloMosaic.Lib.Pipeline.Value
import Idealize.ShloMosaic.Lib.ValueIdx
import Idealize.ShloMosaic.Lib.ValueLayout
import Idealize.ShloMosaic.Lib.StableHlo.Run

/-!
# The windows' blocks and the output array, read at coordinates

Each input window's block at a grid point is a rectangle of the array the region finds under it. For the two
tiled inputs the block at point `t` is the tile of 256 positions starting at position `256 t`; the four
whole-array windows hold the transposed projection weights and the reshaped biases, which the four earlier
host operations computed from the arguments. The output array has two rows of blocks; row `p` is written
back once, after point `8 p + 7`, so it ends holding what the output block held after that point.
-/

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (m : (ℓ : Loc nD τ sig) → Buf (Elt F) ℓ)

/-! ## The printed index maps, decided over the grid -/

/-- Window 0's block index at point `t` is `(0, t, 0)`. -/
theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

/-- Window 1's block index at point `t` is `(0, t, 0)`. -/
theorem idx1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

/-- Window 0's block at point `t` is tile `t` of the first argument: positions `256 t … 256 t + 255`. -/
theorem iblk0_apply (c : Dev nD) (t : Fin cfg0.N) (b : Fin 8) (r : Fin 256) (d : Fin 512) :
    (iblk m c 0 t : Vec F S8x256x512 .f32) (ix3 b r d)
      = (m ((c : Thread nD τ).loc main_arg0) : Vec F S8x4096x512 .f32) (ix3 b (Cert.Spec.pos ⟨t.val, lt_of_lt_of_eq t.isLt N_0⟩ r) d) := by
  obtain ⟨e0, e1, e2⟩ := idx0 t
  unfold iblk
  rw [View.read_apply]
  show V m c main_arg0 (((cfg0.win 0).blk t).view.emb (ix3 b r d)) = _
  rw [V_main_arg0]
  congr 1
  funext a
  apply Fin.ext
  match a with
  | ⟨0, _⟩ => show win0_0.index t 0 * 8 + 1 * b.val = b.val; omega
  | ⟨1, _⟩ => show win0_0.index t 1 * 256 + 1 * r.val = t.val * 256 + r.val; omega
  | ⟨2, _⟩ => show win0_0.index t 2 * 512 + 1 * d.val = d.val; omega

/-- Window 1's block at point `t` is tile `t` of the second argument. -/
theorem iblk1_apply (c : Dev nD) (t : Fin cfg0.N) (b : Fin 8) (r : Fin 256) (d : Fin 512) :
    (iblk m c 1 t : Vec F S8x256x512 .f32) (ix3 b r d)
      = (m ((c : Thread nD τ).loc main_arg1) : Vec F S8x4096x512 .f32) (ix3 b (Cert.Spec.pos ⟨t.val, lt_of_lt_of_eq t.isLt N_0⟩ r) d) := by
  obtain ⟨e0, e1, e2⟩ := idx1 t
  unfold iblk
  rw [View.read_apply]
  show V m c main_arg1 (((cfg0.win 1).blk t).view.emb (ix3 b r d)) = _
  rw [V_main_arg1]
  congr 1
  funext a
  apply Fin.ext
  match a with
  | ⟨0, _⟩ => show win0_1.index t 0 * 8 + 1 * b.val = b.val; omega
  | ⟨1, _⟩ => show win0_1.index t 1 * 256 + 1 * r.val = t.val * 256 + r.val; omega
  | ⟨2, _⟩ => show win0_1.index t 2 * 512 + 1 * d.val = d.val; omega

/-! ## The four whole-array windows: what the earlier host operations left -/

/-- Windows 2 to 5 each have one block, the whole array. -/
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- The first host operation's result is the key projection's weight transposed. -/
theorem V_main_v0 (c : Dev nD) : (V m c main_v0 : S512x64.Idx → Elt F .f32)
    = transpose S512x64 [1, 0] (m ((c : Thread nD τ).loc main_arg3) : S64x512.Idx → Elt F .f32) Facts₀.transposes_S64x512_S512x64_1_0 := by
  dsimp only [V, V0]
  simp only [hostOps0, List.flatten_cons, List.flatten_nil, List.append_nil, List.cons_append, List.nil_append]
  after_results

/-- The second's is the value projection's weight transposed. -/
theorem V_main_v1 (c : Dev nD) : (V m c main_v1 : S512x64.Idx → Elt F .f32)
    = transpose S512x64 [1, 0] (m ((c : Thread nD τ).loc main_arg5) : S64x512.Idx → Elt F .f32) Facts₀.transposes_S64x512_S512x64_1_0 := by
  dsimp only [V, V0]
  simp only [hostOps0, List.flatten_cons, List.flatten_nil, List.append_nil, List.cons_append, List.nil_append]
  after_results

/-- The third's is the key projection's bias with two unit axes in front. -/
theorem V_main_v2 (c : Dev nD) : (V m c main_v2 : S1x1x64.Idx → Elt F .f32)
    = shapeCast S1x1x64 (m ((c : Thread nD τ).loc main_arg4) : S64.Idx → Elt F .f32) Facts₀.shapeCasts_S64_S1x1x64 := by
  dsimp only [V, V0]
  simp only [hostOps0, List.flatten_cons, List.flatten_nil, List.append_nil, List.cons_append, List.nil_append]
  after_results
  rfl

/-- The fourth's is the value projection's bias with two unit axes in front. -/
theorem V_main_v3 (c : Dev nD) : (V m c main_v3 : S1x1x64.Idx → Elt F .f32)
    = shapeCast S1x1x64 (m ((c : Thread nD τ).loc main_arg6) : S64.Idx → Elt F .f32) Facts₀.shapeCasts_S64_S1x1x64 := by
  dsimp only [V, V0]
  simp only [hostOps0, List.flatten_cons, List.flatten_nil, List.append_nil, List.cons_append, List.nil_append]
  after_results
  rfl

/-- A bias with two unit axes in front reads, at `(0, 0, j)`, the bias at `j`. -/
theorem shapeCast_bias_apply {α : Type} (x : S64.Idx → α) (h : S64.ShapeCasts S1x1x64) (j : Fin 64) :
    shapeCast S1x1x64 x h (ix3 (0 : Fin 1) (0 : Fin 1) j) = x (ix1 j) := by
  refine shapeCast_apply x h _ _ ?_
  rw [Shape.rowMajor_val_one, Shape.rowMajor_val_three]
  show j.val = ((0 : Fin 1).val * 1 + (0 : Fin 1).val) * 64 + j.val
  simp

/-- Window 2's block is the key projection's weight, transposed. -/
theorem iblk2_apply (c : Dev nD) (t : Fin cfg0.N) (d : Fin 512) (j : Fin 64) :
    (iblk m c 2 t : Vec F S512x64 .f32) (ix2 d j) = (m ((c : Thread nD τ).loc main_arg3) : Vec F S64x512 .f32) (ix2 j d) := by
  obtain ⟨e0, e1⟩ := idx2 t
  have hi : (((cfg0.win 2).blk t).view.emb (ix2 d j) : S512x64.Idx) = ix2 d j := by
    funext a
    apply Fin.ext
    match a with
    | ⟨0, _⟩ => show win0_2.index t 0 * 512 + 1 * d.val = d.val; omega
    | ⟨1, _⟩ => show win0_2.index t 1 * 64 + 1 * j.val = j.val; omega
  unfold iblk
  rw [View.read_apply]
  show (V m c main_v0 : S512x64.Idx → Elt F .f32) (((cfg0.win 2).blk t).view.emb (ix2 d j)) = _
  rw [hi, V_main_v0]
  exact transpose_ix2_apply _ Facts₀.transposes_S64x512_S512x64_1_0 d j

/-- Window 3's block is the value projection's weight, transposed. -/
theorem iblk3_apply (c : Dev nD) (t : Fin cfg0.N) (d : Fin 512) (j : Fin 64) :
    (iblk m c 3 t : Vec F S512x64 .f32) (ix2 d j) = (m ((c : Thread nD τ).loc main_arg5) : Vec F S64x512 .f32) (ix2 j d) := by
  obtain ⟨e0, e1⟩ := idx3 t
  have hi : (((cfg0.win 3).blk t).view.emb (ix2 d j) : S512x64.Idx) = ix2 d j := by
    funext a
    apply Fin.ext
    match a with
    | ⟨0, _⟩ => show win0_3.index t 0 * 512 + 1 * d.val = d.val; omega
    | ⟨1, _⟩ => show win0_3.index t 1 * 64 + 1 * j.val = j.val; omega
  unfold iblk
  rw [View.read_apply]
  show (V m c main_v1 : S512x64.Idx → Elt F .f32) (((cfg0.win 3).blk t).view.emb (ix2 d j)) = _
  rw [hi, V_main_v1]
  exact transpose_ix2_apply _ Facts₀.transposes_S64x512_S512x64_1_0 d j

/-- Window 4's block is the key projection's bias. -/
theorem iblk4_apply (c : Dev nD) (t : Fin cfg0.N) (j : Fin 64) :
    (iblk m c 4 t : Vec F S1x1x64 .f32) (ix3 (0 : Fin 1) (0 : Fin 1) j) = (m ((c : Thread nD τ).loc main_arg4) : Vec F S64 .f32) (ix1 j) := by
  obtain ⟨e0, e1, e2⟩ := idx4 t
  have hi : (((cfg0.win 4).blk t).view.emb (ix3 (0 : Fin 1) (0 : Fin 1) j) : S1x1x64.Idx) = ix3 (0 : Fin 1) (0 : Fin 1) j := by
    funext a
    apply Fin.ext
    match a with
    | ⟨0, _⟩ => show win0_4.index t 0 * 1 + 1 * (0 : Fin 1).val = (0 : Fin 1).val; omega
    | ⟨1, _⟩ => show win0_4.index t 1 * 1 + 1 * (0 : Fin 1).val = (0 : Fin 1).val; omega
    | ⟨2, _⟩ => show win0_4.index t 2 * 64 + 1 * j.val = j.val; omega
  unfold iblk
  rw [View.read_apply]
  show (V m c main_v2 : S1x1x64.Idx → Elt F .f32) (((cfg0.win 4).blk t).view.emb (ix3 (0 : Fin 1) (0 : Fin 1) j)) = _
  rw [hi, V_main_v2]
  exact shapeCast_bias_apply _ Facts₀.shapeCasts_S64_S1x1x64 j

/-- Window 5's block is the value projection's bias. -/
theorem iblk5_apply (c : Dev nD) (t : Fin cfg0.N) (j : Fin 64) :
    (iblk m c 5 t : Vec F S1x1x64 .f32) (ix3 (0 : Fin 1) (0 : Fin 1) j) = (m ((c : Thread nD τ).loc main_arg6) : Vec F S64 .f32) (ix1 j) := by
  obtain ⟨e0, e1, e2⟩ := idx5 t
  have hi : (((cfg0.win 5).blk t).view.emb (ix3 (0 : Fin 1) (0 : Fin 1) j) : S1x1x64.Idx) = ix3 (0 : Fin 1) (0 : Fin 1) j := by
    funext a
    apply Fin.ext
    match a with
    | ⟨0, _⟩ => show win0_5.index t 0 * 1 + 1 * (0 : Fin 1).val = (0 : Fin 1).val; omega
    | ⟨1, _⟩ => show win0_5.index t 1 * 1 + 1 * (0 : Fin 1).val = (0 : Fin 1).val; omega
    | ⟨2, _⟩ => show win0_5.index t 2 * 64 + 1 * j.val = j.val; omega
  unfold iblk
  rw [View.read_apply]
  show (V m c main_v3 : S1x1x64.Idx → Elt F .f32) (((cfg0.win 5).blk t).view.emb (ix3 (0 : Fin 1) (0 : Fin 1) j)) = _
  rw [hi, V_main_v3]
  exact shapeCast_bias_apply _ Facts₀.shapeCasts_S64_S1x1x64 j

/-! ## The output array -/

/-- Window 6's block index at point `t` is `(t / 8, 0, 0)`. -/
theorem idx6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

/-- What the output block holds after a point depends on the point only, not on how its bound is proved. -/
theorem outsAt_fst_congr (c : Dev nD) {n n' : ℕ} (h : n = n') (hn : n < cfg0.N) (hn' : n' < cfg0.N)
    {i i' : S1x8x64.Idx} (hi : i = i') : (outsAt m c n hn).1 i = (outsAt m c n' hn').1 i' := by
  subst h; subst hi; rfl

/-- The output array's final contents: row `p` holds what the output block held after point `8 p + 7`. -/
def outG (c : Dev nD) : Vec F S2x8x64 .f32 := fun i =>
  (outsAt m c ((i 0).val * 8 + 7) (by have h : (i 0).val < 2 := (i 0).isLt; have : cfg0.N = 16 := N_0; omega)).1
    (ix3 (0 : Fin 1) (i 1 : Fin 8) (i 2 : Fin 64))

/-- A point that writes back writes its block of those contents: it is the last point of its run. -/
theorem flushed6_eq (c : Dev nD) (t : Fin cfg0.N) (hf : (cfg0.win 6).flush t = true) :
    (dats m 0 c).flushed 6 t = ((cfg0.win 6).blk t).view.read (Elt F) (outG m c) := by
  have h7 : t.val % 8 = 7 := (flush0_6 t).mp hf
  obtain ⟨e0, e1, e2⟩ := idx6 t
  show (cfg0.win 6).cut (grid0.coords t) ((dats m 0 c).after 6 t) = _
  rw [after6]
  funext y
  rw [View.read_apply]
  have hy0 : (y 0).val < 1 := (y 0).isLt
  have h0 : ((((cfg0.win 6).blk t).view.emb y) 0).val = win0_6.index t 0 * 1 + 1 * (y 0).val := rfl
  have h1 : ((((cfg0.win 6).blk t).view.emb y) 1).val = win0_6.index t 1 * 8 + 1 * (y 1).val := rfl
  have h2 : ((((cfg0.win 6).blk t).view.emb y) 2).val = win0_6.index t 2 * 64 + 1 * (y 2).val := rfl
  unfold outG
  refine outsAt_fst_congr m c (by omega) _ _ (funext fun a => Fin.ext ?_)
  match a with
  | ⟨0, _⟩ => show (y 0).val = (0 : Fin 1).val; simp; omega
  | ⟨1, _⟩ => show (y 1).val = ((((cfg0.win 6).blk t).view.emb y) 1).val; omega
  | ⟨2, _⟩ => show (y 2).val = ((((cfg0.win 6).blk t).view.emb y) 2).val; omega

/-- The two write-backs cover the array, so it ends holding those contents. -/
theorem out_array_eq (c : Dev nD) : (dats m 0 c).arrAt 6 cfg0.N = outG m c :=
  (dats m 0 c).arrAt_eq_of_cover 6 (outG m c) (flushed6_eq m c) fun i => by
    have hN : cfg0.N = 16 := N_0
    have hi0 : (i 0 : Nat) < 2 := (i 0).isLt
    have hi1 : (i 1 : Nat) < 8 := (i 1).isLt
    have hi2 : (i 2 : Nat) < 64 := (i 2).isLt
    obtain ⟨t, ht⟩ : ∃ t : Fin cfg0.N, t.val = (i 0 : Nat) * 8 + 7 := ⟨⟨(i 0 : Nat) * 8 + 7, by omega⟩, rfl⟩
    obtain ⟨e0, e1, e2⟩ := idx6 t
    refine ⟨t, (flush0_6 t).mpr (by omega), ?_⟩
    show i ∈ ((View.whole main_v4).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; omega
    | ⟨1, _⟩ => show win0_6.index t 1 * 8 ≤ (i 1 : Nat) ∧ (i 1 : Nat) < win0_6.index t 1 * 8 + 8; omega
    | ⟨2, _⟩ => show win0_6.index t 2 * 64 ≤ (i 2 : Nat) ∧ (i 2 : Nat) < win0_6.index t 2 * 64 + 64; omega

/-- The output array at `(p, b, j)` is the output block after point `8 p + 7` at `(0, b, j)`. -/
theorem out_array_apply (c : Dev nD) (p : Fin 2) (b : Fin 8) (j : Fin 64) :
    ((dats m 0 c).arrAt 6 cfg0.N : Vec F S2x8x64 .f32) (ix3 p b j)
      = (outsAt m c (p.val * 8 + 7) (by have := p.isLt; have : cfg0.N = 16 := N_0; omega)).1 (ix3 (0 : Fin 1) b j) :=
  (congrFun (out_array_eq m c) (ix3 p b j)).trans rfl

end Cert.KernelIdeal.Region

end
-- ==== Proof.KernelIdeal.Accum.lean ====
import proofs.«111147_j59974923321458_1_alg».proof.Proof.KernelIdeal.Pieces
import proofs.«111147_j59974923321458_1_alg».proof.Proof.KernelIdeal.Payload
import proofs.«111147_j59974923321458_1_alg».proof.Proof.KernelIdeal.Blocks
import proofs.«111147_j59974923321458_1_alg».proof.Proof.SpecArrays

/-!
# The region's result is the specification's

Read at an entry `(b, j)`, the body's update is `acc + (0 + Σ over the tile's 256 positions of projected key
times projected value)`: the payload read at an index, with each block read off the argument arrays. So the
scratch after point `n` follows the recursion "zero plus the tile's row sums at a point divisible by eight,
the value before plus the tile's row sums otherwise", by induction on the point. The output array's row `p`
is the scratch after point `8p + 7`, which is the specification's accumulator after the eighth tile of run `p`.
-/

set_option maxRecDepth 16384

noncomputable section

namespace Cert.KernelIdeal.Region

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)
open Cert.Spec (zlit clit)

variable (m : (ℓ : Loc nD τ sig) → Buf (Elt Ideal) ℓ) (c : Dev nD)

/-- The specification's inputs, read off the launch memory. -/
abbrev inputs : Cert.Spec.Inputs := Cert.Spec.inputsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The accumulator after point `n`, by recursion on the point. -/
def accN (I : Cert.Spec.Inputs) (z : EReal) : (n : ℕ) → n < 16 → Fin 8 → Fin 64 → EReal
  | 0, h => fun b j => z + Cert.Spec.tileSum I z ⟨0, h⟩ b j
  | n + 1, h =>
    if (n + 1) % 8 = 0 then fun b j => z + Cert.Spec.tileSum I z ⟨n + 1, h⟩ b j
    else fun b j => accN I z n (Nat.lt_of_succ_lt h) b j + Cert.Spec.tileSum I z ⟨n + 1, h⟩ b j

/-- The update read at an entry: what the scratch held, plus the tile's row sums. -/
theorem update_apply (t : Fin cfg0.N) (xs : Vec Ideal S1x8x64 .f32) (b : Fin 8) (j : Fin 64) :
    k0_pay1 (F := Ideal) (k0_pay3 (F := Ideal) (iblk m c 0 t) (iblk m c 1 t) (iblk m c 2 t) (iblk m c 3 t) (iblk m c 4 t) (iblk m c 5 t) xs) (ix3 (0 : Fin 1) b j)
      = xs (ix3 (0 : Fin 1) b j) + Cert.Spec.tileSum (inputs m c) zlit ⟨t.val, lt_of_lt_of_eq t.isLt N_0⟩ b j := by
  rw [pay1_eq]
  refine (pay3_apply (iblk m c 0 t) (iblk m c 1 t) (iblk m c 2 t) (iblk m c 3 t) (iblk m c 4 t) (iblk m c 5 t) xs b j).trans ?_
  simp only [iblk0_apply, iblk1_apply, iblk2_apply, iblk3_apply, iblk4_apply, iblk5_apply]
  rfl

/-- The scratch after point `n`, read at an entry, is the accumulator after point `n`. -/
theorem scratch_apply : ∀ (n : ℕ) (hn : n < cfg0.N) (b : Fin 8) (j : Fin 64),
    (outsAt m c n hn).2 (ix3 (0 : Fin 1) b j) = accN (inputs m c) zlit n (lt_of_lt_of_eq hn N_0) b j
  | 0, hn, b, j => by
    rw [outsAt_reset m c ⟨0, hn⟩ rfl]; dsimp only
    rw [sout_reset_eq, update_apply m c ⟨0, hn⟩ _ b j, pay2_apply]
    rfl
  | n + 1, hn, b, j => by
    by_cases h0 : (n + 1) % 8 = 0
    · rw [outsAt_reset m c ⟨n + 1, hn⟩ h0]; dsimp only
      rw [sout_reset_eq, update_apply m c ⟨n + 1, hn⟩ _ b j, pay2_apply]
      unfold accN; rw [if_pos h0]
    · rw [outsAt_accum m c ⟨n + 1, hn⟩ h0]; dsimp only
      rw [sout_accum_eq, update_apply m c ⟨n + 1, hn⟩ _ b j]
      unfold accN; rw [if_neg h0]
      show (outsAt m c n _).2 (ix3 (0 : Fin 1) b j) + _ = _
      rw [scratch_apply n (Nat.lt_of_succ_lt hn) b j]

/-- After the eighth tile of run `p` the accumulator is the specification's region result. -/
theorem accN_regionOut (I : Cert.Spec.Inputs) (z : EReal) (p : Fin 2) (b : Fin 8) (j : Fin 64) :
    accN I z (p.val * 8 + 7) (by have := p.isLt; omega) b j = Cert.Spec.regionOut I z p b j := by
  fin_cases p <;> rfl

/-- Row `p` of the region's output array is the specification's region result of run `p`. -/
theorem region_value (p : Fin 2) (b : Fin 8) (j : Fin 64) :
    ((dats m 0 c).arrAt 6 cfg0.N : Vec Ideal S2x8x64 .f32) (ix3 p b j) = Cert.Spec.regionOut (inputs m c) zlit p b j := by
  rw [out_array_apply m c p b j, outsAt_fst, scratch_apply m c _ _ b j]
  exact accN_regionOut (inputs m c) zlit p b j

end Cert.KernelIdeal.Region

end
-- ==== Proof.RefTail.lean ====
import proofs.«111147_j59974923321458_1_alg».proof.Proof.Gen.ReferenceIdeal

/-!
# The common tail

After the extracted sum both programs do the same thing: divide by 64 (the square root of the 4096
positions), subtract each row's mean, divide by the square root of the row's variance plus a small constant,
scale by the gain, add the shift, multiply by the transposed output weight and add the output bias. This
module writes those thirty-one operations once, as a function of the extracted sum and the four arrays they
read, in the reference's spelling. Neither side's proof ever opens it.
-/

noncomputable section

namespace Cert.ReferenceIdeal.Tail

open Cert.ReferenceIdeal Cert.ReferenceIdeal.Gen Idealize.ShloMosaic Idealize.ShloMosaic.TcCoe Idealize.SL.Sem

variable {F : FTy → Type} [FloatOps F]

/-- Division by 64, layer normalisation over the 512 features with gain `g` and shift `s`, and the output
    projection by the transpose of `Wo` with bias `bo`, of the extracted sum `ext`. -/
def tailOf (ext : (⟨S8x512, .f32⟩ : BufTy).Contents (Elt F)) (g s : (⟨S512, .f32⟩ : BufTy).Contents (Elt F)) (Wo : (⟨S512x512, .f32⟩ : BufTy).Contents (Elt F)) (bo : (⟨S512, .f32⟩ : BufTy).Contents (Elt F)) : (⟨S8x512, .f32⟩ : BufTy).Contents (Elt F) :=
  have c64 : (⟨S8x512, .f32⟩ : BufTy).Contents (Elt F) := broadcastInDim S8x512 ![] bcast_S_S8x512 (constant S_ .f32 0x42800000#32)
  have r : (⟨S8x512, .f32⟩ : BufTy).Contents (Elt F) := Host.divf ext c64
  have rs : (⟨S8, .f32⟩ : BufTy).Contents (Elt F) := Host.reduceAdd r (constant S_ .f32 0x00000000#32) reducesTo_S8x512_S8_d1 h_S_
  have rs1 : (⟨S8x1, .f32⟩ : BufTy).Contents (Elt F) := broadcastInDim S8x1 ![0] bcast_S8_S8x1_0 rs
  have c512 : (⟨S8x1, .f32⟩ : BufTy).Contents (Elt F) := broadcastInDim S8x1 ![] bcast_S_S8x1 (constant S_ .f32 0x44000000#32)
  have mu : (⟨S8x1, .f32⟩ : BufTy).Contents (Elt F) := Host.divf rs1 c512
  have mub : (⟨S8x512, .f32⟩ : BufTy).Contents (Elt F) := broadcastInDim S8x512 ![0, 1] bcast_S8x1_S8x512_0_1 mu
  have dv : (⟨S8x512, .f32⟩ : BufTy).Contents (Elt F) := subf r mub
  have sq : (⟨S8x512, .f32⟩ : BufTy).Contents (Elt F) := mulf dv dv
  have ss : (⟨S8, .f32⟩ : BufTy).Contents (Elt F) := Host.reduceAdd sq (constant S_ .f32 0x00000000#32) reducesTo_S8x512_S8_d1 h_S_
  have ss1 : (⟨S8x1, .f32⟩ : BufTy).Contents (Elt F) := broadcastInDim S8x1 ![0] bcast_S8_S8x1_0 ss
  have c512' : (⟨S8x1, .f32⟩ : BufTy).Contents (Elt F) := broadcastInDim S8x1 ![] bcast_S_S8x1 (constant S_ .f32 0x44000000#32)
  have var : (⟨S8x1, .f32⟩ : BufTy).Contents (Elt F) := Host.divf ss1 c512'
  have mub' : (⟨S8x512, .f32⟩ : BufTy).Contents (Elt F) := broadcastInDim S8x512 ![0, 1] bcast_S8x1_S8x512_0_1 mu
  have dv' : (⟨S8x512, .f32⟩ : BufTy).Contents (Elt F) := subf r mub'
  have eps : (⟨S8x1, .f32⟩ : BufTy).Contents (Elt F) := broadcastInDim S8x1 ![] bcast_S_S8x1 (constant S_ .f32 0x3727C5AC#32)
  have ve : (⟨S8x1, .f32⟩ : BufTy).Contents (Elt F) := addf var eps
  have sd : (⟨S8x1, .f32⟩ : BufTy).Contents (Elt F) := Host.sqrt ve
  have sdb : (⟨S8x512, .f32⟩ : BufTy).Contents (Elt F) := broadcastInDim S8x512 ![0, 1] bcast_S8x1_S8x512_0_1 sd
  have nm : (⟨S8x512, .f32⟩ : BufTy).Contents (Elt F) := Host.divf dv' sdb
  have g1 : (⟨S1x512, .f32⟩ : BufTy).Contents (Elt F) := broadcastInDim S1x512 ![1] bcast_S512_S1x512_1 g
  have gb : (⟨S8x512, .f32⟩ : BufTy).Contents (Elt F) := broadcastInDim S8x512 ![0, 1] bcast_S1x512_S8x512_0_1 g1
  have ng : (⟨S8x512, .f32⟩ : BufTy).Contents (Elt F) := mulf nm gb
  have s1 : (⟨S1x512, .f32⟩ : BufTy).Contents (Elt F) := broadcastInDim S1x512 ![1] bcast_S512_S1x512_1 s
  have sb : (⟨S8x512, .f32⟩ : BufTy).Contents (Elt F) := broadcastInDim S8x512 ![0, 1] bcast_S1x512_S8x512_0_1 s1
  have ns : (⟨S8x512, .f32⟩ : BufTy).Contents (Elt F) := addf ng sb
  have WoT : (⟨S512x512, .f32⟩ : BufTy).Contents (Elt F) := transpose S512x512 [1, 0] Wo transposes_S512x512_S512x512_1_0
  have o : (⟨S8x512, .f32⟩ : BufTy).Contents (Elt F) := Host.dotGeneral dot_S8x512_S512x512_S8x512_1_0_0_1_n_n none ns WoT
  have bo1 : (⟨S1x512, .f32⟩ : BufTy).Contents (Elt F) := broadcastInDim S1x512 ![1] bcast_S512_S1x512_1 bo
  have bob : (⟨S8x512, .f32⟩ : BufTy).Contents (Elt F) := broadcastInDim S8x512 ![0, 1] bcast_S1x512_S8x512_0_1 bo1
  addf o bob

end Cert.ReferenceIdeal.Tail

end
-- ==== Proof.KernelIdeal.TailValue.lean ====
import proofs.«111147_j59974923321458_1_alg».proof.Proof.Gen.KernelIdeal.Launch
import proofs.«111147_j59974923321458_1_alg».proof.Proof.RefTail
import proofs.«111147_j59974923321458_1_alg».proof.Proof.SpecArrays
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.Frame
import Idealize.ShloMosaic.PureOps.Ideal.Laws

/-!
# The value the later operations leave

After the region has left its two partial sums, sixty-nine operations finish the computation. The first
thirty-two add the two partial sums, apply the three affine maps (each bias counted 4096 times), multiply by
the projected query and map the product to 512 features: the extracted sum. The last thirty-seven are the common
tail with its constants. This module names the first part as a function of the region's result and the seven arrays it reads,
shows that the whole stretch's result is the common tail of that function, and reads the function at a
coordinate as the specification's formula for the kernel's extracted sum.
-/

noncomputable section

namespace Cert.KernelIdeal.TailValue

open Cert.KernelIdeal Cert.KernelIdeal.Gen Idealize.ShloMosaic Idealize.ShloMosaic.TcCoe Idealize.ShloMosaic.ValueIdx Idealize.SL.Sem

/-- The extracted sum from the region's result and the seven arrays the operations %cst … %32 read: those operations as one have-chain (like tailOf's), in the kernel's spelling. -/
def extOf (P : (⟨S2x8x64, .f32⟩ : BufTy).Contents (Elt Ideal)) (x2 : (⟨S8x512, .f32⟩ : BufTy).Contents (Elt Ideal)) (x7 : (⟨S512x64, .f32⟩ : BufTy).Contents (Elt Ideal)) (x8 : (⟨S512, .f32⟩ : BufTy).Contents (Elt Ideal)) (x9 : (⟨S64x512, .f32⟩ : BufTy).Contents (Elt Ideal)) (x10 : (⟨S64, .f32⟩ : BufTy).Contents (Elt Ideal)) (x11 : (⟨S512x64, .f32⟩ : BufTy).Contents (Elt Ideal)) (x12 : (⟨S512, .f32⟩ : BufTy).Contents (Elt Ideal)) : (⟨S8x512, .f32⟩ : BufTy).Contents (Elt Ideal) :=
  have z0 : (⟨S_, .f32⟩ : BufTy).Contents (Elt Ideal) := constant (F := Ideal) S_ .f32 0x00000000#32
  have kv : (⟨S8x64, .f32⟩ : BufTy).Contents (Elt Ideal) := Host.reduceAdd (F := Ideal) (φ := .f32) P z0 reducesTo_S2x8x64_S8x64_d0 h_S_
  have w7t : (⟨S64x512, .f32⟩ : BufTy).Contents (Elt Ideal) := transpose S64x512 [1, 0] x7 transposes_S512x64_S64x512_1_0
  have s0 : (⟨S8x512, .f32⟩ : BufTy).Contents (Elt Ideal) := Host.dotGeneral (F := Ideal) (φ₁ := .f32) (φ₂ := .f32) dot_S8x64_S64x512_S8x512_1_0_0_1_n_n none kv w7t
  have c0 : (⟨S_, .f32⟩ : BufTy).Contents (Elt Ideal) := constant (F := Ideal) S_ .f32 0x45800000#32
  have c0b : (⟨S512, .f32⟩ : BufTy).Contents (Elt Ideal) := broadcastInDim S512 ![] bcast_S_S512 c0
  have cb8 : (⟨S512, .f32⟩ : BufTy).Contents (Elt Ideal) := mulf (F := Ideal) (φ := .f32) c0b x8
  have cb8r : (⟨S1x512, .f32⟩ : BufTy).Contents (Elt Ideal) := broadcastInDim S1x512 ![1] bcast_S512_S1x512_1 cb8
  have cb8b : (⟨S8x512, .f32⟩ : BufTy).Contents (Elt Ideal) := broadcastInDim S8x512 ![0, 1] bcast_S1x512_S8x512_0_1 cb8r
  have s : (⟨S8x512, .f32⟩ : BufTy).Contents (Elt Ideal) := addf (F := Ideal) (φ := .f32) s0 cb8b
  have w9t : (⟨S512x64, .f32⟩ : BufTy).Contents (Elt Ideal) := transpose S512x64 [1, 0] x9 transposes_S64x512_S512x64_1_0
  have bp0 : (⟨S8x64, .f32⟩ : BufTy).Contents (Elt Ideal) := Host.dotGeneral (F := Ideal) (φ₁ := .f32) (φ₂ := .f32) dot_S8x512_S512x64_S8x64_1_0_0_1_n_n none s w9t
  have c1 : (⟨S_, .f32⟩ : BufTy).Contents (Elt Ideal) := constant (F := Ideal) S_ .f32 0x45800000#32
  have c1b : (⟨S64, .f32⟩ : BufTy).Contents (Elt Ideal) := broadcastInDim S64 ![] bcast_S_S64 c1
  have cb10 : (⟨S64, .f32⟩ : BufTy).Contents (Elt Ideal) := mulf (F := Ideal) (φ := .f32) c1b x10
  have cb10r : (⟨S1x64, .f32⟩ : BufTy).Contents (Elt Ideal) := broadcastInDim S1x64 ![1] bcast_S64_S1x64_1 cb10
  have cb10b : (⟨S8x64, .f32⟩ : BufTy).Contents (Elt Ideal) := broadcastInDim S8x64 ![0, 1] bcast_S1x64_S8x64_0_1 cb10r
  have bps : (⟨S8x64, .f32⟩ : BufTy).Contents (Elt Ideal) := addf (F := Ideal) (φ := .f32) bp0 cb10b
  have w9t' : (⟨S512x64, .f32⟩ : BufTy).Contents (Elt Ideal) := transpose S512x64 [1, 0] x9 transposes_S64x512_S512x64_1_0
  have q0 : (⟨S8x64, .f32⟩ : BufTy).Contents (Elt Ideal) := Host.dotGeneral (F := Ideal) (φ₁ := .f32) (φ₂ := .f32) dot_S8x512_S512x64_S8x64_1_0_0_1_n_n none x2 w9t'
  have b10r : (⟨S1x64, .f32⟩ : BufTy).Contents (Elt Ideal) := broadcastInDim S1x64 ![1] bcast_S64_S1x64_1 x10
  have b10b : (⟨S8x64, .f32⟩ : BufTy).Contents (Elt Ideal) := broadcastInDim S8x64 ![0, 1] bcast_S1x64_S8x64_0_1 b10r
  have q : (⟨S8x64, .f32⟩ : BufTy).Contents (Elt Ideal) := addf (F := Ideal) (φ := .f32) q0 b10b
  have ms : (⟨S8x64, .f32⟩ : BufTy).Contents (Elt Ideal) := mulf (F := Ideal) (φ := .f32) q bps
  have w11t : (⟨S64x512, .f32⟩ : BufTy).Contents (Elt Ideal) := transpose S64x512 [1, 0] x11 transposes_S512x64_S64x512_1_0
  have e0 : (⟨S8x512, .f32⟩ : BufTy).Contents (Elt Ideal) := Host.dotGeneral (F := Ideal) (φ₁ := .f32) (φ₂ := .f32) dot_S8x64_S64x512_S8x512_1_0_0_1_n_n none ms w11t
  have c2 : (⟨S_, .f32⟩ : BufTy).Contents (Elt Ideal) := constant (F := Ideal) S_ .f32 0x45800000#32
  have c2b : (⟨S512, .f32⟩ : BufTy).Contents (Elt Ideal) := broadcastInDim S512 ![] bcast_S_S512 c2
  have cb12 : (⟨S512, .f32⟩ : BufTy).Contents (Elt Ideal) := mulf (F := Ideal) (φ := .f32) c2b x12
  have cb12r : (⟨S1x512, .f32⟩ : BufTy).Contents (Elt Ideal) := broadcastInDim S1x512 ![1] bcast_S512_S1x512_1 cb12
  have cb12b : (⟨S8x512, .f32⟩ : BufTy).Contents (Elt Ideal) := broadcastInDim S8x512 ![0, 1] bcast_S1x512_S8x512_0_1 cb12r
  addf (F := Ideal) (φ := .f32) e0 cb12b

/-! ## The later operations in two parts -/

section Parts

variable {F : FTy → Type} [FloatOps F]

/-- The first thirty-two of the later operations: up to the extracted sum. -/
abbrev opsA : List (HloOp τ sig (Elt F)) :=
  ( StableHlo.nullary main_cst (constant S_ .f32 0x00000000#32)
  :: StableHlo.binary main_v4 main_cst main_v5 ((fun x v => Host.reduceAdd x v reducesTo_S2x8x64_S8x64_d0 h_S_) : (⟨S2x8x64, .f32⟩ : BufTy).Contents (Elt F) → (⟨S_, .f32⟩ : BufTy).Contents (Elt F) → (⟨S8x64, .f32⟩ : BufTy).Contents (Elt F))
  :: StableHlo.unary main_arg7 main_v6 ((transpose S64x512 [1, 0] · transposes_S512x64_S64x512_1_0) : (⟨S512x64, .f32⟩ : BufTy).Contents (Elt F) → (⟨S64x512, .f32⟩ : BufTy).Contents (Elt F))
  :: StableHlo.binary main_v5 main_v6 main_v7 ((fun l r => Host.dotGeneral dot_S8x64_S64x512_S8x512_1_0_0_1_n_n none l r) : (⟨S8x64, .f32⟩ : BufTy).Contents (Elt F) → (⟨S64x512, .f32⟩ : BufTy).Contents (Elt F) → (⟨S8x512, .f32⟩ : BufTy).Contents (Elt F))
  :: StableHlo.nullary main_cst_0 (constant S_ .f32 0x45800000#32)
  :: StableHlo.unary main_cst_0 main_v8 (broadcastInDim S512 ![] bcast_S_S512 : (⟨S_, .f32⟩ : BufTy).Contents (Elt F) → (⟨S512, .f32⟩ : BufTy).Contents (Elt F))
  :: StableHlo.binary main_v8 main_arg8 main_v9 (mulf : (⟨S512, .f32⟩ : BufTy).Contents (Elt F) → (⟨S512, .f32⟩ : BufTy).Contents (Elt F) → (⟨S512, .f32⟩ : BufTy).Contents (Elt F))
  :: StableHlo.unary main_v9 main_v10 (broadcastInDim S1x512 ![1] bcast_S512_S1x512_1 : (⟨S512, .f32⟩ : BufTy).Contents (Elt F) → (⟨S1x512, .f32⟩ : BufTy).Contents (Elt F))
  :: StableHlo.unary main_v10 main_v11 (broadcastInDim S8x512 ![0, 1] bcast_S1x512_S8x512_0_1 : (⟨S1x512, .f32⟩ : BufTy).Contents (Elt F) → (⟨S8x512, .f32⟩ : BufTy).Contents (Elt F))
  :: StableHlo.binary main_v7 main_v11 main_v12 (addf : (⟨S8x512, .f32⟩ : BufTy).Contents (Elt F) → (⟨S8x512, .f32⟩ : BufTy).Contents (Elt F) → (⟨S8x512, .f32⟩ : BufTy).Contents (Elt F))
  :: StableHlo.unary main_arg9 main_v13 ((transpose S512x64 [1, 0] · transposes_S64x512_S512x64_1_0) : (⟨S64x512, .f32⟩ : BufTy).Contents (Elt F) → (⟨S512x64, .f32⟩ : BufTy).Contents (Elt F))
  :: StableHlo.binary main_v12 main_v13 main_v14 ((fun l r => Host.dotGeneral dot_S8x512_S512x64_S8x64_1_0_0_1_n_n none l r) : (⟨S8x512, .f32⟩ : BufTy).Contents (Elt F) → (⟨S512x64, .f32⟩ : BufTy).Contents (Elt F) → (⟨S8x64, .f32⟩ : BufTy).Contents (Elt F))
  :: StableHlo.nullary main_cst_1 (constant S_ .f32 0x45800000#32)
  :: StableHlo.unary main_cst_1 main_v15 (broadcastInDim S64 ![] bcast_S_S64 : (⟨S_, .f32⟩ : BufTy).Contents (Elt F) → (⟨S64, .f32⟩ : BufTy).Contents (Elt F))
  :: StableHlo.binary main_v15 main_arg10 main_v16 (mulf : (⟨S64, .f32⟩ : BufTy).Contents (Elt F) → (⟨S64, .f32⟩ : BufTy).Contents (Elt F) → (⟨S64, .f32⟩ : BufTy).Contents (Elt F))
  :: StableHlo.unary main_v16 main_v17 (broadcastInDim S1x64 ![1] bcast_S64_S1x64_1 : (⟨S64, .f32⟩ : BufTy).Contents (Elt F) → (⟨S1x64, .f32⟩ : BufTy).Contents (Elt F))
  :: StableHlo.unary main_v17 main_v18 (broadcastInDim S8x64 ![0, 1] bcast_S1x64_S8x64_0_1 : (⟨S1x64, .f32⟩ : BufTy).Contents (Elt F) → (⟨S8x64, .f32⟩ : BufTy).Contents (Elt F))
  :: StableHlo.binary main_v14 main_v18 main_v19 (addf : (⟨S8x64, .f32⟩ : BufTy).Contents (Elt F) → (⟨S8x64, .f32⟩ : BufTy).Contents (Elt F) → (⟨S8x64, .f32⟩ : BufTy).Contents (Elt F))
  :: StableHlo.unary main_arg9 main_v20 ((transpose S512x64 [1, 0] · transposes_S64x512_S512x64_1_0) : (⟨S64x512, .f32⟩ : BufTy).Contents (Elt F) → (⟨S512x64, .f32⟩ : BufTy).Contents (Elt F))
  :: StableHlo.binary main_arg2 main_v20 main_v21 ((fun l r => Host.dotGeneral dot_S8x512_S512x64_S8x64_1_0_0_1_n_n none l r) : (⟨S8x512, .f32⟩ : BufTy).Contents (Elt F) → (⟨S512x64, .f32⟩ : BufTy).Contents (Elt F) → (⟨S8x64, .f32⟩ : BufTy).Contents (Elt F))
  :: StableHlo.unary main_arg10 main_v22 (broadcastInDim S1x64 ![1] bcast_S64_S1x64_1 : (⟨S64, .f32⟩ : BufTy).Contents (Elt F) → (⟨S1x64, .f32⟩ : BufTy).Contents (Elt F))
  :: StableHlo.unary main_v22 main_v23 (broadcastInDim S8x64 ![0, 1] bcast_S1x64_S8x64_0_1 : (⟨S1x64, .f32⟩ : BufTy).Contents (Elt F) → (⟨S8x64, .f32⟩ : BufTy).Contents (Elt F))
  :: StableHlo.binary main_v21 main_v23 main_v24 (addf : (⟨S8x64, .f32⟩ : BufTy).Contents (Elt F) → (⟨S8x64, .f32⟩ : BufTy).Contents (Elt F) → (⟨S8x64, .f32⟩ : BufTy).Contents (Elt F))
  :: StableHlo.binary main_v24 main_v19 main_v25 (mulf : (⟨S8x64, .f32⟩ : BufTy).Contents (Elt F) → (⟨S8x64, .f32⟩ : BufTy).Contents (Elt F) → (⟨S8x64, .f32⟩ : BufTy).Contents (Elt F))
  :: StableHlo.unary main_arg11 main_v26 ((transpose S64x512 [1, 0] · transposes_S512x64_S64x512_1_0) : (⟨S512x64, .f32⟩ : BufTy).Contents (Elt F) → (⟨S64x512, .f32⟩ : BufTy).Contents (Elt F))
  :: StableHlo.binary main_v25 main_v26 main_v27 ((fun l r => Host.dotGeneral dot_S8x64_S64x512_S8x512_1_0_0_1_n_n none l r) : (⟨S8x64, .f32⟩ : BufTy).Contents (Elt F) → (⟨S64x512, .f32⟩ : BufTy).Contents (Elt F) → (⟨S8x512, .f32⟩ : BufTy).Contents (Elt F))
  :: StableHlo.nullary main_cst_2 (constant S_ .f32 0x45800000#32)
  :: StableHlo.unary main_cst_2 main_v28 (broadcastInDim S512 ![] bcast_S_S512 : (⟨S_, .f32⟩ : BufTy).Contents (Elt F) → (⟨S512, .f32⟩ : BufTy).Contents (Elt F))
  :: StableHlo.binary main_v28 main_arg12 main_v29 (mulf : (⟨S512, .f32⟩ : BufTy).Contents (Elt F) → (⟨S512, .f32⟩ : BufTy).Contents (Elt F) → (⟨S512, .f32⟩ : BufTy).Contents (Elt F))
  :: StableHlo.unary main_v29 main_v30 (broadcastInDim S1x512 ![1] bcast_S512_S1x512_1 : (⟨S512, .f32⟩ : BufTy).Contents (Elt F) → (⟨S1x512, .f32⟩ : BufTy).Contents (Elt F))
  :: StableHlo.unary main_v30 main_v31 (broadcastInDim S8x512 ![0, 1] bcast_S1x512_S8x512_0_1 : (⟨S1x512, .f32⟩ : BufTy).Contents (Elt F) → (⟨S8x512, .f32⟩ : BufTy).Contents (Elt F))
  :: StableHlo.binary main_v27 main_v31 main_v32 (addf : (⟨S8x512, .f32⟩ : BufTy).Contents (Elt F) → (⟨S8x512, .f32⟩ : BufTy).Contents (Elt F) → (⟨S8x512, .f32⟩ : BufTy).Contents (Elt F))
  :: [] )

/-- The last thirty-seven: the common tail, with its constants. -/
abbrev opsB : List (HloOp τ sig (Elt F)) :=
  ( StableHlo.nullary main_cst_3 (constant S_ .f32 0x42800000#32)
  :: StableHlo.unary main_cst_3 main_v33 (broadcastInDim S8x512 ![] bcast_S_S8x512 : (⟨S_, .f32⟩ : BufTy).Contents (Elt F) → (⟨S8x512, .f32⟩ : BufTy).Contents (Elt F))
  :: StableHlo.binary main_v32 main_v33 main_v34 (Host.divf : (⟨S8x512, .f32⟩ : BufTy).Contents (Elt F) → (⟨S8x512, .f32⟩ : BufTy).Contents (Elt F) → (⟨S8x512, .f32⟩ : BufTy).Contents (Elt F))
  :: StableHlo.nullary main_cst_4 (constant S_ .f32 0x00000000#32)
  :: StableHlo.binary main_v34 main_cst_4 main_v35 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F))
  :: StableHlo.unary main_v35 main_v36 (broadcastInDim S8x1 ![0] bcast_S8_S8x1_0 : (⟨S8, .f32⟩ : BufTy).Contents (Elt F) → (⟨S8x1, .f32⟩ : BufTy).Contents (Elt F))
  :: StableHlo.nullary main_cst_5 (constant S_ .f32 0x44000000#32)
  :: StableHlo.unary main_cst_5 main_v37 (broadcastInDim S8x1 ![] bcast_S_S8x1 : (⟨S_, .f32⟩ : BufTy).Contents (Elt F) → (⟨S8x1, .f32⟩ : BufTy).Contents (Elt F))
  :: StableHlo.binary main_v36 main_v37 main_v38 (Host.divf : (⟨S8x1, .f32⟩ : BufTy).Contents (Elt F) → (⟨S8x1, .f32⟩ : BufTy).Contents (Elt F) → (⟨S8x1, .f32⟩ : BufTy).Contents (Elt F))
  :: StableHlo.unary main_v38 main_v39 (broadcastInDim S8x512 ![0, 1] bcast_S8x1_S8x512_0_1 : (⟨S8x1, .f32⟩ : BufTy).Contents (Elt F) → (⟨S8x512, .f32⟩ : BufTy).Contents (Elt F))
  :: StableHlo.binary main_v34 main_v39 main_v40 (subf : (⟨S8x512, .f32⟩ : BufTy).Contents (Elt F) → (⟨S8x512, .f32⟩ : BufTy).Contents (Elt F) → (⟨S8x512, .f32⟩ : BufTy).Contents (Elt F))
  :: StableHlo.binary main_v40 main_v40 main_v41 (mulf : (⟨S8x512, .f32⟩ : BufTy).Contents (Elt F) → (⟨S8x512, .f32⟩ : BufTy).Contents (Elt F) → (⟨S8x512, .f32⟩ : BufTy).Contents (Elt F))
  :: StableHlo.nullary main_cst_6 (constant S_ .f32 0x00000000#32)
  :: StableHlo.binary main_v41 main_cst_6 main_v42 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F))
  :: StableHlo.unary main_v42 main_v43 (broadcastInDim S8x1 ![0] bcast_S8_S8x1_0 : (⟨S8, .f32⟩ : BufTy).Contents (Elt F) → (⟨S8x1, .f32⟩ : BufTy).Contents (Elt F))
  :: StableHlo.nullary main_cst_7 (constant S_ .f32 0x44000000#32)
  :: StableHlo.unary main_cst_7 main_v44 (broadcastInDim S8x1 ![] bcast_S_S8x1 : (⟨S_, .f32⟩ : BufTy).Contents (Elt F) → (⟨S8x1, .f32⟩ : BufTy).Contents (Elt F))
  :: StableHlo.binary main_v43 main_v44 main_v45 (Host.divf : (⟨S8x1, .f32⟩ : BufTy).Contents (Elt F) → (⟨S8x1, .f32⟩ : BufTy).Contents (Elt F) → (⟨S8x1, .f32⟩ : BufTy).Contents (Elt F))
  :: StableHlo.unary main_v38 main_v46 (broadcastInDim S8x512 ![0, 1] bcast_S8x1_S8x512_0_1 : (⟨S8x1, .f32⟩ : BufTy).Contents (Elt F) → (⟨S8x512, .f32⟩ : BufTy).Contents (Elt F))
  :: StableHlo.binary main_v34 main_v46 main_v47 (subf : (⟨S8x512, .f32⟩ : BufTy).Contents (Elt F) → (⟨S8x512, .f32⟩ : BufTy).Contents (Elt F) → (⟨S8x512, .f32⟩ : BufTy).Contents (Elt F))
  :: StableHlo.nullary main_cst_8 (constant S_ .f32 0x3727C5AC#32)
  :: StableHlo.unary main_cst_8 main_v48 (broadcastInDim S8x1 ![] bcast_S_S8x1 : (⟨S_, .f32⟩ : BufTy).Contents (Elt F) → (⟨S8x1, .f32⟩ : BufTy).Contents (Elt F))
  :: StableHlo.binary main_v45 main_v48 main_v49 (addf : (⟨S8x1, .f32⟩ : BufTy).Contents (Elt F) → (⟨S8x1, .f32⟩ : BufTy).Contents (Elt F) → (⟨S8x1, .f32⟩ : BufTy).Contents (Elt F))
  :: StableHlo.unary main_v49 main_v50 (Host.sqrt : (⟨S8x1, .f32⟩ : BufTy).Contents (Elt F) → (⟨S8x1, .f32⟩ : BufTy).Contents (Elt F))
  :: StableHlo.unary main_v50 main_v51 (broadcastInDim S8x512 ![0, 1] bcast_S8x1_S8x512_0_1 : (⟨S8x1, .f32⟩ : BufTy).Contents (Elt F) → (⟨S8x512, .f32⟩ : BufTy).Contents (Elt F))
  :: StableHlo.binary main_v47 main_v51 main_v52 (Host.divf : (⟨S8x512, .f32⟩ : BufTy).Contents (Elt F) → (⟨S8x512, .f32⟩ : BufTy).Contents (Elt F) → (⟨S8x512, .f32⟩ : BufTy).Contents (Elt F))
  :: StableHlo.unary main_arg13 main_v53 (broadcastInDim S1x512 ![1] bcast_S512_S1x512_1 : (⟨S512, .f32⟩ : BufTy).Contents (Elt F) → (⟨S1x512, .f32⟩ : BufTy).Contents (Elt F))
  :: StableHlo.unary main_v53 main_v54 (broadcastInDim S8x512 ![0, 1] bcast_S1x512_S8x512_0_1 : (⟨S1x512, .f32⟩ : BufTy).Contents (Elt F) → (⟨S8x512, .f32⟩ : BufTy).Contents (Elt F))
  :: StableHlo.binary main_v52 main_v54 main_v55 (mulf : (⟨S8x512, .f32⟩ : BufTy).Contents (Elt F) → (⟨S8x512, .f32⟩ : BufTy).Contents (Elt F) → (⟨S8x512, .f32⟩ : BufTy).Contents (Elt F))
  :: StableHlo.unary main_arg14 main_v56 (broadcastInDim S1x512 ![1] bcast_S512_S1x512_1 : (⟨S512, .f32⟩ : BufTy).Contents (Elt F) → (⟨S1x512, .f32⟩ : BufTy).Contents (Elt F))
  :: StableHlo.unary main_v56 main_v57 (broadcastInDim S8x512 ![0, 1] bcast_S1x512_S8x512_0_1 : (⟨S1x512, .f32⟩ : BufTy).Contents (Elt F) → (⟨S8x512, .f32⟩ : BufTy).Contents (Elt F))
  :: StableHlo.binary main_v55 main_v57 main_v58 (addf : (⟨S8x512, .f32⟩ : BufTy).Contents (Elt F) → (⟨S8x512, .f32⟩ : BufTy).Contents (Elt F) → (⟨S8x512, .f32⟩ : BufTy).Contents (Elt F))
  :: StableHlo.unary main_arg15 main_v59 ((transpose S512x512 [1, 0] · transposes_S512x512_S512x512_1_0) : (⟨S512x512, .f32⟩ : BufTy).Contents (Elt F) → (⟨S512x512, .f32⟩ : BufTy).Contents (Elt F))
  :: StableHlo.binary main_v58 main_v59 main_v60 ((fun l r => Host.dotGeneral dot_S8x512_S512x512_S8x512_1_0_0_1_n_n none l r) : (⟨S8x512, .f32⟩ : BufTy).Contents (Elt F) → (⟨S512x512, .f32⟩ : BufTy).Contents (Elt F) → (⟨S8x512, .f32⟩ : BufTy).Contents (Elt F))
  :: StableHlo.unary main_arg16 main_v61 (broadcastInDim S1x512 ![1] bcast_S512_S1x512_1 : (⟨S512, .f32⟩ : BufTy).Contents (Elt F) → (⟨S1x512, .f32⟩ : BufTy).Contents (Elt F))
  :: StableHlo.unary main_v61 main_v62 (broadcastInDim S8x512 ![0, 1] bcast_S1x512_S8x512_0_1 : (⟨S1x512, .f32⟩ : BufTy).Contents (Elt F) → (⟨S8x512, .f32⟩ : BufTy).Contents (Elt F))
  :: StableHlo.binary main_v60 main_v62 main_v63 (addf : (⟨S8x512, .f32⟩ : BufTy).Contents (Elt F) → (⟨S8x512, .f32⟩ : BufTy).Contents (Elt F) → (⟨S8x512, .f32⟩ : BufTy).Contents (Elt F))
  :: [] )

set_option maxRecDepth 16384 in
/-- The later operations are the two parts in a row. -/
theorem ops_split : (hostOps1 : List (HloOp τ sig (Elt F))) = opsA ++ opsB := rfl

end Parts

set_option maxRecDepth 16384 in
set_option maxHeartbeats 4000000 in
/-- The second part's result is the common tail of what the first part left at its last result. -/
theorem tailB (W : Valuation τ sig (Elt Ideal)) :
    StableHlo.after (opsB (F := Ideal)) W (Proc.devRef .tc main_v63)
      = Cert.ReferenceIdeal.Tail.tailOf (F := Ideal) (W (Proc.devRef .tc main_v32)) (W (Proc.devRef .tc main_arg13)) (W (Proc.devRef .tc main_arg14)) (W (Proc.devRef .tc main_arg15)) (W (Proc.devRef .tc main_arg16)) := by
  show StableHlo.after opsB _ (Proc.devRef .tc main_v63) = _
  after_results_simp
  rfl

set_option maxRecDepth 16384 in
set_option maxHeartbeats 4000000 in
/-- The first part's last result is the extracted sum. -/
theorem headA (W : Valuation τ sig (Elt Ideal)) :
    StableHlo.after (opsA (F := Ideal)) W (Proc.devRef .tc main_v32)
      = extOf (W (Proc.devRef .tc main_v4)) (W (Proc.devRef .tc main_arg2)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  show StableHlo.after opsA _ (Proc.devRef .tc main_v32) = _
  after_results_simp
  rfl

set_option maxRecDepth 16384 in
/-- No operation of the first part writes argument 13. -/
theorem opsA_arg13 (W : Valuation τ sig (Elt Ideal)) :
    StableHlo.after (opsA (F := Ideal)) W (Proc.devRef .tc main_arg13) = W (Proc.devRef .tc main_arg13) :=
  StableHlo.after_of_forall_not_mem (b := Proc.devRef .tc main_arg13) _ _ (List.forall_iff_forall_mem.mp (by
    simp only [opsA, List.Forall, StableHlo.nullary_writes, StableHlo.unary_writes, StableHlo.binary_writes, Finset.mem_singleton]
    repeat' apply And.intro
    all_goals exact StableHlo.devRef_ne_of_ne (by decide)))

set_option maxRecDepth 16384 in
/-- No operation of the first part writes argument 14. -/
theorem opsA_arg14 (W : Valuation τ sig (Elt Ideal)) :
    StableHlo.after (opsA (F := Ideal)) W (Proc.devRef .tc main_arg14) = W (Proc.devRef .tc main_arg14) :=
  StableHlo.after_of_forall_not_mem (b := Proc.devRef .tc main_arg14) _ _ (List.forall_iff_forall_mem.mp (by
    simp only [opsA, List.Forall, StableHlo.nullary_writes, StableHlo.unary_writes, StableHlo.binary_writes, Finset.mem_singleton]
    repeat' apply And.intro
    all_goals exact StableHlo.devRef_ne_of_ne (by decide)))

set_option maxRecDepth 16384 in
/-- No operation of the first part writes argument 15. -/
theorem opsA_arg15 (W : Valuation τ sig (Elt Ideal)) :
    StableHlo.after (opsA (F := Ideal)) W (Proc.devRef .tc main_arg15) = W (Proc.devRef .tc main_arg15) :=
  StableHlo.after_of_forall_not_mem (b := Proc.devRef .tc main_arg15) _ _ (List.forall_iff_forall_mem.mp (by
    simp only [opsA, List.Forall, StableHlo.nullary_writes, StableHlo.unary_writes, StableHlo.binary_writes, Finset.mem_singleton]
    repeat' apply And.intro
    all_goals exact StableHlo.devRef_ne_of_ne (by decide)))

set_option maxRecDepth 16384 in
/-- No operation of the first part writes argument 16. -/
theorem opsA_arg16 (W : Valuation τ sig (Elt Ideal)) :
    StableHlo.after (opsA (F := Ideal)) W (Proc.devRef .tc main_arg16) = W (Proc.devRef .tc main_arg16) :=
  StableHlo.after_of_forall_not_mem (b := Proc.devRef .tc main_arg16) _ _ (List.forall_iff_forall_mem.mp (by
    simp only [opsA, List.Forall, StableHlo.nullary_writes, StableHlo.unary_writes, StableHlo.binary_writes, Finset.mem_singleton]
    repeat' apply And.intro
    all_goals exact StableHlo.devRef_ne_of_ne (by decide)))

set_option maxRecDepth 16384 in
/-- The sixty-nine operations' result is the common tail of the extracted sum. -/
theorem tail_value (W : Valuation τ sig (Elt Ideal)) :
    StableHlo.after (hostOps1 (F := Ideal)) W (Proc.devRef .tc main_v63)
      = Cert.ReferenceIdeal.Tail.tailOf (F := Ideal)
          (extOf (W (Proc.devRef .tc main_v4)) (W (Proc.devRef .tc main_arg2)) (W (Proc.devRef .tc main_arg7)) (W (Proc.devRef .tc main_arg8)) (W (Proc.devRef .tc main_arg9)) (W (Proc.devRef .tc main_arg10)) (W (Proc.devRef .tc main_arg11)) (W (Proc.devRef .tc main_arg12)))
          (W (Proc.devRef .tc main_arg13)) (W (Proc.devRef .tc main_arg14)) (W (Proc.devRef .tc main_arg15)) (W (Proc.devRef .tc main_arg16)) := by
  rw [ops_split, StableHlo.after_append, tailB, headA, opsA_arg13, opsA_arg14, opsA_arg15, opsA_arg16]

/-! ## The two products' operand indices, axis by axis -/

theorem lhs_a_0 (i : S8x512.Idx) (q : dot_S8x64_S64x512_S8x512_1_0_0_1_n_n.contr.Idx) :
    (dot_S8x64_S64x512_S8x512_1_0_0_1_n_n.lhsIdx i q 0).val = (i 0).val := by
  unfold DotDims.lhsIdx
  rw [dif_neg (show ¬(0 : Fin S8x64.rank) ∈ dot_S8x64_S64x512_S8x512_1_0_0_1_n_n.lhsBatch by decide), dif_pos (show (0 : Fin S8x64.rank) ∈ dot_S8x64_S64x512_S8x512_1_0_0_1_n_n.lhsNonContracting by decide)]
  rfl
theorem lhs_a_1 (i : S8x512.Idx) (q : dot_S8x64_S64x512_S8x512_1_0_0_1_n_n.contr.Idx) :
    (dot_S8x64_S64x512_S8x512_1_0_0_1_n_n.lhsIdx i q 1).val = (q ⟨0, by decide⟩).val :=
  dot_S8x64_S64x512_S8x512_1_0_0_1_n_n.lhsIdx_val_of_single rfl i q
theorem rhs_a_0 (i : S8x512.Idx) (q : dot_S8x64_S64x512_S8x512_1_0_0_1_n_n.contr.Idx) :
    (dot_S8x64_S64x512_S8x512_1_0_0_1_n_n.rhsIdx i q 0).val = (q ⟨0, by decide⟩).val :=
  dot_S8x64_S64x512_S8x512_1_0_0_1_n_n.rhsIdx_val_of_single rfl i q
theorem rhs_a_1 (i : S8x512.Idx) (q : dot_S8x64_S64x512_S8x512_1_0_0_1_n_n.contr.Idx) :
    (dot_S8x64_S64x512_S8x512_1_0_0_1_n_n.rhsIdx i q 1).val = (i 1).val := by
  unfold DotDims.rhsIdx
  rw [dif_neg (show ¬(1 : Fin S64x512.rank) ∈ dot_S8x64_S64x512_S8x512_1_0_0_1_n_n.rhsBatch by decide), dif_pos (show (1 : Fin S64x512.rank) ∈ dot_S8x64_S64x512_S8x512_1_0_0_1_n_n.rhsNonContracting by decide)]
  rfl

theorem lhs_b_0 (i : S8x64.Idx) (q : dot_S8x512_S512x64_S8x64_1_0_0_1_n_n.contr.Idx) :
    (dot_S8x512_S512x64_S8x64_1_0_0_1_n_n.lhsIdx i q 0).val = (i 0).val := by
  unfold DotDims.lhsIdx
  rw [dif_neg (show ¬(0 : Fin S8x512.rank) ∈ dot_S8x512_S512x64_S8x64_1_0_0_1_n_n.lhsBatch by decide), dif_pos (show (0 : Fin S8x512.rank) ∈ dot_S8x512_S512x64_S8x64_1_0_0_1_n_n.lhsNonContracting by decide)]
  rfl
theorem lhs_b_1 (i : S8x64.Idx) (q : dot_S8x512_S512x64_S8x64_1_0_0_1_n_n.contr.Idx) :
    (dot_S8x512_S512x64_S8x64_1_0_0_1_n_n.lhsIdx i q 1).val = (q ⟨0, by decide⟩).val :=
  dot_S8x512_S512x64_S8x64_1_0_0_1_n_n.lhsIdx_val_of_single rfl i q
theorem rhs_b_0 (i : S8x64.Idx) (q : dot_S8x512_S512x64_S8x64_1_0_0_1_n_n.contr.Idx) :
    (dot_S8x512_S512x64_S8x64_1_0_0_1_n_n.rhsIdx i q 0).val = (q ⟨0, by decide⟩).val :=
  dot_S8x512_S512x64_S8x64_1_0_0_1_n_n.rhsIdx_val_of_single rfl i q
theorem rhs_b_1 (i : S8x64.Idx) (q : dot_S8x512_S512x64_S8x64_1_0_0_1_n_n.contr.Idx) :
    (dot_S8x512_S512x64_S8x64_1_0_0_1_n_n.rhsIdx i q 1).val = (i 1).val := by
  unfold DotDims.rhsIdx
  rw [dif_neg (show ¬(1 : Fin S512x64.rank) ∈ dot_S8x512_S512x64_S8x64_1_0_0_1_n_n.rhsBatch by decide), dif_pos (show (1 : Fin S512x64.rank) ∈ dot_S8x512_S512x64_S8x64_1_0_0_1_n_n.rhsNonContracting by decide)]
  rfl

/-! ## The products read at a coordinate -/

/-- An [8,64] by [64,512] product at row `b` and column `d`: the sum over the 64 contracted coordinates. -/
theorem dot_a_apply (l : (⟨S8x64, .f32⟩ : BufTy).Contents (Elt Ideal)) (r : (⟨S64x512, .f32⟩ : BufTy).Contents (Elt Ideal)) (b : Fin 8) (d : Fin 512) :
    Host.dotGeneral (F := Ideal) (φ₁ := .f32) (φ₂ := .f32) dot_S8x64_S64x512_S8x512_1_0_0_1_n_n none l r (ix2 b d) = ∑ k : Fin 64, l (ix2 b k) * r (ix2 k d) := by
  simp only [Host.dotGeneral]
  rw [Ideal.dotGeneral_apply, ← Equiv.sum_comp (contrEquiv1 dot_S8x64_S64x512_S8x512_1_0_0_1_n_n 64 rfl rfl).symm]
  refine Finset.sum_congr rfl fun k _ => ?_
  have hk := contrEquiv1_symm_val dot_S8x64_S64x512_S8x512_1_0_0_1_n_n 64 rfl rfl k
  have el : dot_S8x64_S64x512_S8x512_1_0_0_1_n_n.lhsIdx (ix2 b d) ((contrEquiv1 dot_S8x64_S64x512_S8x512_1_0_0_1_n_n 64 rfl rfl).symm k) = ix2 b k := funext fun a => Fin.ext (by
    match a with
    | ⟨0, _⟩ => exact lhs_a_0 _ _
    | ⟨1, _⟩ => exact (lhs_a_1 _ _).trans hk)
  have er : dot_S8x64_S64x512_S8x512_1_0_0_1_n_n.rhsIdx (ix2 b d) ((contrEquiv1 dot_S8x64_S64x512_S8x512_1_0_0_1_n_n 64 rfl rfl).symm k) = ix2 k d := funext fun a => Fin.ext (by
    match a with
    | ⟨0, _⟩ => exact (rhs_a_0 _ _).trans hk
    | ⟨1, _⟩ => exact rhs_a_1 _ _)
  rw [el, er]

/-- An [8,512] by [512,64] product at row `b` and column `j`: the sum over the 512 contracted coordinates. -/
theorem dot_b_apply (l : (⟨S8x512, .f32⟩ : BufTy).Contents (Elt Ideal)) (r : (⟨S512x64, .f32⟩ : BufTy).Contents (Elt Ideal)) (b : Fin 8) (j : Fin 64) :
    Host.dotGeneral (F := Ideal) (φ₁ := .f32) (φ₂ := .f32) dot_S8x512_S512x64_S8x64_1_0_0_1_n_n none l r (ix2 b j) = ∑ d : Fin 512, l (ix2 b d) * r (ix2 d j) := by
  simp only [Host.dotGeneral]
  rw [Ideal.dotGeneral_apply, ← Equiv.sum_comp (contrEquiv1 dot_S8x512_S512x64_S8x64_1_0_0_1_n_n 512 rfl rfl).symm]
  refine Finset.sum_congr rfl fun k _ => ?_
  have hk := contrEquiv1_symm_val dot_S8x512_S512x64_S8x64_1_0_0_1_n_n 512 rfl rfl k
  have el : dot_S8x512_S512x64_S8x64_1_0_0_1_n_n.lhsIdx (ix2 b j) ((contrEquiv1 dot_S8x512_S512x64_S8x64_1_0_0_1_n_n 512 rfl rfl).symm k) = ix2 b k := funext fun a => Fin.ext (by
    match a with
    | ⟨0, _⟩ => exact lhs_b_0 _ _
    | ⟨1, _⟩ => exact (lhs_b_1 _ _).trans hk)
  have er : dot_S8x512_S512x64_S8x64_1_0_0_1_n_n.rhsIdx (ix2 b j) ((contrEquiv1 dot_S8x512_S512x64_S8x64_1_0_0_1_n_n 512 rfl rfl).symm k) = ix2 k j := funext fun a => Fin.ext (by
    match a with
    | ⟨0, _⟩ => exact (rhs_b_0 _ _).trans hk
    | ⟨1, _⟩ => exact rhs_b_1 _ _)
  rw [el, er]

/-! ## The sum of the two partial sums, and the bias rows -/

/-- The two partial sums added from the zero literal, at row `b` and feature `j`. -/
theorem reduce_apply (P : (⟨S2x8x64, .f32⟩ : BufTy).Contents (Elt Ideal)) (b : Fin 8) (j : Fin 64) :
    Host.reduceAdd (F := Ideal) (φ := .f32) P (constant (F := Ideal) S_ .f32 0x00000000#32) reducesTo_S2x8x64_S8x64_d0 h_S_ (ix2 b j)
      = Ideal.ofBits .f32 0x00000000#32 + ∑ p : Fin 2, P (ix3 p b j) := by
  simp only [Host.reduceAdd, Ideal.hostReduceAdd_def]
  rw [Ideal.hostReduceAdd_single reducesTo_S2x8x64_S8x64_d0 (by decide)]
  refine congrArg (_ + ·) (Finset.sum_congr rfl fun k _ => ?_)
  exact congrArg P (funext fun a => Fin.ext (by match a with | ⟨0, _⟩ => rfl | ⟨1, _⟩ => rfl | ⟨2, _⟩ => rfl))

/-- A 512-vector laid along the rows of an [8,512] array, at `(b, d)`: the vector at `d`. -/
theorem row512_apply (v : (⟨S512, .f32⟩ : BufTy).Contents (Elt Ideal)) (b : Fin 8) (d : Fin 512) :
    broadcastInDim S8x512 ![0, 1] bcast_S1x512_S8x512_0_1 (broadcastInDim S1x512 ![1] bcast_S512_S1x512_1 v) (ix2 b d) = v (ix1 d) := by
  refine (broadcastInDim_apply _ bcast_S1x512_S8x512_0_1 _ (ix2 b d) (ix2 (0 : Fin 1) d) (fun a => match a with
    | ⟨0, _⟩ => by show 0 = if (1 : Nat) = 1 then 0 else b.val; rw [if_pos rfl]
    | ⟨1, _⟩ => by show d.val = if (512 : Nat) = 1 then 0 else d.val; rw [if_neg (by decide)])).trans ?_
  exact broadcastInDim_apply _ bcast_S512_S1x512_1 v (ix2 (0 : Fin 1) d) (ix1 d) (fun a => match a with
    | ⟨0, _⟩ => by show d.val = if (512 : Nat) = 1 then 0 else d.val; rw [if_neg (by decide)])

/-- A 64-vector laid along the rows of an [8,64] array, at `(b, j)`: the vector at `j`. -/
theorem row64_apply (v : (⟨S64, .f32⟩ : BufTy).Contents (Elt Ideal)) (b : Fin 8) (j : Fin 64) :
    broadcastInDim S8x64 ![0, 1] bcast_S1x64_S8x64_0_1 (broadcastInDim S1x64 ![1] bcast_S64_S1x64_1 v) (ix2 b j) = v (ix1 j) := by
  refine (broadcastInDim_apply _ bcast_S1x64_S8x64_0_1 _ (ix2 b j) (ix2 (0 : Fin 1) j) (fun a => match a with
    | ⟨0, _⟩ => by show 0 = if (1 : Nat) = 1 then 0 else b.val; rw [if_pos rfl]
    | ⟨1, _⟩ => by show j.val = if (64 : Nat) = 1 then 0 else j.val; rw [if_neg (by decide)])).trans ?_
  exact broadcastInDim_apply _ bcast_S64_S1x64_1 v (ix2 (0 : Fin 1) j) (ix1 j) (fun a => match a with
    | ⟨0, _⟩ => by show j.val = if (64 : Nat) = 1 then 0 else j.val; rw [if_neg (by decide)])

/-! ## The four affine stages read at a coordinate -/

/-- An [8,64] array times the transpose of a [512,64] weight, plus a literal times a 512-vector along the rows. -/
theorem affine_a_apply (l : (⟨S8x64, .f32⟩ : BufTy).Contents (Elt Ideal)) (w : (⟨S512x64, .f32⟩ : BufTy).Contents (Elt Ideal)) (v : (⟨S512, .f32⟩ : BufTy).Contents (Elt Ideal)) (c : BitVec 32)
    (L : Fin 8 → Fin 64 → EReal) (Wt : Fin 512 → Fin 64 → EReal) (B : Fin 512 → EReal)
    (hl : ∀ (b : Fin 8) (k : Fin 64), l (ix2 b k) = L b k) (hw : ∀ (d : Fin 512) (k : Fin 64), w (ix2 d k) = Wt d k) (hv : ∀ d : Fin 512, v (ix1 d) = B d)
    (b : Fin 8) (d : Fin 512) :
    addf (F := Ideal) (φ := .f32) (Host.dotGeneral (F := Ideal) (φ₁ := .f32) (φ₂ := .f32) dot_S8x64_S64x512_S8x512_1_0_0_1_n_n none l (transpose S64x512 [1, 0] w transposes_S512x64_S64x512_1_0))
        (broadcastInDim S8x512 ![0, 1] bcast_S1x512_S8x512_0_1 (broadcastInDim S1x512 ![1] bcast_S512_S1x512_1
          (mulf (F := Ideal) (φ := .f32) (broadcastInDim S512 ![] bcast_S_S512 (constant (F := Ideal) S_ .f32 c)) v))) (ix2 b d)
      = (∑ k : Fin 64, L b k * Wt d k) + Ideal.ofBits .f32 c * B d := by
  rw [addf_apply, dot_a_apply, row512_apply, mulf_apply]
  refine congrArg₂ (· + ·) (Finset.sum_congr rfl fun k _ => ?_) ?_
  · rw [transpose_ix2_apply, hl, hw]
  · rw [hv]; rfl

/-- An [8,512] array times the transpose of a [64,512] weight, plus a literal times a 64-vector along the rows. -/
theorem affine_b_apply (l : (⟨S8x512, .f32⟩ : BufTy).Contents (Elt Ideal)) (w : (⟨S64x512, .f32⟩ : BufTy).Contents (Elt Ideal)) (v : (⟨S64, .f32⟩ : BufTy).Contents (Elt Ideal)) (c : BitVec 32)
    (L : Fin 8 → Fin 512 → EReal) (Wt : Fin 64 → Fin 512 → EReal) (B : Fin 64 → EReal)
    (hl : ∀ (b : Fin 8) (d : Fin 512), l (ix2 b d) = L b d) (hw : ∀ (j : Fin 64) (d : Fin 512), w (ix2 j d) = Wt j d) (hv : ∀ j : Fin 64, v (ix1 j) = B j)
    (b : Fin 8) (j : Fin 64) :
    addf (F := Ideal) (φ := .f32) (Host.dotGeneral (F := Ideal) (φ₁ := .f32) (φ₂ := .f32) dot_S8x512_S512x64_S8x64_1_0_0_1_n_n none l (transpose S512x64 [1, 0] w transposes_S64x512_S512x64_1_0))
        (broadcastInDim S8x64 ![0, 1] bcast_S1x64_S8x64_0_1 (broadcastInDim S1x64 ![1] bcast_S64_S1x64_1
          (mulf (F := Ideal) (φ := .f32) (broadcastInDim S64 ![] bcast_S_S64 (constant (F := Ideal) S_ .f32 c)) v))) (ix2 b j)
      = (∑ d : Fin 512, L b d * Wt j d) + Ideal.ofBits .f32 c * B j := by
  rw [addf_apply, dot_b_apply, row64_apply, mulf_apply]
  refine congrArg₂ (· + ·) (Finset.sum_congr rfl fun k _ => ?_) ?_
  · rw [transpose_ix2_apply, hl, hw]
  · rw [hv]; rfl

/-- The same product plus the 64-vector itself along the rows (the projected query). -/
theorem affine_q_apply (l : (⟨S8x512, .f32⟩ : BufTy).Contents (Elt Ideal)) (w : (⟨S64x512, .f32⟩ : BufTy).Contents (Elt Ideal)) (v : (⟨S64, .f32⟩ : BufTy).Contents (Elt Ideal))
    (L : Fin 8 → Fin 512 → EReal) (Wt : Fin 64 → Fin 512 → EReal) (B : Fin 64 → EReal)
    (hl : ∀ (b : Fin 8) (d : Fin 512), l (ix2 b d) = L b d) (hw : ∀ (j : Fin 64) (d : Fin 512), w (ix2 j d) = Wt j d) (hv : ∀ j : Fin 64, v (ix1 j) = B j)
    (b : Fin 8) (j : Fin 64) :
    addf (F := Ideal) (φ := .f32) (Host.dotGeneral (F := Ideal) (φ₁ := .f32) (φ₂ := .f32) dot_S8x512_S512x64_S8x64_1_0_0_1_n_n none l (transpose S512x64 [1, 0] w transposes_S64x512_S512x64_1_0))
        (broadcastInDim S8x64 ![0, 1] bcast_S1x64_S8x64_0_1 (broadcastInDim S1x64 ![1] bcast_S64_S1x64_1 v)) (ix2 b j)
      = (∑ d : Fin 512, L b d * Wt j d) + B j := by
  rw [addf_apply, dot_b_apply, row64_apply]
  refine congrArg₂ (· + ·) (Finset.sum_congr rfl fun k _ => ?_) (hv j)
  rw [transpose_ix2_apply, hl, hw]

/-- The extracted sum read at row `b` and feature `d`: the specification's formula, stage by stage from the
    inside: the sum of the two partial sums, the map to 512 features, the map to 64 features, the product with the
    projected query, the map to 512 features. -/
theorem extOf_apply (I : Cert.Spec.Inputs) (P : (⟨S2x8x64, .f32⟩ : BufTy).Contents (Elt Ideal)) (x2 : (⟨S8x512, .f32⟩ : BufTy).Contents (Elt Ideal)) (x7 : (⟨S512x64, .f32⟩ : BufTy).Contents (Elt Ideal)) (x8 : (⟨S512, .f32⟩ : BufTy).Contents (Elt Ideal)) (x9 : (⟨S64x512, .f32⟩ : BufTy).Contents (Elt Ideal)) (x10 : (⟨S64, .f32⟩ : BufTy).Contents (Elt Ideal)) (x11 : (⟨S512x64, .f32⟩ : BufTy).Contents (Elt Ideal)) (x12 : (⟨S512, .f32⟩ : BufTy).Contents (Elt Ideal))
    (hP : ∀ (p : Fin 2) (b : Fin 8) (j : Fin 64), P (ix3 p b j) = Cert.Spec.regionOut I Cert.Spec.zlit p b j)
    (h2 : ∀ (b : Fin 8) (d : Fin 512), x2 (ix2 b d) = I.Qy b d) (h7 : ∀ (d : Fin 512) (j : Fin 64), x7 (ix2 d j) = I.Wbc d j) (h8 : ∀ d : Fin 512, x8 (ix1 d) = I.bbc d)
    (h9 : ∀ (j : Fin 64) (d : Fin 512), x9 (ix2 j d) = I.Wuq j d) (h10 : ∀ j : Fin 64, x10 (ix1 j) = I.buq j) (h11 : ∀ (d : Fin 512) (j : Fin 64), x11 (ix2 d j) = I.Wue d j) (h12 : ∀ d : Fin 512, x12 (ix1 d) = I.bue d)
    (b : Fin 8) (d : Fin 512) :
    extOf P x2 x7 x8 x9 x10 x11 x12 (ix2 b d) = Cert.Spec.extK I Cert.Spec.zlit Cert.Spec.clit b d := by
  unfold extOf Cert.Spec.extK
  refine affine_a_apply _ x11 x12 _ (Cert.Spec.msK I Cert.Spec.zlit Cert.Spec.clit) I.Wue I.bue (fun b j => ?_) h11 h12 b d
  rw [mulf_apply]
  unfold Cert.Spec.msK
  refine congrArg₂ (· * ·) ?_ ?_
  · unfold Cert.Spec.qp
    exact affine_q_apply x2 x9 x10 I.Qy I.Wuq I.buq h2 h9 h10 b j
  · unfold Cert.Spec.bpsK
    refine affine_b_apply _ x9 x10 _ (Cert.Spec.sK I Cert.Spec.zlit Cert.Spec.clit) I.Wuq I.buq (fun b d => ?_) h9 h10 b j
    unfold Cert.Spec.sK
    refine affine_a_apply _ x7 x8 _ (Cert.Spec.kvSum I Cert.Spec.zlit) I.Wbc I.bbc (fun b k => ?_) h7 h8 b d
    rw [reduce_apply]
    unfold Cert.Spec.kvSum
    exact congrArg (_ + ·) (Finset.sum_congr rfl fun p _ => hP p b k)

end Cert.KernelIdeal.TailValue

end
-- ==== Proof.KernelIdeal.Value.lean ====
import proofs.«111147_j59974923321458_1_alg».proof.Proof.KernelIdeal.Accum
import proofs.«111147_j59974923321458_1_alg».proof.Proof.KernelIdeal.TailValue
import proofs.«111147_j59974923321458_1_alg».proof.Proof.RefTail

/-!
# The idealized kernel's run, with its result named

The result buffer is written by the last of the sixty-nine operations after the region. Read off the run,
it is the common tail applied to the kernel's extracted sum, which the later operations compute from the
region's output array and seven argument arrays; and that extracted sum, read at an entry, is the
specification's, because the region's output array is the specification's region result.
-/

set_option maxRecDepth 16384

noncomputable section

namespace Cert.KernelIdeal.Region

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec (zlit clit)

variable (m : (ℓ : Loc nD τ sig) → Buf (Elt Ideal) ℓ) (ρ : Dev nD → PrngReg)

/-- The buffers as the region leaves them: its windows' arrays at their final contents, everything else as found. -/
abbrev afterRegion (c : Dev nD) : Valuation τ sig (Elt Ideal) :=
  Pipeline.withArrays spec0 c (V0 m c) fun w => (dats m 0 c).arrAt w cfg0.N

/-- The kernel's extracted sum. -/
abbrev extK (c : Dev nD) : (⟨S8x512, .f32⟩ : BufTy).Contents (Elt Ideal) :=
  Cert.KernelIdeal.TailValue.extOf ((dats m 0 c).arrAt 6 cfg0.N) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem afterRegion_out (c : Dev nD) : afterRegion m c (Proc.devRef .tc main_v4) = (dats m 0 c).arrAt 6 cfg0.N :=
  Pipeline.withArrays_arr spec0 launch0.win.arr_inj c (V0 m c) _ 6
theorem afterRegion_arg2 (c : Dev nD) : afterRegion m c (Proc.devRef .tc main_arg2) = m ((c : Thread nD τ).loc main_arg2) :=
  (Pipeline.withArrays_of_ne spec0 c (V0 m c) _ main_arg2 (by decide)).trans (V_main_arg2 m c)
theorem afterRegion_arg7 (c : Dev nD) : afterRegion m c (Proc.devRef .tc main_arg7) = m ((c : Thread nD τ).loc main_arg7) :=
  (Pipeline.withArrays_of_ne spec0 c (V0 m c) _ main_arg7 (by decide)).trans (V_main_arg7 m c)
theorem afterRegion_arg8 (c : Dev nD) : afterRegion m c (Proc.devRef .tc main_arg8) = m ((c : Thread nD τ).loc main_arg8) :=
  (Pipeline.withArrays_of_ne spec0 c (V0 m c) _ main_arg8 (by decide)).trans (V_main_arg8 m c)
theorem afterRegion_arg9 (c : Dev nD) : afterRegion m c (Proc.devRef .tc main_arg9) = m ((c : Thread nD τ).loc main_arg9) :=
  (Pipeline.withArrays_of_ne spec0 c (V0 m c) _ main_arg9 (by decide)).trans (V_main_arg9 m c)
theorem afterRegion_arg10 (c : Dev nD) : afterRegion m c (Proc.devRef .tc main_arg10) = m ((c : Thread nD τ).loc main_arg10) :=
  (Pipeline.withArrays_of_ne spec0 c (V0 m c) _ main_arg10 (by decide)).trans (V_main_arg10 m c)
theorem afterRegion_arg11 (c : Dev nD) : afterRegion m c (Proc.devRef .tc main_arg11) = m ((c : Thread nD τ).loc main_arg11) :=
  (Pipeline.withArrays_of_ne spec0 c (V0 m c) _ main_arg11 (by decide)).trans (V_main_arg11 m c)
theorem afterRegion_arg12 (c : Dev nD) : afterRegion m c (Proc.devRef .tc main_arg12) = m ((c : Thread nD τ).loc main_arg12) :=
  (Pipeline.withArrays_of_ne spec0 c (V0 m c) _ main_arg12 (by decide)).trans (V_main_arg12 m c)
theorem afterRegion_arg13 (c : Dev nD) : afterRegion m c (Proc.devRef .tc main_arg13) = m ((c : Thread nD τ).loc main_arg13) :=
  (Pipeline.withArrays_of_ne spec0 c (V0 m c) _ main_arg13 (by decide)).trans (V_main_arg13 m c)
theorem afterRegion_arg14 (c : Dev nD) : afterRegion m c (Proc.devRef .tc main_arg14) = m ((c : Thread nD τ).loc main_arg14) :=
  (Pipeline.withArrays_of_ne spec0 c (V0 m c) _ main_arg14 (by decide)).trans (V_main_arg14 m c)
theorem afterRegion_arg15 (c : Dev nD) : afterRegion m c (Proc.devRef .tc main_arg15) = m ((c : Thread nD τ).loc main_arg15) :=
  (Pipeline.withArrays_of_ne spec0 c (V0 m c) _ main_arg15 (by decide)).trans (V_main_arg15 m c)
theorem afterRegion_arg16 (c : Dev nD) : afterRegion m c (Proc.devRef .tc main_arg16) = m ((c : Thread nD τ).loc main_arg16) :=
  (Pipeline.withArrays_of_ne spec0 c (V0 m c) _ main_arg16 (by decide)).trans (V_main_arg16 m c)

set_option maxHeartbeats 4000000 in
/-- The result buffer after the later operations: the common tail of the kernel's extracted sum. -/
theorem result_value (c : Dev nD) :
    Pipeline.afterTail₀ cfgs (dats m) 0 (V0 m) [hostOps1] c main_v63
      = Cert.ReferenceIdeal.Tail.tailOf (F := Ideal) (extK m c) (m ((c : Thread nD τ).loc main_arg13)) (m ((c : Thread nD τ).loc main_arg14)) (m ((c : Thread nD τ).loc main_arg15)) (m ((c : Thread nD τ).loc main_arg16)) :=
  (Cert.KernelIdeal.TailValue.tail_value (afterRegion m c)).trans (by
    rw [afterRegion_out, afterRegion_arg2, afterRegion_arg7, afterRegion_arg8, afterRegion_arg9, afterRegion_arg10, afterRegion_arg11,
      afterRegion_arg12, afterRegion_arg13, afterRegion_arg14, afterRegion_arg15, afterRegion_arg16])

/-- The kernel's extracted sum, read at an entry, is the specification's. -/
theorem extK_apply (c : Dev nD) (b : Fin 8) (d : Fin 512) :
    extK m c (ix2 b d) = Cert.Spec.extK (inputs m c) zlit clit b d :=
  Cert.KernelIdeal.TailValue.extOf_apply (inputs m c) _ _ _ _ _ _ _ _ (region_value m c)
    (fun _ _ => rfl) (fun _ _ => rfl) (fun _ => rfl) (fun _ _ => rfl) (fun _ => rfl) (fun _ _ => rfl) (fun _ => rfl) b d

/-- Every weakly fair execution of the idealized kernel terminates with the result at the common tail of its
    extracted sum and the arguments as launched. -/
theorem run_value : θ_run defs (onTc (τ := τ) (main (F := Ideal))) ⟨m, fun _ => 0, ρ⟩ (fun r => ∀ c : Dev nD,
      r.2.mem ((c.tc : Thread nD τ).loc main_v63) = Cert.ReferenceIdeal.Tail.tailOf (F := Ideal) (extK m c) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v63 (Pipeline.mem_restRefs_of main_v63 (by decide) (by decide))).trans (result_value m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c)⟩) (run_main m ρ)

end Cert.KernelIdeal.Region

end
-- ==== Proof.RefSide.lean ====
import proofs.«111147_j59974923321458_1_alg».proof.Defs
import proofs.«111147_j59974923321458_1_alg».proof.Proof.Gen.ReferenceIdeal.Run
import proofs.«111147_j59974923321458_1_alg».proof.Proof.Gen.ReferenceIdeal.Read
import proofs.«111147_j59974923321458_1_alg».proof.Proof.SpecArrays
import proofs.«111147_j59974923321458_1_alg».proof.Proof.RefTail
import Idealize.ShloMosaic.Lib.ValueIdx
import Idealize.ShloMosaic.PureOps.Ideal.Laws

/-!
# The reference, read at coordinates

The reference program's result is the common tail applied to its extracted sum (operation %31), and that
extracted sum, read at batch row `b` and output feature `d`, is the specification's `extR`. The first fact
holds by unfolding; the second is read off stage by stage: projected key, value and query, the bound
product mapped to 512 features, mapped back to 64, matched against the query, summed over the 4096
positions from the zero literal, and mapped to 512 features with the count literal times the bias.
-/

noncomputable section

namespace Cert.ReferenceIdeal.RefValue

open Cert.ReferenceIdeal Cert.ReferenceIdeal.Gen Cert.ReferenceIdeal.Read Idealize.ShloMosaic Idealize.ShloMosaic.ValueIdx

/-- The program's result is the common tail of its extracted sum. -/
theorem result_eq (x0 x1 : (⟨S8x4096x512, .f32⟩ : BufTy).Contents (Elt Ideal)) (x2 : (⟨S8x512, .f32⟩ : BufTy).Contents (Elt Ideal)) (x3 : (⟨S64x512, .f32⟩ : BufTy).Contents (Elt Ideal)) (x4 : (⟨S64, .f32⟩ : BufTy).Contents (Elt Ideal)) (x5 : (⟨S64x512, .f32⟩ : BufTy).Contents (Elt Ideal)) (x6 : (⟨S64, .f32⟩ : BufTy).Contents (Elt Ideal)) (x7 : (⟨S512x64, .f32⟩ : BufTy).Contents (Elt Ideal)) (x8 : (⟨S512, .f32⟩ : BufTy).Contents (Elt Ideal)) (x9 : (⟨S64x512, .f32⟩ : BufTy).Contents (Elt Ideal)) (x10 : (⟨S64, .f32⟩ : BufTy).Contents (Elt Ideal)) (x11 : (⟨S512x64, .f32⟩ : BufTy).Contents (Elt Ideal)) (x12 : (⟨S512, .f32⟩ : BufTy).Contents (Elt Ideal)) (x13 x14 : (⟨S512, .f32⟩ : BufTy).Contents (Elt Ideal)) (x15 : (⟨S512x512, .f32⟩ : BufTy).Contents (Elt Ideal)) (x16 : (⟨S512, .f32⟩ : BufTy).Contents (Elt Ideal)) :
    val_main_v62 (F := Ideal) x0 x1 x2 x3 x4 x5 x6 x7 x8 x9 x10 x11 x12 x13 x14 x15 x16
      = Cert.ReferenceIdeal.Tail.tailOf (F := Ideal) (val_main_v31 (F := Ideal) x0 x1 x2 x3 x4 x5 x6 x7 x8 x9 x10 x11 x12) x13 x14 x15 x16 := rfl

section Stages

variable (x0 x1 : (⟨S8x4096x512, .f32⟩ : BufTy).Contents (Elt Ideal)) (x2 : (⟨S8x512, .f32⟩ : BufTy).Contents (Elt Ideal)) (x3 : (⟨S64x512, .f32⟩ : BufTy).Contents (Elt Ideal)) (x4 : (⟨S64, .f32⟩ : BufTy).Contents (Elt Ideal)) (x5 : (⟨S64x512, .f32⟩ : BufTy).Contents (Elt Ideal)) (x6 : (⟨S64, .f32⟩ : BufTy).Contents (Elt Ideal)) (x7 : (⟨S512x64, .f32⟩ : BufTy).Contents (Elt Ideal)) (x8 : (⟨S512, .f32⟩ : BufTy).Contents (Elt Ideal)) (x9 : (⟨S64x512, .f32⟩ : BufTy).Contents (Elt Ideal)) (x10 : (⟨S64, .f32⟩ : BufTy).Contents (Elt Ideal)) (x11 : (⟨S512x64, .f32⟩ : BufTy).Contents (Elt Ideal)) (x12 : (⟨S512, .f32⟩ : BufTy).Contents (Elt Ideal))

/-- Operation %3 at coordinates: the projected key, the sum over the 512 input features of key times
    weight, plus the bias. -/
theorem v3_apply (b : Fin 8) (n : Fin 4096) (j : Fin 64) :
    val_main_v3 (F := Ideal) x0 x3 x4 (ix3 b n j) = Cert.Spec.kp (Cert.Spec.inputsOf x0 x1 x2 x3 x4 x5 x6 x7 x8 x9 x10 x11 x12) b n j := by
  rw [val_main_v3_apply, val_main_v0_apply, val_main_v2_apply, val_main_v1_apply]
  have e1 : ∀ k : Fin 512, lidx_main_v0 (ix3 b n j) k = ix3 b n k := fun k => funext fun a => by
    match a with | ⟨0, _⟩ => rfl | ⟨1, _⟩ => rfl | ⟨2, _⟩ => rfl
  have e2 : ∀ k : Fin 512, ridx_main_v0 (ix3 b n j) k = ix2 j k := fun k => funext fun a => by
    match a with | ⟨0, _⟩ => rfl | ⟨1, _⟩ => rfl
  have e3 : idx_main_v1 (idx_main_v2 (ix3 b n j)) = ix1 j := funext fun a => by
    match a with | ⟨0, _⟩ => rfl
  simp only [e1, e2, e3, Ideal.addf_def]
  rfl

/-- Operation %7 at coordinates: the projected value. -/
theorem v7_apply (b : Fin 8) (n : Fin 4096) (j : Fin 64) :
    val_main_v7 (F := Ideal) x1 x5 x6 (ix3 b n j) = Cert.Spec.vp (Cert.Spec.inputsOf x0 x1 x2 x3 x4 x5 x6 x7 x8 x9 x10 x11 x12) b n j := by
  rw [val_main_v7_apply, val_main_v4_apply, val_main_v6_apply, val_main_v5_apply]
  have e1 : ∀ k : Fin 512, lidx_main_v4 (ix3 b n j) k = ix3 b n k := fun k => funext fun a => by
    match a with | ⟨0, _⟩ => rfl | ⟨1, _⟩ => rfl | ⟨2, _⟩ => rfl
  have e2 : ∀ k : Fin 512, ridx_main_v4 (ix3 b n j) k = ix2 j k := fun k => funext fun a => by
    match a with | ⟨0, _⟩ => rfl | ⟨1, _⟩ => rfl
  have e3 : idx_main_v5 (idx_main_v6 (ix3 b n j)) = ix1 j := funext fun a => by
    match a with | ⟨0, _⟩ => rfl
  simp only [e1, e2, e3, Ideal.addf_def]
  rfl

/-- Operation %8 at coordinates: projected key times projected value. -/
theorem v8_apply (b : Fin 8) (n : Fin 4096) (j : Fin 64) :
    val_main_v8 (F := Ideal) x0 x1 x3 x4 x5 x6 (ix3 b n j)
      = Cert.Spec.kp (Cert.Spec.inputsOf x0 x1 x2 x3 x4 x5 x6 x7 x8 x9 x10 x11 x12) b n j * Cert.Spec.vp (Cert.Spec.inputsOf x0 x1 x2 x3 x4 x5 x6 x7 x8 x9 x10 x11 x12) b n j := by
  rw [val_main_v8_apply, v3_apply x0 x1 x2 x3 x4 x5 x6 x7 x8 x9 x10 x11 x12, v7_apply x0 x1 x2 x3 x4 x5 x6 x7 x8 x9 x10 x11 x12]
  rfl

/-- Operation %12 at coordinates: the bound product mapped to the 512 features, plus the bias. -/
theorem v12_apply (b : Fin 8) (n : Fin 4096) (d : Fin 512) :
    val_main_v12 (F := Ideal) x0 x1 x3 x4 x5 x6 x7 x8 (ix3 b n d) = Cert.Spec.bindR (Cert.Spec.inputsOf x0 x1 x2 x3 x4 x5 x6 x7 x8 x9 x10 x11 x12) b n d := by
  rw [val_main_v12_apply, val_main_v9_apply, val_main_v11_apply, val_main_v10_apply]
  have e1 : ∀ k : Fin 64, lidx_main_v9 (ix3 b n d) k = ix3 b n k := fun k => funext fun a => by
    match a with | ⟨0, _⟩ => rfl | ⟨1, _⟩ => rfl | ⟨2, _⟩ => rfl
  have e2 : ∀ k : Fin 64, ridx_main_v9 (ix3 b n d) k = ix2 d k := fun k => funext fun a => by
    match a with | ⟨0, _⟩ => rfl | ⟨1, _⟩ => rfl
  have e3 : idx_main_v10 (idx_main_v11 (ix3 b n d)) = ix1 d := funext fun a => by
    match a with | ⟨0, _⟩ => rfl
  simp only [e1, e2, e3, Ideal.addf_def, v8_apply x0 x1 x2 x3 x4 x5 x6 x7 x8 x9 x10 x11 x12]
  rfl

/-- Operation %17 at coordinates: the projected query. The right operand is the transposed weight, so
    the sum runs over the 512 input features of query times weight read at (feature out, feature in). -/
theorem v17_apply (b : Fin 8) (j : Fin 64) :
    val_main_v17 (F := Ideal) x2 x9 x10 (ix2 b j) = Cert.Spec.qp (Cert.Spec.inputsOf x0 x1 x2 x3 x4 x5 x6 x7 x8 x9 x10 x11 x12) b j := by
  rw [val_main_v17_apply, val_main_v14_apply, val_main_v16_apply, val_main_v15_apply]
  have e1 : ∀ k : Fin 512, lidx_main_v14 (ix2 b j) k = ix2 b k := fun k => funext fun a => by
    match a with | ⟨0, _⟩ => rfl | ⟨1, _⟩ => rfl
  have e2 : ∀ k : Fin 512, idx_main_v13 (ridx_main_v14 (ix2 b j) k) = ix2 j k := fun k => funext fun a => by
    match a with | ⟨0, _⟩ => rfl | ⟨1, _⟩ => rfl
  have e3 : idx_main_v15 (idx_main_v16 (ix2 b j)) = ix1 j := funext fun a => by
    match a with | ⟨0, _⟩ => rfl
  simp only [val_main_v13_apply, e1, e2, e3, Ideal.addf_def]
  rfl

/-- Operation %21 at coordinates: the bound product mapped back to the 64 features, plus the bias. -/
theorem v21_apply (b : Fin 8) (n : Fin 4096) (j : Fin 64) :
    val_main_v21 (F := Ideal) x0 x1 x3 x4 x5 x6 x7 x8 x9 x10 (ix3 b n j) = Cert.Spec.bpR (Cert.Spec.inputsOf x0 x1 x2 x3 x4 x5 x6 x7 x8 x9 x10 x11 x12) b n j := by
  rw [val_main_v21_apply, val_main_v18_apply, val_main_v20_apply, val_main_v19_apply]
  have e1 : ∀ k : Fin 512, lidx_main_v18 (ix3 b n j) k = ix3 b n k := fun k => funext fun a => by
    match a with | ⟨0, _⟩ => rfl | ⟨1, _⟩ => rfl | ⟨2, _⟩ => rfl
  have e2 : ∀ k : Fin 512, ridx_main_v18 (ix3 b n j) k = ix2 j k := fun k => funext fun a => by
    match a with | ⟨0, _⟩ => rfl | ⟨1, _⟩ => rfl
  have e3 : idx_main_v19 (idx_main_v20 (ix3 b n j)) = ix1 j := funext fun a => by
    match a with | ⟨0, _⟩ => rfl
  simp only [e1, e2, e3, Ideal.addf_def, v12_apply x0 x1 x2 x3 x4 x5 x6 x7 x8 x9 x10 x11 x12]
  rfl

/-- Operation %24 at coordinates: the match of the mapped product against the query, which is broadcast
    along the positions. -/
theorem v24_apply (b : Fin 8) (n : Fin 4096) (j : Fin 64) :
    val_main_v24 (F := Ideal) x0 x1 x2 x3 x4 x5 x6 x7 x8 x9 x10 (ix3 b n j) = Cert.Spec.matchR (Cert.Spec.inputsOf x0 x1 x2 x3 x4 x5 x6 x7 x8 x9 x10 x11 x12) b n j := by
  rw [val_main_v24_apply, val_main_v23_apply, val_main_v22_apply]
  have e1 : idx_main_v22 (idx_main_v23 (ix3 b n j)) = ix2 b j := funext fun a => by
    match a with | ⟨0, _⟩ => rfl | ⟨1, _⟩ => rfl
  rw [e1, v21_apply x0 x1 x2 x3 x4 x5 x6 x7 x8 x9 x10 x11 x12, v17_apply x0 x1 x2 x3 x4 x5 x6 x7 x8 x9 x10 x11 x12]
  rfl

/-- Operation %25 at coordinates: the matches summed over the 4096 positions from the zero literal. -/
theorem v25_apply (b : Fin 8) (j : Fin 64) :
    val_main_v25 (F := Ideal) x0 x1 x2 x3 x4 x5 x6 x7 x8 x9 x10 (ix2 b j)
      = Cert.Spec.msumR (Cert.Spec.inputsOf x0 x1 x2 x3 x4 x5 x6 x7 x8 x9 x10 x11 x12) Cert.Spec.zlit b j := by
  rw [val_main_v25_apply, val_main_cst_apply]
  have e1 : ∀ k : Fin 4096, idx_main_v25 (ix2 b j) k = ix3 b k j := fun k => funext fun a => by
    match a with | ⟨0, _⟩ => rfl | ⟨1, _⟩ => rfl | ⟨2, _⟩ => rfl
  simp only [e1, v24_apply x0 x1 x2 x3 x4 x5 x6 x7 x8 x9 x10 x11 x12]
  rfl

/-- Operation %31 at coordinates: the summed matches mapped to the 512 features, plus the count literal
    times the bias. -/
theorem ext_apply (b : Fin 8) (d : Fin 512) :
    val_main_v31 (F := Ideal) x0 x1 x2 x3 x4 x5 x6 x7 x8 x9 x10 x11 x12 (ix2 b d)
      = Cert.Spec.extR (Cert.Spec.inputsOf x0 x1 x2 x3 x4 x5 x6 x7 x8 x9 x10 x11 x12) Cert.Spec.zlit Cert.Spec.clit b d := by
  rw [val_main_v31_apply, val_main_v26_apply, val_main_v30_apply, val_main_v29_apply, val_main_v28_apply,
    val_main_v27_apply, val_main_cst_0_apply]
  have e1 : ∀ k : Fin 64, lidx_main_v26 (ix2 b d) k = ix2 b k := fun k => funext fun a => by
    match a with | ⟨0, _⟩ => rfl | ⟨1, _⟩ => rfl
  have e2 : ∀ k : Fin 64, ridx_main_v26 (ix2 b d) k = ix2 d k := fun k => funext fun a => by
    match a with | ⟨0, _⟩ => rfl | ⟨1, _⟩ => rfl
  have e3 : idx_main_v29 (idx_main_v30 (ix2 b d)) = ix1 d := funext fun a => by
    match a with | ⟨0, _⟩ => rfl
  simp only [e1, e2, e3, Ideal.addf_def, Ideal.mulf_def, v25_apply x0 x1 x2 x3 x4 x5 x6 x7 x8 x9 x10 x11 x12]
  rfl

end Stages

end Cert.ReferenceIdeal.RefValue

end
-- ==== Proof.SpecLaw.lean ====
import proofs.«111147_j59974923321458_1_alg».proof.Proof.Spec
import Mathlib.Algebra.BigOperators.Fin
import Mathlib.Algebra.BigOperators.Ring.Finset
import Mathlib.Logic.Equiv.Fin.Basic
import Mathlib.Tactic.Ring

/-!
# The two extracted sums agree on real inputs

When every input is a real number, every intermediate quantity of both formulas is the coercion of a real
number, so the claimed identity of extended reals is an identity of real numbers. Over the reals it is the
statement that an affine map commutes with a sum over 4096 positions when its bias is counted 4096 times,
applied three times, together with the fact that the kernel's two runs of eight tiles of 256 positions
enumerate the 4096 positions exactly once.
-/

noncomputable section

namespace Cert.Spec

open Finset

/-! ## Coercion and finite sums -/

/-- The coercion of a finite sum of reals is the sum of the coercions. -/
theorem coe_sum {ι : Type*} (s : Finset ι) (f : ι → ℝ) :
    (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-! ## Splitting a sum over a product range -/

theorem idx_lt {a b : ℕ} (i : Fin a) (r : Fin b) : i.val * b + r.val < a * b := by
  have hi := i.isLt
  have hr := r.isLt
  calc i.val * b + r.val < i.val * b + b := by omega
    _ = (i.val + 1) * b := by ring
    _ ≤ a * b := Nat.mul_le_mul_right b hi

/-- A sum over `a * b` indices is a double sum, the index being `i * b + r`. -/
theorem sum_fin_mul {M : Type*} [AddCommMonoid M] (a b : ℕ) (f : Fin (a * b) → M) :
    ∑ n, f n = ∑ i : Fin a, ∑ r : Fin b, f ⟨i.val * b + r.val, idx_lt i r⟩ := by
  calc ∑ n, f n = ∑ x : Fin a × Fin b, f (finProdFinEquiv x) :=
        (Fintype.sum_equiv finProdFinEquiv _ _ (fun _ => rfl)).symm
    _ = ∑ x : Fin a × Fin b, f ⟨x.1.val * b + x.2.val, idx_lt x.1 x.2⟩ := by
        refine Fintype.sum_congr _ _ (fun x => ?_)
        congr 1
        ext
        simp only [finProdFinEquiv_apply_val]
        ring
    _ = ∑ i : Fin a, ∑ r : Fin b, f ⟨i.val * b + r.val, idx_lt i r⟩ :=
        Fintype.sum_prod_type' (fun i r => f ⟨i.val * b + r.val, idx_lt i r⟩)

/-! ## The accumulator over an arbitrary tile function -/

/-- The accumulator of run `p` over a real tile function: the first tile's value, then each later tile's
    added. -/
def gacc (T : Fin 16 → ℝ) (p : Fin 2) : (s : ℕ) → s < 8 → ℝ
  | 0, _ => T ⟨p.val * 8, by have := p.isLt; omega⟩
  | s + 1, hs => gacc T p s (Nat.lt_of_succ_lt hs) + T ⟨p.val * 8 + (s + 1), by have := p.isLt; omega⟩

/-- The accumulator after tile `s` is the sum of the run's first `s + 1` tiles. -/
theorem gacc_eq (T : Fin 16 → ℝ) (p : Fin 2) : ∀ (s : ℕ) (hs : s < 8),
    gacc T p s hs = ∑ i : Fin (s + 1), T ⟨p.val * 8 + i.val, by have := p.isLt; have := i.isLt; omega⟩
  | 0, _ => by
      rw [gacc, Fin.sum_univ_one]
      rfl
  | s + 1, hs => by
      rw [gacc, Fin.sum_univ_castSucc, gacc_eq T p s (Nat.lt_of_succ_lt hs)]
      rfl

/-- The two runs of eight tiles enumerate the sixteen tiles. -/
theorem gacc_total (T : Fin 16 → ℝ) :
    ∑ p : Fin 2, gacc T p 7 (by decide) = ∑ t : Fin 16, T t := by
  have h := sum_fin_mul 2 8 T
  rw [h]
  refine Fintype.sum_congr _ _ (fun p => ?_)
  rw [gacc_eq]

/-! ## Real inputs -/

/-- Real-valued inputs. -/
structure RInputs where
  K : Fin 8 → Fin 4096 → Fin 512 → ℝ
  V : Fin 8 → Fin 4096 → Fin 512 → ℝ
  Qy : Fin 8 → Fin 512 → ℝ
  Wbk : Fin 64 → Fin 512 → ℝ
  bbk : Fin 64 → ℝ
  Wbv : Fin 64 → Fin 512 → ℝ
  bbv : Fin 64 → ℝ
  Wbc : Fin 512 → Fin 64 → ℝ
  bbc : Fin 512 → ℝ
  Wuq : Fin 64 → Fin 512 → ℝ
  buq : Fin 64 → ℝ
  Wue : Fin 512 → Fin 64 → ℝ
  bue : Fin 512 → ℝ

/-- Real inputs seen as extended-real inputs. -/
def RInputs.toE (R : RInputs) : Inputs where
  K b n d := ((R.K b n d : ℝ) : EReal)
  V b n d := ((R.V b n d : ℝ) : EReal)
  Qy b d := ((R.Qy b d : ℝ) : EReal)
  Wbk j d := ((R.Wbk j d : ℝ) : EReal)
  bbk j := ((R.bbk j : ℝ) : EReal)
  Wbv j d := ((R.Wbv j d : ℝ) : EReal)
  bbv j := ((R.bbv j : ℝ) : EReal)
  Wbc d j := ((R.Wbc d j : ℝ) : EReal)
  bbc d := ((R.bbc d : ℝ) : EReal)
  Wuq j d := ((R.Wuq j d : ℝ) : EReal)
  buq j := ((R.buq j : ℝ) : EReal)
  Wue d j := ((R.Wue d j : ℝ) : EReal)
  bue d := ((R.bue d : ℝ) : EReal)

/-- The real parts of extended-real inputs. -/
def Inputs.toR (I : Inputs) : RInputs where
  K b n d := (I.K b n d).toReal
  V b n d := (I.V b n d).toReal
  Qy b d := (I.Qy b d).toReal
  Wbk j d := (I.Wbk j d).toReal
  bbk j := (I.bbk j).toReal
  Wbv j d := (I.Wbv j d).toReal
  bbv j := (I.bbv j).toReal
  Wbc d j := (I.Wbc d j).toReal
  bbc d := (I.bbc d).toReal
  Wuq j d := (I.Wuq j d).toReal
  buq j := (I.buq j).toReal
  Wue d j := (I.Wue d j).toReal
  bue d := (I.bue d).toReal

/-- Inputs that are all real numbers are the coercion of their real parts. -/
theorem toE_toR (I : Inputs) (hI : I.Real) : I.toR.toE = I := by
  have key : ∀ x : EReal, (∃ r : ℝ, x = r) → ((x.toReal : ℝ) : EReal) = x := by
    rintro _ ⟨r, rfl⟩
    rw [EReal.toReal_coe]
  rcases I with ⟨K, V, Qy, Wbk, bbk, Wbv, bbv, Wbc, bbc, Wuq, buq, Wue, bue⟩
  simp only [Inputs.toR, RInputs.toE, Inputs.mk.injEq]
  exact ⟨funext fun b => funext fun n => funext fun d => key (K b n d) (hI.K b n d),
    funext fun b => funext fun n => funext fun d => key (V b n d) (hI.V b n d),
    funext fun b => funext fun d => key (Qy b d) (hI.Qy b d),
    funext fun j => funext fun d => key (Wbk j d) (hI.Wbk j d),
    funext fun j => key (bbk j) (hI.bbk j),
    funext fun j => funext fun d => key (Wbv j d) (hI.Wbv j d),
    funext fun j => key (bbv j) (hI.bbv j),
    funext fun d => funext fun j => key (Wbc d j) (hI.Wbc d j),
    funext fun d => key (bbc d) (hI.bbc d),
    funext fun j => funext fun d => key (Wuq j d) (hI.Wuq j d),
    funext fun j => key (buq j) (hI.buq j),
    funext fun d => funext fun j => key (Wue d j) (hI.Wue d j),
    funext fun d => key (bue d) (hI.bue d)⟩

variable (R : RInputs)

theorem toE_K (b : Fin 8) (n : Fin 4096) (d : Fin 512) : R.toE.K b n d = ((R.K b n d : ℝ) : EReal) := rfl
theorem toE_V (b : Fin 8) (n : Fin 4096) (d : Fin 512) : R.toE.V b n d = ((R.V b n d : ℝ) : EReal) := rfl
theorem toE_Qy (b : Fin 8) (d : Fin 512) : R.toE.Qy b d = ((R.Qy b d : ℝ) : EReal) := rfl
theorem toE_Wbk (j : Fin 64) (d : Fin 512) : R.toE.Wbk j d = ((R.Wbk j d : ℝ) : EReal) := rfl
theorem toE_bbk (j : Fin 64) : R.toE.bbk j = ((R.bbk j : ℝ) : EReal) := rfl
theorem toE_Wbv (j : Fin 64) (d : Fin 512) : R.toE.Wbv j d = ((R.Wbv j d : ℝ) : EReal) := rfl
theorem toE_bbv (j : Fin 64) : R.toE.bbv j = ((R.bbv j : ℝ) : EReal) := rfl
theorem toE_Wbc (d : Fin 512) (j : Fin 64) : R.toE.Wbc d j = ((R.Wbc d j : ℝ) : EReal) := rfl
theorem toE_bbc (d : Fin 512) : R.toE.bbc d = ((R.bbc d : ℝ) : EReal) := rfl
theorem toE_Wuq (j : Fin 64) (d : Fin 512) : R.toE.Wuq j d = ((R.Wuq j d : ℝ) : EReal) := rfl
theorem toE_buq (j : Fin 64) : R.toE.buq j = ((R.buq j : ℝ) : EReal) := rfl
theorem toE_Wue (d : Fin 512) (j : Fin 64) : R.toE.Wue d j = ((R.Wue d j : ℝ) : EReal) := rfl
theorem toE_bue (d : Fin 512) : R.toE.bue d = ((R.bue d : ℝ) : EReal) := rfl

/-! ## The stages over the reals -/

def rkp (b : Fin 8) (n : Fin 4096) (j : Fin 64) : ℝ := (∑ d : Fin 512, R.K b n d * R.Wbk j d) + R.bbk j
def rvp (b : Fin 8) (n : Fin 4096) (j : Fin 64) : ℝ := (∑ d : Fin 512, R.V b n d * R.Wbv j d) + R.bbv j
def rqp (b : Fin 8) (j : Fin 64) : ℝ := (∑ d : Fin 512, R.Qy b d * R.Wuq j d) + R.buq j
/-- The product of projected key and value. -/
def rkv (b : Fin 8) (n : Fin 4096) (j : Fin 64) : ℝ := rkp R b n j * rvp R b n j

def rbind (b : Fin 8) (n : Fin 4096) (d : Fin 512) : ℝ := (∑ j : Fin 64, rkv R b n j * R.Wbc d j) + R.bbc d
def rbp (b : Fin 8) (n : Fin 4096) (j : Fin 64) : ℝ := (∑ d : Fin 512, rbind R b n d * R.Wuq j d) + R.buq j
def rmsum (b : Fin 8) (j : Fin 64) : ℝ := ∑ n : Fin 4096, rbp R b n j * rqp R b j
def rextR (b : Fin 8) (d : Fin 512) : ℝ := (∑ j : Fin 64, rmsum R b j * R.Wue d j) + 4096 * R.bue d

def rtile (t : Fin 16) (b : Fin 8) (j : Fin 64) : ℝ := ∑ r : Fin 256, rkv R b (pos t r) j
def rkvSum (b : Fin 8) (j : Fin 64) : ℝ := ∑ p : Fin 2, gacc (fun t => rtile R t b j) p 7 (by decide)
def rsK (b : Fin 8) (d : Fin 512) : ℝ := (∑ k : Fin 64, rkvSum R b k * R.Wbc d k) + 4096 * R.bbc d
def rbps (b : Fin 8) (j : Fin 64) : ℝ := (∑ d : Fin 512, rsK R b d * R.Wuq j d) + 4096 * R.buq j
def rms (b : Fin 8) (j : Fin 64) : ℝ := rqp R b j * rbps R b j
def rextK (b : Fin 8) (d : Fin 512) : ℝ := (∑ j : Fin 64, rms R b j * R.Wue d j) + 4096 * R.bue d

/-! ## Every stage on real inputs is the coercion of its real counterpart -/

theorem kp_coe (b : Fin 8) (n : Fin 4096) (j : Fin 64) : kp R.toE b n j = ((rkp R b n j : ℝ) : EReal) := by
  simp only [kp, rkp, toE_K, toE_Wbk, toE_bbk, EReal.coe_add, coe_sum, EReal.coe_mul]

theorem vp_coe (b : Fin 8) (n : Fin 4096) (j : Fin 64) : vp R.toE b n j = ((rvp R b n j : ℝ) : EReal) := by
  simp only [vp, rvp, toE_V, toE_Wbv, toE_bbv, EReal.coe_add, coe_sum, EReal.coe_mul]

theorem qp_coe (b : Fin 8) (j : Fin 64) : qp R.toE b j = ((rqp R b j : ℝ) : EReal) := by
  simp only [qp, rqp, toE_Qy, toE_Wuq, toE_buq, EReal.coe_add, coe_sum, EReal.coe_mul]

theorem kv_coe (b : Fin 8) (n : Fin 4096) (j : Fin 64) :
    kp R.toE b n j * vp R.toE b n j = ((rkv R b n j : ℝ) : EReal) := by
  rw [kp_coe, vp_coe, rkv, EReal.coe_mul]

theorem bindR_coe (b : Fin 8) (n : Fin 4096) (d : Fin 512) : bindR R.toE b n d = ((rbind R b n d : ℝ) : EReal) := by
  simp only [bindR, rbind, kv_coe, toE_Wbc, toE_bbc, EReal.coe_add, coe_sum, EReal.coe_mul]

theorem bpR_coe (b : Fin 8) (n : Fin 4096) (j : Fin 64) : bpR R.toE b n j = ((rbp R b n j : ℝ) : EReal) := by
  simp only [bpR, rbp, bindR_coe, toE_Wuq, toE_buq, EReal.coe_add, coe_sum, EReal.coe_mul]

theorem msumR_coe (b : Fin 8) (j : Fin 64) : msumR R.toE 0 b j = ((rmsum R b j : ℝ) : EReal) := by
  simp only [msumR, matchR, rmsum, bpR_coe, qp_coe, coe_sum, EReal.coe_mul, zero_add]

theorem extR_coe (b : Fin 8) (d : Fin 512) :
    extR R.toE 0 (((4096 : ℝ)) : EReal) b d = ((rextR R b d : ℝ) : EReal) := by
  simp only [extR, rextR, msumR_coe, toE_Wue, toE_bue, EReal.coe_add, coe_sum, EReal.coe_mul]

theorem tileSum_coe (t : Fin 16) (b : Fin 8) (j : Fin 64) :
    tileSum R.toE 0 t b j = ((rtile R t b j : ℝ) : EReal) := by
  simp only [tileSum, rtile, kv_coe, coe_sum, zero_add]

theorem acc_coe (p : Fin 2) (b : Fin 8) (j : Fin 64) : ∀ (s : ℕ) (hs : s < 8),
    acc R.toE 0 p s hs b j = ((gacc (fun t => rtile R t b j) p s hs : ℝ) : EReal)
  | 0, _ => by simp only [acc, gacc, tileSum_coe, zero_add]
  | s + 1, hs => by
      simp only [acc, gacc, tileSum_coe, acc_coe p b j s (Nat.lt_of_succ_lt hs), EReal.coe_add]

theorem kvSum_coe (b : Fin 8) (j : Fin 64) : kvSum R.toE 0 b j = ((rkvSum R b j : ℝ) : EReal) := by
  simp only [kvSum, regionOut, rkvSum, acc_coe, coe_sum, zero_add]

theorem sK_coe (b : Fin 8) (d : Fin 512) :
    sK R.toE 0 (((4096 : ℝ)) : EReal) b d = ((rsK R b d : ℝ) : EReal) := by
  simp only [sK, rsK, kvSum_coe, toE_Wbc, toE_bbc, EReal.coe_add, coe_sum, EReal.coe_mul]

theorem bpsK_coe (b : Fin 8) (j : Fin 64) :
    bpsK R.toE 0 (((4096 : ℝ)) : EReal) b j = ((rbps R b j : ℝ) : EReal) := by
  simp only [bpsK, rbps, sK_coe, toE_Wuq, toE_buq, EReal.coe_add, coe_sum, EReal.coe_mul]

theorem msK_coe (b : Fin 8) (j : Fin 64) :
    msK R.toE 0 (((4096 : ℝ)) : EReal) b j = ((rms R b j : ℝ) : EReal) := by
  simp only [msK, rms, bpsK_coe, qp_coe, EReal.coe_mul]

theorem extK_coe (b : Fin 8) (d : Fin 512) :
    extK R.toE 0 (((4096 : ℝ)) : EReal) b d = ((rextK R b d : ℝ) : EReal) := by
  simp only [extK, rextK, msK_coe, toE_Wue, toE_bue, EReal.coe_add, coe_sum, EReal.coe_mul]

/-! ## The identity over the reals -/

/-- The kernel's two runs of eight tiles of 256 positions sum the products over all 4096 positions. -/
theorem rkvSum_eq (b : Fin 8) (j : Fin 64) : rkvSum R b j = ∑ n : Fin 4096, rkv R b n j := by
  rw [rkvSum, gacc_total]
  exact (sum_fin_mul 16 256 (fun n : Fin 4096 => rkv R b n j)).symm

/-- The first affine map commutes with the sum over positions, its bias counted 4096 times. -/
theorem sum_rbind (b : Fin 8) (d : Fin 512) : ∑ n : Fin 4096, rbind R b n d = rsK R b d := by
  simp only [rbind, rsK, rkvSum_eq]
  rw [Finset.sum_add_distrib, Finset.sum_comm]
  simp only [Finset.sum_mul, Finset.sum_const, Finset.card_univ, Fintype.card_fin, nsmul_eq_mul,
    Nat.cast_ofNat]

/-- The second affine map commutes with the sum over positions, its bias counted 4096 times. -/
theorem sum_rbp (b : Fin 8) (j : Fin 64) : ∑ n : Fin 4096, rbp R b n j = rbps R b j := by
  simp only [rbp, rbps, ← sum_rbind]
  rw [Finset.sum_add_distrib, Finset.sum_comm]
  simp only [Finset.sum_mul, Finset.sum_const, Finset.card_univ, Fintype.card_fin, nsmul_eq_mul,
    Nat.cast_ofNat]

theorem rmsum_eq (b : Fin 8) (j : Fin 64) : rmsum R b j = rms R b j := by
  rw [rmsum, rms, ← Finset.sum_mul, sum_rbp, mul_comm]

theorem rext_eq (b : Fin 8) (d : Fin 512) : rextK R b d = rextR R b d := by
  simp only [rextK, rextR, rmsum_eq]

/-! ## The identity over the extended reals -/

/-- On real inputs, with the zero literal `0` and the count literal `4096`, the kernel's extracted sum is the
    reference's. -/
theorem ext_eq (I : Inputs) (hI : I.Real) (b : Fin 8) (d : Fin 512) :
    extK I (0 : EReal) (((4096 : ℝ) : EReal)) b d = extR I (0 : EReal) (((4096 : ℝ) : EReal)) b d := by
  rw [← toE_toR I hI, extK_coe, extR_coe, rext_eq]

end Cert.Spec

end
-- ==== Proof.Finite.lean ====
import proofs.«111147_j59974923321458_1_alg».proof.Pre_finite_inputs
import proofs.«111147_j59974923321458_1_alg».proof.Proof.Gen.Pre_finite_inputs
import proofs.«111147_j59974923321458_1_alg».proof.Proof.SpecArrays
import Idealize.ShloMosaic.Lib.ReduceAll
import Idealize.ShloMosaic.Lib.ValueIdx
import Idealize.ShloMosaic.PureOps.Ideal.Laws

/-!
# Finite inputs are real

The precondition computes, for each of the seventeen argument arrays, the conjunction over all entries of
`|x| < +∞`, and conjoins the seventeen bits. At extended reals an entry with `|x| < +∞` is neither `⊤` nor `⊥`,
so it is a real number. Hence every entry of the thirteen arrays the specification reads is real.
-/

noncomputable section

namespace Cert.Finite

open Cert.Pre_finite_inputs Idealize.ShloMosaic Idealize.ShloMosaic.ValueIdx

/-- The rank-0 shape has exactly one index. -/
instance : Subsingleton S_.Idx := ⟨fun a b => funext fun d => d.elim0⟩

/-- An extended real whose absolute value `max x (-x)` is below `⊤` is a real number. -/
theorem real_of_abs_lt_top (x : EReal) (h : max x (-x) < ⊤) : ∃ r : ℝ, x = r := by
  induction x using EReal.rec with
  | bot => simp at h
  | coe r => exact ⟨r, rfl⟩
  | top => simp at h

/-- All entries of an array whose finiteness bit (the conjunction over all entries of `|x| < +∞`) is 1 are real. -/
theorem real_of_bit {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : ∃ r : ℝ, x i = r := by
  have hi := Host.reduce_andi_all _ _ hr hu ix0 e i
  have htop : Ideal.ofBits .f32 0x7F800000#32 = ⊤ := by simp [Ideal.ofBits, Ideal.ieee]
  have hlt : max (x i) (-(x i)) < ⊤ := by
    have h2 : Ideal.cmp .olt (max (x i) (-(x i))) (Ideal.ofBits .f32 0x7F800000#32) = 1#1 := hi
    rw [htop] at h2
    by_contra hn
    have h3 : BitVec.ofBool (decide (max (x i) (-(x i)) < ⊤)) = 1#1 := h2
    rw [decide_eq_false hn] at h3
    exact absurd h3 (by decide)
  exact real_of_abs_lt_top _ hlt

/-- Under the precondition every input of the specification is real: each of the first thirteen finiteness bits
    is 1, so every entry of the corresponding array is a real number. -/
theorem real_of_pre (x0 x1 : FVec Ideal S8x4096x512 .f32) (x2 : FVec Ideal S8x512 .f32) (x3 : FVec Ideal S64x512 .f32) (x4 : FVec Ideal S64 .f32) (x5 : FVec Ideal S64x512 .f32) (x6 : FVec Ideal S64 .f32) (x7 : FVec Ideal S512x64 .f32) (x8 : FVec Ideal S512 .f32) (x9 : FVec Ideal S64x512 .f32) (x10 : FVec Ideal S64 .f32) (x11 : FVec Ideal S512x64 .f32) (x12 x13 x14 : FVec Ideal S512 .f32) (x15 : FVec Ideal S512x512 .f32) (x16 : FVec Ideal S512 .f32)
    (h : Cert.Pre_finite_inputs.fn (F := Ideal) x0 x1 x2 x3 x4 x5 x6 x7 x8 x9 x10 x11 x12 x13 x14 x15 x16 = fun _ => 1#1) :
    (Cert.Spec.inputsOf x0 x1 x2 x3 x4 x5 x6 x7 x8 x9 x10 x11 x12).Real := by
  -- the one entry of the rank-0 result, with the chain of operations in view
  have h0 := congrFun h ix0
  dsimp only [fn, fn_part1, fn_part2, fn_part3, fn_part4] at h0
  -- a conjunction of bits is 1 exactly when each bit is 1
  simp only [andi, IntOp.andi_eq_one] at h0
  obtain ⟨⟨⟨⟨⟨⟨⟨⟨⟨⟨⟨⟨⟨⟨⟨⟨e0, e1⟩, e2⟩, e3⟩, e4⟩, e5⟩, e6⟩, e7⟩, e8⟩, e9⟩, e10⟩, e11⟩, e12⟩, _⟩, _⟩, _⟩, _⟩ := h0
  exact
    { K := fun b n d => real_of_bit x0 _ _ _ e0 (ix3 b n d)
      V := fun b n d => real_of_bit x1 _ _ _ e1 (ix3 b n d)
      Qy := fun b d => real_of_bit x2 _ _ _ e2 (ix2 b d)
      Wbk := fun j d => real_of_bit x3 _ _ _ e3 (ix2 j d)
      bbk := fun j => real_of_bit x4 _ _ _ e4 (ix1 j)
      Wbv := fun j d => real_of_bit x5 _ _ _ e5 (ix2 j d)
      bbv := fun j => real_of_bit x6 _ _ _ e6 (ix1 j)
      Wbc := fun d j => real_of_bit x7 _ _ _ e7 (ix2 d j)
      bbc := fun d => real_of_bit x8 _ _ _ e8 (ix1 d)
      Wuq := fun j d => real_of_bit x9 _ _ _ e9 (ix2 j d)
      buq := fun j => real_of_bit x10 _ _ _ e10 (ix1 j)
      Wue := fun d j => real_of_bit x11 _ _ _ e11 (ix2 d j)
      bue := fun d => real_of_bit x12 _ _ _ e12 (ix1 d) }

end Cert.Finite

end
-- ==== Proof.Lits.lean ====
import Idealize.ShloMosaic.PureOps.Ideal
import Idealize.ShloMosaic.PureOps.Ideal.Laws

/-!
# The two literals the bridge evaluates

Only two float literals have to be read as numbers: the zero every sum starts from, and the count 4096 by
which the kernel multiplies a bias it adds once where the reference adds the bias at each of 4096 positions.
Every other literal (64, 512, the small epsilon) occurs identically on both sides and is never evaluated.
-/

noncomputable section

namespace Cert.Lits

open Idealize.ShloMosaic

/-- The zero word denotes 0. -/
theorem zero : Ideal.ofBits .f32 0x00000000#32 = 0 := Ideal.ofBits_zero_f32

/-- The word of 4096.0 denotes the real 4096. -/
theorem c4096 : Ideal.ofBits .f32 0x45800000#32 = ((4096 : ℝ) : EReal) := by
  simp [Ideal.ofBits, Ideal.ieee, -EReal.coe_mul]; norm_num

end Cert.Lits

end
-- ==== Proof.lean ====
import proofs.«111147_j59974923321458_1_alg».proof.Defs
import proofs.«111147_j59974923321458_1_alg».proof.Proof.Gen.Kernel
import proofs.«111147_j59974923321458_1_alg».proof.Proof.Gen.KernelIdeal
import proofs.«111147_j59974923321458_1_alg».proof.Proof.Gen.ReferenceIdeal
import proofs.«111147_j59974923321458_1_alg».proof.Proof.Gen.Pre_finite_inputs
import proofs.«111147_j59974923321458_1_alg».proof.Proof.Kernel.Region
import proofs.«111147_j59974923321458_1_alg».proof.Proof.KernelIdeal.Value
import proofs.«111147_j59974923321458_1_alg».proof.Proof.RefSide
import proofs.«111147_j59974923321458_1_alg».proof.Proof.SpecLaw
import proofs.«111147_j59974923321458_1_alg».proof.Proof.Finite
import proofs.«111147_j59974923321458_1_alg».proof.Proof.Lits
import Idealize.ShloMosaic.Adequacy
import Idealize.ShloMosaic.Init

/-!
# The claim

The kernel computes, per batch row, the sum over the 4096 positions of the products of projected keys and
values inside one region (two runs of eight tiles, accumulated in a scratch), and then applies each of the
three affine maps once to the sum, counting its bias 4096 times; the reference applies the affine maps at
every position and sums at the end. Both then divide by 64, normalise each row and project.

The three frames: the two kernel programs are one text read at two instances, and the region's run with the
later operations leaves every argument as launched; the reference is straight-line host code.
The idealization rewrote nothing, so there is nothing to preserve.
The value claim: both results are the common tail of an extracted sum; the two extracted sums are the two
formulas of the specification; under the precondition every input is a real number, the zero word is 0 and
the count word is 4096, and then the formulas agree because an affine map commutes with a sum over 4096
positions when its bias is counted 4096 times.
-/

set_option maxRecDepth 16384

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Region.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Region.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

set_option maxHeartbeats 4000000 in
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.ReferenceIdeal.Tail.tailOf (F := Ideal) (Cert.KernelIdeal.Region.extK m c) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    Cert.KernelIdeal.Region.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.ReferenceIdeal.RefValue.result_eq]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  refine congrArg (fun e => Cert.ReferenceIdeal.Tail.tailOf (F := Ideal) e (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) ?_
  funext i
  obtain ⟨b, d, rfl⟩ : ∃ (b : Fin 8) (d : Fin 512), i = ix2 b d := ⟨i 0, i 1, eq_ix2 i⟩
  rw [Cert.ReferenceIdeal.RefValue.ext_apply, Cert.KernelIdeal.Region.extK_apply]
  have hI := Cert.Finite.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (hpre c)
  rw [show Cert.Spec.zlit = 0 from Cert.Lits.zero, show Cert.Spec.clit = ((4096 : ℝ) : EReal) from Cert.Lits.c4096]
  exact (Cert.Spec.ext_eq _ hI b d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
